-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S256x64 : Shape := ⟨2, ![256, 64]⟩
abbrev S256 : Shape := ⟨1, ![256]⟩
abbrev S64x256 : Shape := ⟨2, ![64, 256]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg1 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x800000 32 := broadcastInDim S2x800000 ![] bcast_S_S2x800000 main_c_26
  let main_v70 : IVec S2x800000 1 := cmpi .sge main_arg1 main_v69
  let main_c_27 : IVec S_ 1 := constantI S_ 1 1#1
  let main_v71 : IVec S_ 1 := (fun x v => Host.reduce IntOp.andi x v reducesTo_S2x800000_S_d0_1 h_S_) main_v70 main_c_27
  let main_v72 : IVec S_ 1 := andi main_v68 main_v71
  let main_c_28 : IVec S_ 32 := constantI S_ 32 50000#32
  let main_v73 : IVec S2x800000 32 := broadcastInDim S2x800000 ![] bcast_S_S2x800000 main_c_28
  let main_v74 : IVec S2x800000 1 := cmpi .slt main_arg1 main_v73
  let main_c_29 : IVec S_ 1 := constantI S_ 1 1#1
  let main_v75 : IVec S_ 1 := (fun x v => Host.reduce IntOp.andi x v reducesTo_S2x800000_S_d0_1 h_S_) main_v74 main_c_29
  let main_v76 : IVec S_ 1 := andi main_v72 main_v75
  main_v76

def fn_part3 {F : FTy → Type} [FloatOps F] (main_arg1 : IVec S2x800000 32) (main_arg12 : FVec F S64 .f32) (main_arg13 : FVec F S64x256 .f32) (main_arg14 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x256 .f32 := Host.absf main_arg13
  let main_cst_22 : FVec F S_ .f32 := constant S_ .f32 0x7F800000#32
  let main_v60 : FVec F S64x256 .f32 := broadcastInDim S64x256 ![] bcast_S_S64x256 main_cst_22
  let main_v61 : IVec S64x256 1 := cmpf .olt main_v59 main_v60
  let main_c_23 : IVec S_ 1 := constantI S_ 1 1#1
  let main_v62 : IVec S_ 1 := (fun x v => Host.reduce IntOp.andi x v reducesTo_S64x256_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_v63 main_v67

def fn_part2 {F : FTy → Type} [FloatOps F] (main_arg1 : IVec S2x800000 32) (main_arg8 : FVec F S256 .f32) (main_arg9 : FVec F S64x256 .f32) (main_arg10 : FVec F S64 .f32) (main_arg11 : FVec F S64x64 .f32) (main_arg12 : FVec F S64 .f32) (main_arg13 : FVec F S64x256 .f32) (main_arg14 : FVec F S64 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S64x256 .f32 := Host.absf main_arg9
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg1 main_arg12 main_arg13 main_arg14 main_v48 main_v49 main_v50

def fn_part1 {F : FTy → Type} [FloatOps F] (main_arg1 : IVec S2x800000 32) (main_arg5 : FVec F S256x64 .f32) (main_arg6 : FVec F S256 .f32) (main_arg7 : FVec F S256x64 .f32) (main_arg8 : FVec F S256 .f32) (main_arg9 : FVec F S64x256 .f32) (main_arg10 : FVec F S64 .f32) (main_arg11 : FVec F S64x64 .f32) (main_arg12 : FVec F S64 .f32) (main_arg13 : FVec F S64x256 .f32) (main_arg14 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S50000x64 .f32) (main_arg1 : IVec S2x800000 32) (main_arg2 : FVec F S800000x64 .f32) (main_arg3 : FVec F S256x64 .f32) (main_arg4 : FVec F S256 .f32) (main_arg5 : FVec F S256x64 .f32) (main_arg6 : FVec F S256 .f32) (main_arg7 : FVec F S256x64 .f32) (main_arg8 : FVec F S256 .f32) (main_arg9 : FVec F S64x256 .f32) (main_arg10 : FVec F S64 .f32) (main_arg11 : FVec F S64x64 .f32) (main_arg12 : FVec F S64 .f32) (main_arg13 : FVec F S64x256 .f32) (main_arg14 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S256x64 : Shape := ⟨2, ![256, 64]⟩
abbrev S256 : Shape := ⟨1, ![256]⟩
abbrev S64x256 : Shape := ⟨2, ![64, 256]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x129 : Shape := ⟨2, ![800000, 129]⟩
abbrev S50000x129 : Shape := ⟨2, ![50000, 129]⟩
abbrev S50000x128 : Shape := ⟨2, ![50000, 128]⟩
abbrev S50000x1 : Shape := ⟨2, ![50000, 1]⟩
abbrev S128x256 : Shape := ⟨2, ![128, 256]⟩
abbrev S1x256 : Shape := ⟨2, ![1, 256]⟩
abbrev S1x64 : Shape := ⟨2, ![1, 64]⟩
abbrev S2000x128 : Shape := ⟨2, ![2000, 128]⟩
abbrev S2000x64 : Shape := ⟨2, ![2000, 64]⟩
abbrev S2000x1 : Shape := ⟨2, ![2000, 1]⟩
abbrev S2000x256 : Shape := ⟨2, ![2000, 256]⟩

abbrev nBuf : Space → Nat
  | .hbm => 113
  | .vmem => 26
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S256x64, .f32⟩
  | .hbm, ⟨4, _⟩ => ⟨S256, .f32⟩
  | .hbm, ⟨5, _⟩ => ⟨S256x64, .f32⟩
  | .hbm, ⟨6, _⟩ => ⟨S256, .f32⟩
  | .hbm, ⟨7, _⟩ => ⟨S256x64, .f32⟩
  | .hbm, ⟨8, _⟩ => ⟨S256, .f32⟩
  | .hbm, ⟨9, _⟩ => ⟨S64x256, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x256, .f32⟩
  | .hbm, ⟨14, _⟩ => ⟨S64, .f32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S1, .i32⟩
  | .hbm, ⟨44, _⟩ => ⟨S_, .i32⟩
  | .hbm, ⟨45, _⟩ => ⟨S800000x1, .i32⟩
  | .hbm, ⟨46, _⟩ => ⟨S800000x1, .i1⟩
  | .hbm, ⟨47, _⟩ => ⟨S1x1, .i32⟩
  | .hbm, ⟨48, _⟩ => ⟨S800000x1, .i32⟩
  | .hbm, ⟨49, _⟩ => ⟨S800000x1, .i1⟩
  | .hbm, ⟨50, _⟩ => ⟨S800000x1, .i1⟩
  | .hbm, ⟨51, _⟩ => ⟨S_, .i1⟩
  | .hbm, ⟨52, _⟩ => ⟨S800000, .i1⟩
  | .hbm, ⟨53, _⟩ => ⟨S800000x64, .f32⟩
  | .hbm, ⟨54, _⟩ => ⟨S800000x64, .i1⟩
  | .hbm, ⟨55, _⟩ => ⟨S_, .f32⟩
  | .hbm, ⟨56, _⟩ => ⟨S800000x64, .f32⟩
  | .hbm, ⟨57, _⟩ => ⟨S800000x64, .f32⟩
  | .hbm, ⟨58, _⟩ => ⟨S_, .f32⟩
  | .hbm, ⟨59, _⟩ => ⟨S800000x1, .f32⟩
  | .hbm, ⟨60, _⟩ => ⟨S800000x129, .f32⟩
  | .hbm, ⟨61, _⟩ => ⟨S_, .f32⟩
  | .hbm, ⟨62, _⟩ => ⟨S50000x129, .f32⟩
  | .hbm, ⟨63, _⟩ => ⟨S800000x1, .i32⟩
  | .hbm, ⟨64, _⟩ => ⟨S50000x129, .f32⟩
  | .hbm, ⟨65, _⟩ => ⟨S50000x128, .f32⟩
  | .hbm, ⟨66, _⟩ => ⟨S50000x64, .f32⟩
  | .hbm, ⟨67, _⟩ => ⟨S50000x1, .f32⟩
  | .hbm, ⟨68, _⟩ => ⟨S64x256, .f32⟩
  | .hbm, ⟨69, _⟩ => ⟨S64x256, .f32⟩
  | .hbm, ⟨70, _⟩ => ⟨S128x256, .f32⟩
  | .hbm, ⟨71, _⟩ => ⟨S256, .f32⟩
  | .hbm, ⟨72, _⟩ => ⟨S1x256, .f32⟩
  | .hbm, ⟨73, _⟩ => ⟨S1x256, .f32⟩
  | .hbm, ⟨74, _⟩ => ⟨S64x256, .f32⟩
  | .hbm, ⟨75, _⟩ => ⟨S256x64, .f32⟩
  | .hbm, ⟨76, _⟩ => ⟨S1x64, .f32⟩
  | .hbm, ⟨77, _⟩ => ⟨S256x64, .f32⟩
  | .hbm, ⟨78, _⟩ => ⟨S1x64, .f32⟩
  | .hbm, ⟨79, _⟩ => ⟨S50000x128, .f32⟩
  | .hbm, ⟨80, _⟩ => ⟨S50000x64, .f32⟩
  | .hbm, ⟨81, _⟩ => ⟨S50000x64, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S1, .i32⟩
  | .hbm, ⟨91, _⟩ => ⟨S_, .i32⟩
  | .hbm, ⟨92, _⟩ => ⟨S800000x1, .i32⟩
  | .hbm, ⟨93, _⟩ => ⟨S800000x1, .i1⟩
  | .hbm, ⟨94, _⟩ => ⟨S1x1, .i32⟩
  | .hbm, ⟨95, _⟩ => ⟨S800000x1, .i32⟩
  | .hbm, ⟨96, _⟩ => ⟨S800000x1, .i1⟩
  | .hbm, ⟨97, _⟩ => ⟨S800000x1, .i1⟩
  | .hbm, ⟨98, _⟩ => ⟨S_, .i1⟩
  | .hbm, ⟨99, _⟩ => ⟨S800000, .i1⟩
  | .hbm, ⟨100, _⟩ => ⟨S800000x64, .f32⟩
  | .hbm, ⟨101, _⟩ => ⟨S800000x64, .i1⟩
  | .hbm, ⟨102, _⟩ => ⟨S_, .f32⟩
  | .hbm, ⟨103, _⟩ => ⟨S800000x64, .f32⟩
  | .hbm, ⟨104, _⟩ => ⟨S800000x64, .f32⟩
  | .hbm, ⟨105, _⟩ => ⟨S_, .f32⟩
  | .hbm, ⟨106, _⟩ => ⟨S50000x64, .f32⟩
  | .hbm, ⟨107, _⟩ => ⟨S800000x1, .i32⟩
  | .hbm, ⟨108, _⟩ => ⟨S50000x64, .f32⟩
  | .hbm, ⟨109, _⟩ => ⟨S50000x128, .f32⟩
  | .hbm, ⟨110, _⟩ => ⟨S64x64, .f32⟩
  | .hbm, ⟨111, _⟩ => ⟨S1x64, .f32⟩
  | .hbm, ⟨112, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S64x256, .f32⟩
  | .local _ .vmem, ⟨8, _⟩ => ⟨S1x256, .f32⟩
  | .local _ .vmem, ⟨9, _⟩ => ⟨S1x256, .f32⟩
  | .local _ .vmem, ⟨10, _⟩ => ⟨S256x64, .f32⟩
  | .local _ .vmem, ⟨11, _⟩ => ⟨S1x64, .f32⟩
  | .local _ .vmem, ⟨12, _⟩ => ⟨S256x64, .f32⟩
  | .local _ .vmem, ⟨13, _⟩ => ⟨S1x64, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x64, .f32⟩
  | .local _ .vmem, ⟨19, _⟩ => ⟨S2000x64, .f32⟩
  | .local _ .vmem, ⟨20, _⟩ => ⟨S2000x1, .f32⟩
  | .local _ .vmem, ⟨21, _⟩ => ⟨S2000x1, .f32⟩
  | .local _ .vmem, ⟨22, _⟩ => ⟨S64x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c_1 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v5 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_v14 : Ref sig .tc := ⟨.hbm, 54, rfl⟩
abbrev main_call2_cst : Ref sig .tc := ⟨.hbm, 55, rfl⟩
abbrev main_call2_v15 : Ref sig .tc := ⟨.hbm, 56, rfl⟩
abbrev main_v6 : Ref sig .tc := ⟨.hbm, 57, rfl⟩
abbrev main_cst : Ref sig .tc := ⟨.hbm, 58, rfl⟩
abbrev main_v7 : Ref sig .tc := ⟨.hbm, 59, rfl⟩
abbrev main_v8 : Ref sig .tc := ⟨.hbm, 60, rfl⟩
abbrev main_cst_3 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v29 : Ref sig .tc := ⟨.hbm, 104, rfl⟩
abbrev main_cst_4 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  slices_S2x800000_S1x800000_1_0 : S2x800000.Slices ![1, 0] S1x800000
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  concatenates_S800000x64_S800000x64_S800000x1_S800000x129_d1 : Shape.Concatenates [S800000x64, S800000x64, S800000x1] S800000x129 1
  bcast_S_S50000x129 : S_.BroadcastsInDim S50000x129 (![] : Fin 0 → Fin S50000x129.rank)
  slices_S50000x129_S50000x128_0_0 : S50000x129.Slices ![0, 0] S50000x128
  slices_S50000x129_S50000x64_0_64 : S50000x129.Slices ![0, 64] S50000x64
  slices_S50000x129_S50000x1_0_128 : S50000x129.Slices ![0, 128] S50000x1
  transposes_S256x64_S64x256_1_0 : S256x64.Transposes [1, 0] S64x256
  concatenates_S64x256_S64x256_S128x256_d0 : Shape.Concatenates [S64x256, S64x256] S128x256 0
  shapeCasts_S256_S1x256 : S256.ShapeCasts S1x256
  transposes_S64x256_S256x64_1_0 : S64x256.Transposes [1, 0] S256x64
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  concatenates_S2000x64_S2000x64_S2000x128_d1 : Shape.Concatenates [S2000x64, S2000x64] S2000x128 1
  slices_S50000x128_S50000x64_0_0 : S50000x128.Slices ![0, 0] S50000x64
  slices_S50000x128_S50000x64_0_64 : S50000x128.Slices ![0, 64] S50000x64
  bcast_S_S50000x64 : S_.BroadcastsInDim S50000x64 (![] : Fin 0 → Fin S50000x64.rank)
  concatenates_S50000x64_S50000x64_S50000x128_d1 : Shape.Concatenates [S50000x64, S50000x64] S50000x128 1
  transposes_S64x64_S64x64_1_0 : S64x64.Transposes [1, 0] S64x64
  slices_S2000x128_o0_0_S2000x64 : S2000x128.Slices ![0, 0] S2000x64
  slices_S2000x128_o0_64_S2000x64 : S2000x128.Slices ![0, 64] S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S2000x1_S2000x64 : S2000x1.Broadcasts S2000x64
  shapeCasts_S2000x64_S2000x64 : S2000x64.ShapeCasts S2000x64
  gather_S50000x64_S800000x1_S800000x64_1_0_n_n_0_1_164_wf : GatherDims.WF S50000x64 S800000x1 S800000x64 [1] [0] [] [0] [] 1 ![1, 64]
  scatter_S50000x129_S800000x1_S800000x129_1_0_0_1_wf : ScatterDims.WF S50000x129 S800000x1 S800000x129 [1] [0] [0] 1
  dot_S2000x128_S128x256_S2000x256_1_0_0_1_n_n_wf : DotDims.WF S2000x128 S128x256 S2000x256 [1] [0] [0] [1] [] []
  dot_S2000x64_S64x256_S2000x256_1_0_0_1_n_n_wf : DotDims.WF S2000x64 S64x256 S2000x256 [1] [0] [0] [1] [] []
  dot_S2000x256_S256x64_S2000x64_1_0_0_1_n_n_wf : DotDims.WF S2000x256 S256x64 S2000x64 [1] [0] [0] [1] [] []
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S256x64.size a
  hwx0_7 : ∀ i : grid0.Coords, EltTy.bits .f32 = 32 ∨ (Rect.block (s := S256x64) S256x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x64.size a ≤ S256x64.size a
  hwx0_9 : ∀ i : grid0.Coords, EltTy.bits .f32 = 32 ∨ (Rect.block (s := S256x64) S256x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x129_S800000x1_S800000x129_1_0_0_1 : ScatterDims S50000x129 S800000x1 S800000x129 where
  updateWindowDims := [1]
  insertedWindowDims := [0]
  scatterDimsToOperandDims := [0]
  indexVectorDim := 1
  wf := scatter_S50000x129_S800000x1_S800000x129_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S256x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S256x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v33) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S256x64 : Shape := ⟨2, ![256, 64]⟩
abbrev S256 : Shape := ⟨1, ![256]⟩
abbrev S64x256 : Shape := ⟨2, ![64, 256]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000x256 : Shape := ⟨2, ![50000, 256]⟩
abbrev S1x256 : Shape := ⟨2, ![1, 256]⟩
abbrev S800000x256 : Shape := ⟨2, ![800000, 256]⟩
abbrev S_ : Shape := ⟨0, ![]⟩
abbrev S800000x1 : Shape := ⟨2, ![800000, 1]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S256x64, .f32⟩
  | .hbm, ⟨4, _⟩ => ⟨S256, .f32⟩
  | .hbm, ⟨5, _⟩ => ⟨S256x64, .f32⟩
  | .hbm, ⟨6, _⟩ => ⟨S256, .f32⟩
  | .hbm, ⟨7, _⟩ => ⟨S256x64, .f32⟩
  | .hbm, ⟨8, _⟩ => ⟨S256, .f32⟩
  | .hbm, ⟨9, _⟩ => ⟨S64x256, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x256, .f32⟩
  | .hbm, ⟨14, _⟩ => ⟨S64, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S64x256, .f32⟩
  | .hbm, ⟨20, _⟩ => ⟨S50000x256, .f32⟩
  | .hbm, ⟨21, _⟩ => ⟨S1x256, .f32⟩
  | .hbm, ⟨22, _⟩ => ⟨S50000x256, .f32⟩
  | .hbm, ⟨23, _⟩ => ⟨S50000x256, .f32⟩
  | .hbm, ⟨24, _⟩ => ⟨S64x256, .f32⟩
  | .hbm, ⟨25, _⟩ => ⟨S800000x256, .f32⟩
  | .hbm, ⟨26, _⟩ => ⟨S1x256, .f32⟩
  | .hbm, ⟨27, _⟩ => ⟨S800000x256, .f32⟩
  | .hbm, ⟨28, _⟩ => ⟨S800000x256, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x256, .f32⟩
  | .hbm, ⟨38, _⟩ => ⟨S800000x256, .f32⟩
  | .hbm, ⟨39, _⟩ => ⟨S_, .f32⟩
  | .hbm, ⟨40, _⟩ => ⟨S50000x256, .f32⟩
  | .hbm, ⟨41, _⟩ => ⟨S800000x1, .i32⟩
  | .hbm, ⟨42, _⟩ => ⟨S50000x256, .f32⟩
  | .hbm, ⟨43, _⟩ => ⟨S64x256, .f32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S50000x256, .f32⟩
  | .hbm, ⟨49, _⟩ => ⟨S_, .f32⟩
  | .hbm, ⟨50, _⟩ => ⟨S50000x256, .f32⟩
  | .hbm, ⟨51, _⟩ => ⟨S50000x256, .f32⟩
  | .hbm, ⟨52, _⟩ => ⟨S256x64, .f32⟩
  | .hbm, ⟨53, _⟩ => ⟨S50000x64, .f32⟩
  | .hbm, ⟨54, _⟩ => ⟨S1x64, .f32⟩
  | .hbm, ⟨55, _⟩ => ⟨S50000x64, .f32⟩
  | .hbm, ⟨56, _⟩ => ⟨S50000x64, .f32⟩
  | .hbm, ⟨57, _⟩ => ⟨S64x64, .f32⟩
  | .hbm, ⟨58, _⟩ => ⟨S800000x64, .f32⟩
  | .hbm, ⟨59, _⟩ => ⟨S1x64, .f32⟩
  | .hbm, ⟨60, _⟩ => ⟨S800000x64, .f32⟩
  | .hbm, ⟨61, _⟩ => ⟨S800000x64, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .f32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S256x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S_, .f32⟩
  | .hbm, ⟨83, _⟩ => ⟨S50000x64, .f32⟩
  | .hbm, ⟨84, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_1 : Ref sig .tc := ⟨.hbm, 62, rfl⟩
abbrev main_v42 : Ref sig .tc := ⟨.hbm, 63, rfl⟩
abbrev main_v43 : Ref sig .tc := ⟨.hbm, 64, rfl⟩
abbrev main_c_2 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_3 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S256x64_S64x256_1_0 : S256x64.Transposes [1, 0] S64x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1x256_S800000x256_0_1 : S1x256.BroadcastsInDim S800000x256 (![0, 1] : Fin 2 → Fin S800000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S64x64_S64x64_1_0 : S64x64.Transposes [1, 0] S64x64
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  dot_S50000x64_S64x256_S50000x256_1_0_0_1_n_n_wf : DotDims.WF S50000x64 S64x256 S50000x256 [1] [0] [0] [1] [] []
  dot_S800000x64_S64x256_S800000x256_1_0_0_1_n_n_wf : DotDims.WF S800000x64 S64x256 S800000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S800000x64_S64x256_S800000x256_1_0_0_1_n_n : DotDims S800000x64 S64x256 S800000x256 where
  lhsContracting := [1]
  rhsContracting := [0]
  lhsNonContracting := [0]
  rhsNonContracting := [1]
  lhsBatch := []
  rhsBatch := []
  wf := dot_S800000x64_S64x256_S800000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRegion0.lean ====
/-
  The first launch, the fused first layer, at the buffer contents it is entered with. For each of its twelve windows
  the block at a grid point; what the body leaves in the result window's staging buffer, as a closed function of the
  eleven input blocks; the body's triple; the pipeline's proof data; and the body obligation at every point.
-/
import proofs.«408220_j76836964925933_3_alg».proof.Proof.Gen.Kernel.Launch
import proofs.«408220_j76836964925933_3_alg».proof.Proof.Gen.Kernel.Skeleton
import proofs.«408220_j76836964925933_3_alg».proof.Proof.Gen.Kernel.Points
import Idealize.ShloMosaic.Lib.Pipeline.FrameBody
import Idealize.ShloMosaic.Lib.Tactic

-- membership in a rectangle of these extents recurses once per coordinate of the long axis
set_option maxRecDepth 16384

noncomputable section

open Cert.Kernel Cert.Kernel.Gen

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the launch is entered
variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is the entry contents (`hA`) and whose body leaves the block in place (`hafter`): an input that is
    not fetched at a point has not moved its block index since the point before, and the body left the block there.
    The three row-blocked inputs are fetched at every point; the eight whole-array inputs at the first point only,
    their block index constant. Every window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every load and the one store of the body is through the whole-buffer rectangle of its staging buffer's shape. -/

abbrev r0_0 : Rect S2000x128 := Rect.unit (s := S2000x128) ![0, 0] S2000x128.size inb_S2000x128_S2000x128_0_0
abbrev r0_1 : Rect S2000x64 := Rect.unit (s := S2000x64) ![0, 0] S2000x64.size inb_S2000x64_S2000x64_0_0
abbrev r0_2 : Rect S128x256 := Rect.unit (s := S128x256) ![0, 0] S128x256.size inb_S128x256_S128x256_0_0
abbrev r0_3 : Rect S64x256 := Rect.unit (s := S64x256) ![0, 0] S64x256.size inb_S64x256_S64x256_0_0
abbrev r0_4 : Rect S2000x1 := Rect.unit (s := S2000x1) ![0, 0] S2000x1.size inb_S2000x1_S2000x1_0_0
abbrev r0_5 : Rect S1x256 := Rect.unit (s := S1x256) ![0, 0] S1x256.size inb_S1x256_S1x256_0_0
abbrev r0_6 : Rect S256x64 := Rect.unit (s := S256x64) ![0, 0] S256x64.size inb_S256x64_S256x64_0_0
abbrev r0_7 : Rect S1x64 := Rect.unit (s := S1x64) ![0, 0] S1x64.size inb_S1x64_S1x64_0_0

/-! ## What the body leaves in the result window's buffer -/

/-- The result window's staging buffer after the body, from the eleven input blocks: its one store, through the
    whole-buffer rectangle, of the second projections' payload over the truncated hidden activation (the payloads are
    the printed body's, its loads in the body's own order: windows 0, 1, 3, 4, 2, 5, 6, then 7, 9, then 8, 10). -/
def out0_11 (x0 : Vec F S2000x128 .f32) (x1 : Vec F S2000x64 .f32) (x2 : Vec F S2000x1 .f32) (x3 : Vec F S128x256 .f32) (x4 : Vec F S64x256 .f32) (x5 : Vec F S1x256 .f32) (x6 : Vec F S1x256 .f32) (x7 : Vec F S256x64 .f32) (x8 : Vec F S1x64 .f32) (x9 : Vec F S256x64 .f32) (x10 : Vec F S1x64 .f32) : Vec F S2000x128 .f32 :=
  View.canon [⟨r0_0, k0_pay1 (k0_pay2 (View.ld x0 r0_0) (View.ld x1 r0_1) (View.ld x3 r0_2) (View.ld x4 r0_3) (View.ld x2 r0_4) (View.ld x5 r0_5) (View.ld x6 r0_5)) (k0_pay3 (View.ld x7 r0_6)) (k0_pay4 (View.ld x9 r0_6)) (constant S2000x64 .f32 0x00000000#32) (View.ld x8 r0_7) (View.ld x10 r0_7)⟩]

/-- The one store tiles the buffer, so it covers it. -/
theorem cover0_11 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 4000000 in
/-- The kernel body on whole staging memrefs, the eleven inputs' at read contents `x0 .. x10` and the result's at
    anything, runs to the continuation holding the inputs' as they were and the result's at `out0_11` of the inputs':
    the printed function and the one part it calls are their skeletons, eleven loads, a load of the result buffer whose
    value is dropped, and one store, which the symbolic executor runs one by one. -/
theorem sound_kernel0 (c : Dev nD) (E : Set ℕ) (i : grid0.Coords) (arg1 : Memref sig .tc .vmem S2000x128 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x64 .f32) (harg8 : arg8.IsWhole) (arg9 : Memref sig .tc .vmem S1x64 .f32) (harg9 : arg9.IsWhole) (arg10 : Memref sig .tc .vmem S256x64 .f32) (harg10 : arg10.IsWhole) (arg11 : Memref sig .tc .vmem S1x64 .f32) (harg11 : arg11.IsWhole) (arg12 : Memref sig .tc .vmem S2000x128 .f32) (harg12 : arg12.IsWhole)
    (x0 : Vec F S2000x128 .f32) (x1 : Vec F S2000x64 .f32) (x2 : Vec F S2000x1 .f32) (x3 : Vec F S128x256 .f32) (x4 : Vec F S64x256 .f32) (x5 : Vec F S1x256 .f32) (x6 : Vec F S1x256 .f32) (x7 : Vec F S256x64 .f32) (x8 : Vec F S1x64 .f32) (x9 : Vec F S256x64 .f32) (x10 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare (out0_11 x0 x1 x2 x3 x4 x5 x6 x7 x8 x9 x10)) -∗ K ⟨⟩))
      ⊢ wp frame (wpE (defs₀ (F := F)) Variants.none c none) E (cc0__layer1_fused_kernel i arg1 harg1 arg2 harg2 arg3 harg3 arg4 harg4 arg5 harg5 arg6 harg6 arg7 harg7 arg8 harg8 arg9 harg9 arg10 harg10 arg11 harg11 arg12 harg12) K := by
  simp only [cc0__layer1_fused_kernel_eq_skeleton]; unfold cc0__layer1_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _)

/-! ## The pipeline's proof data -/

/-- The proof data of the launch on core `c`: the arrays as the launch finds them; after the body at point `t` each
    input's buffer at its block and the result's at `out0_11` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The second launch (custom_call 1, the layer-2 fused kernel) as a pipeline of six windows on a grid of 25 points,
  at a parameter V: the TensorCore's buffer contents when the launch is entered.

  Per point t the pipeline hands the body window w's block of its array (block row t of the three node tables, the
  whole of the weight matrix and of the bias row, which are fetched once and stay), and the body stores one value
  into the result window's buffer: the payload k1_pay1 of the five blocks it loaded. This module states that as the
  pipeline's proof data (dat1): the arrays are V's, an input window's buffer after the body is still its block, the
  result window's buffer after the body is out1_5 of the five input blocks; and it proves the body obligation — the
  printed body, run on the staging memrefs holding those blocks, leaves exactly that.
-/
import proofs.«408220_j76836964925933_3_alg».proof.Proof.Gen.Kernel.Launch
import proofs.«408220_j76836964925933_3_alg».proof.Proof.Gen.Kernel.Skeleton
import proofs.«408220_j76836964925933_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the launch is entered
variable (V : (c : Dev nD) → (b : Ref sig .tc) → Buf (Elt F) ((c : Thread nD τ).loc b))

/-! ## The windows' blocks -/

/-- Window w's block at point t, read off its array as the launch finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is V's and whose body leaves the block in place: an unfetched point has not moved the block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is V's and whose body leaves the block in place: an unfetched point has not moved the block index. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is V's and whose body leaves the block in place: an unfetched point has not moved the block index. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is V's and whose body leaves the block in place: an unfetched point has not moved the block index. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is V's and whose body leaves the block in place: an unfetched point has not moved the block index. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole staging buffer -/

abbrev r1_0 : Rect S2000x128 := Rect.unit (s := S2000x128) ![0, 0] S2000x128.size inb_S2000x128_S2000x128_0_0
abbrev r1_1 : Rect S2000x64 := Rect.unit (s := S2000x64) ![0, 0] S2000x64.size inb_S2000x64_S2000x64_0_0
abbrev r1_2 : Rect S2000x1 := Rect.unit (s := S2000x1) ![0, 0] S2000x1.size inb_S2000x1_S2000x1_0_0
abbrev r1_3 : Rect S64x64 := Rect.unit (s := S64x64) ![0, 0] S64x64.size inb_S64x64_S64x64_0_0
abbrev r1_4 : Rect S1x64 := Rect.unit (s := S1x64) ![0, 0] S1x64.size inb_S1x64_S1x64_0_0

/-! ## What the body leaves in the result window's buffer -/

/-- Window 5's staging buffer after the body, from the five input windows' blocks x0 .. x4: its one store, of the
    payload of what the body loaded (in the body's load order: windows 0, 3, 2, 4, 1). -/
def out1_5 (x0 : Vec F S2000x128 .f32) (x1 : Vec F S2000x64 .f32) (x2 : Vec F S2000x1 .f32) (x3 : Vec F S64x64 .f32) (x4 : Vec F S1x64 .f32) : Vec F S2000x64 .f32 :=
  View.canon [⟨r1_1, k1_pay1 (View.ld x0 r1_0) (View.ld x3 r1_3) (View.ld x2 r1_2) (View.ld x4 r1_4) (View.ld x1 r1_1)⟩]

/-- The one store takes the whole buffer, so it covers it. -/
theorem cover1_5 (p0 : Vec F S2000x64 .f32) (y : S2000x64.Idx) :
    ∃ pc ∈ ([⟨r1_1, p0⟩] : List (View.Piece (Elt F) S2000x64 .f32)), y ∈ pc.1.set :=
  View.cover_of_tiled [⟨r1_1, p0⟩] S2000x64.size (by rfl) y

/-! ## The body's triple -/

set_option maxHeartbeats 1000000 in
/-- The kernel body on whole staging memrefs, the five inputs' at read contents x0 .. x4 and the result's at anything,
    runs to the continuation holding the inputs' as they were and the result's at out1_5 of the inputs': the printed
    function is its skeleton, which the symbolic executor runs load by load; the load of the result buffer that
    precedes the store reads whatever is there and its value is dropped. -/
theorem sound_kernel1 (c : Dev nD) (E : Set ℕ) (i : grid1.Coords) (arg1 : Memref sig .tc .vmem S2000x128 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x128 .f32) (x1 : Vec F S2000x64 .f32) (x2 : Vec F S2000x1 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__layer2_fused_kernel i arg1 harg1 arg2 harg2 arg3 harg3 arg4 harg4 arg5 harg5 arg6 harg6) K := by
  simp only [cc1__layer2_fused_kernel_eq_skeleton]; unfold cc1__layer2_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the second launch's pipeline on core c: the arrays as the launch finds them (V); after the body
    at point t each input's buffer at its block and the result's at out1_5 of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/- The kernel program's @main run from the launch to the return, as a value. The two kernel regions' results are
   named from the launch memory: region 0 leaves in its result array what its pipeline's write-backs fold to over the
   buffers the six host stretches before it leave, region 1 likewise over the buffers the three stretches between the
   regions leave (`outsOf`, `outs7`, `outs11`). Each region is then a segment record over the thread state "every
   unscoped buffer at the valuation between the items, the generator register at some state, nothing owed" (`reg0`,
   `reg1`), and the conditional run at these records gives `run_value`: every weakly fair execution of @main
   terminates with the result buffer at region 1's folded write-backs and every argument array as launched. -/
import proofs.«408220_j76836964925933_3_alg».proof.Proof.KRegion0
import proofs.«408220_j76836964925933_3_alg».proof.Proof.KRegion1
import proofs.«408220_j76836964925933_3_alg».proof.Proof.KRunCond
import Idealize.ShloMosaic.Lib.Pipeline.RegionsLoop
import Idealize.ShloMosaic.Lib.Pipeline.FrameSuffix

-- decided memberships over the program's references recurse past the default depth
set_option maxRecDepth 1068

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## What the two regions leave -/

/-- The buffers region 0 is entered from: the launch memory after the six host stretches before it. -/
def entry0 : (c : Dev nD) → (b : Ref sig .tc) → Buf (Elt F) ((c : Thread nD τ).loc b) := fun c b => V6 m c b

/-- The buffers as region 0 leaves them: its arrays at what the pipeline's write-backs leave, every other buffer as
    entered. -/
def exit0 (c : Dev nD) : Valuation τ sig (Elt F) :=
  Pipeline.withArrays spec0 c (V6 m c) fun w => (dat0 (entry0 m) c).arrAt w cfg0.N

/-- Region 0's part of the regions' results alone (region 1's entry reads the results at no other point). -/
def outsA : Outs (F := F) := fun _ r c => exit0 m c r

/-- The buffers region 1 is entered from, read off region 0's results alone. -/
def entryA : (c : Dev nD) → (b : Ref sig .tc) → Buf (Elt F) ((c : Thread nD τ).loc b) := fun c b => V10 m (outsA m) c b

/-- The buffers as region 1 leaves them. -/
def exit1 (c : Dev nD) : Valuation τ sig (Elt F) :=
  Pipeline.withArrays spec1 c (V10 m (outsA m) c) fun w => (dat1 (entryA m) c).arrAt w cfg1.N

/-- What the two regions leave in the buffers they may change: after item 6 region 0's exit contents, after item 10
    region 1's. -/
def outsOf : Outs (F := F) := fun j r c => if j = 7 then exit0 m c r else exit1 m c r

theorem outsOf_seven (r : Ref sig .tc) (c : Dev nD) : outsOf m 7 r c = exit0 m c r := if_pos rfl
theorem outsOf_eleven (r : Ref sig .tc) (c : Dev nD) : outsOf m 11 r c = exit1 m c r := if_neg (by decide)

/-- Region 0 leaves in its result array what its write-backs fold to. -/
theorem outs7 (c : Dev nD) : outsOf m 7 main_v26 c = (dat0 (entry0 m) c).arrAt 11 cfg0.N :=
  (outsOf_seven m main_v26 c).trans (Pipeline.withArrays_arr spec0 launch0.win.arr_inj c _ _ 11)

/-- The buffers after region 0 depend on the regions' results through region 0's alone, -/
theorem V7_outsOf (c : Dev nD) : V7 m (outsOf m) c = V7 m (outsA m) c := by
  show Function.update (V6 m c) main_v26 (outsOf m 7 main_v26 c) = Function.update (V6 m c) main_v26 (outsA m 7 main_v26 c)
  rw [outsOf_seven]; rfl
/-- and so do the buffers region 1 is entered from. -/
theorem V10_outsOf (c : Dev nD) : V10 m (outsOf m) c = V10 m (outsA m) c := by
  show StableHlo.after hostOps1_2 (StableHlo.after hostOps1_1 (StableHlo.after hostOps1 (V7 m (outsOf m) c))) = StableHlo.after hostOps1_2 (StableHlo.after hostOps1_1 (StableHlo.after hostOps1 (V7 m (outsA m) c)))
  rw [V7_outsOf]

/-- The buffers region 1 is entered from. -/
def entry1 : (c : Dev nD) → (b : Ref sig .tc) → Buf (Elt F) ((c : Thread nD τ).loc b) := fun c b => V10 m (outsOf m) c b

theorem entry1_eq : entry1 m = entryA m := by
  funext c b; unfold entry1 entryA; rw [V10_outsOf]

/-- Region 1 leaves in its result array what its write-backs fold to. -/
theorem outs11 (c : Dev nD) : outsOf m 11 main_v36 c = (dat1 (entry1 m) c).arrAt 5 cfg1.N := by
  rw [entry1_eq]
  exact (outsOf_eleven m main_v36 c).trans (Pipeline.withArrays_arr spec1 launch1.win.arr_inj c _ _ 5)

/-! ## The valuations between the items agree with the regions' arrays -/

/-- The buffers after region 0, at the TensorCore's references. -/
abbrev left0 : (c : Dev nD) → (b : Ref sig .tc) → Buf (Elt F) ((c : Thread nD τ).loc b) := fun c b => V7 m (outsOf m) c b
/-- The buffers after region 1, at the TensorCore's references. -/
abbrev left1 : (c : Dev nD) → (b : Ref sig .tc) → Buf (Elt F) ((c : Thread nD τ).loc b) := fun c b => V11 m (outsOf m) c b

/-- After region 0 each of its arrays holds what the pipeline leaves: an input what it held (never written back, and
    the buffers after the region differ from those before it at the result array alone), the result its write-backs. -/
theorem hF0 (c : Dev nD) (w : Fin cfg0.W) : (dat0 (entry0 m) c).arrAt w cfg0.N = left0 m c (Pipeline.arrRef spec0 w) := by
  by_cases hw : w = 11
  · subst hw
    exact (outs7 m c).symm.trans (Function.update_self (β := fun b : DevRef τ sig => b.ty.Contents (Elt F)) (Proc.devRef .tc main_v26) _ (V6 m c)).symm
  · have hin : (cfg0.win w).isOut = false := by revert w; decide
    have hne : Pipeline.arrRef spec0 w ∉ ([main_v26] : List (Ref sig .tc)) := by revert w; decide
    exact ((dat0 (entry0 m) c).arrAt_in w hin _).trans ((A_eq0 (entry0 m) c w).trans (V7_of m (outsOf m) c _ hne).symm)
/-- Off region 0's arrays the buffers after it are those before it. -/
theorem hrest0 (c : Dev nD) : ∀ b, b ∉ Finset.univ.image (Pipeline.arrRef spec0) → left0 m c b = entry0 m c b :=
  fun b hb => V7_of m (outsOf m) c b fun h =>
    hb (Finset.mem_image.mpr ⟨11, Finset.mem_univ _, (List.mem_singleton.mp h).symm⟩)

/-- After region 1 each of its arrays holds what the pipeline leaves. -/
theorem hF1 (c : Dev nD) (w : Fin cfg1.W) : (dat1 (entry1 m) c).arrAt w cfg1.N = left1 m c (Pipeline.arrRef spec1 w) := by
  by_cases hw : w = 5
  · subst hw
    exact (outs11 m c).symm.trans (Function.update_self (β := fun b : DevRef τ sig => b.ty.Contents (Elt F)) (Proc.devRef .tc main_v36) _ (V10 m (outsOf m) c)).symm
  · have hin : (cfg1.win w).isOut = false := by revert w; decide
    have hne : Pipeline.arrRef spec1 w ∉ ([main_v36] : List (Ref sig .tc)) := by revert w; decide
    exact ((dat1 (entry1 m) c).arrAt_in w hin _).trans ((A_eq1 (entry1 m) c w).trans (V11_of m (outsOf m) c _ hne).symm)
/-- Off region 1's arrays the buffers after it are those before it. -/
theorem hrest1 (c : Dev nD) : ∀ b, b ∉ Finset.univ.image (Pipeline.arrRef spec1) → left1 m c b = entry1 m c b :=
  fun b hb => V11_of m (outsOf m) c b fun h =>
    hb (Finset.mem_image.mpr ⟨5, Finset.mem_univ _, (List.mem_singleton.mp h).symm⟩)

/-! ## The proof data family and the thread state -/

/-- Every pipeline's proof data, each at its region's entry contents (a literal `match`, so that the data at a numeral
    reduces to the printed configuration's). -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

/-- No core owes another anything: no level is assigned. -/
abbrev L₀ : GSem nD τ sig → Finset Unit := fun _ => ∅
abbrev lv₀ : GSem nD τ sig → Unit → ℕ := fun _ _ => 0
/-- What rides beside the buffers through every item: the core's generator register at some state (the class
    invariant takes it in and gives it back) and its dues, at nothing. -/
abbrev R (c : Dev nD) : sProp 𝕄 := iprop((∃ r, prngReg c r) ∗ ∃ W, owes (c : Thread nD τ) (0 : CellTallies nD τ sig Unit) W)

/-! ## The regions as segments -/

-- `iapply` of a library lemma stated over the pinned configuration unifies with the printed one only when unification
-- may unfold plain definitions in a metavariable's type
set_option backward.isDefEq.respectTransparency.types false in
/-- REGION 0 over the thread state: entered from every unscoped buffer at the valuation before it, left at the one
    after it. Its arrays split out of the unscoped buffers and put back at the exit contents; the generator register
    into the class invariant and out; nothing owed; no semaphore of the kernel's own. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L₀ lv₀ 0 fun _ _ => rfl
  pre c := iprop(StableHlo.held (c : Thread nD τ) (Pipeline.ucRefs τ sig) (V6 m c) ∗ R c)
  post c := iprop(StableHlo.held (c : Thread nD τ) (Pipeline.ucRefs τ sig) (V7 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [show (unscopedBufs (Ix := Unit) (Name := ℕ) (U := UR sig nD τ) (Lvl := ℕ) c (entry0 m c) : sProp 𝕄)
        = StableHlo.held (c : Thread nD τ) (Pipeline.ucRefs τ sig) (V6 m c) from Pipeline.unscopedBufs_held c (V6 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (left0 m c) ((pdats m 0 c).arrAt · cfg0.N) (hF0 m c) (hrest0 m c)
    rw [show (unscopedBufs (Ix := Unit) (Name := ℕ) (U := UR sig nD τ) (Lvl := ℕ) c (left0 m c) : sProp 𝕄)
        = StableHlo.held (c : Thread nD τ) (Pipeline.ucRefs τ sig) (V7 m (outsOf m) c) from Pipeline.unscopedBufs_held c (V7 m (outsOf m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification
-- may unfold plain definitions in a metavariable's type
set_option backward.isDefEq.respectTransparency.types false in
/-- REGION 1 over the thread state: entered from every unscoped buffer at the valuation before it, left at the one
    after it. Its arrays split out of the unscoped buffers and put back at the exit contents; the generator register
    into the class invariant and out; nothing owed; no semaphore of the kernel's own. -/
def reg1 : Pipeline.RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L₀ lv₀ 1 fun _ _ => rfl
  pre c := iprop(StableHlo.held (c : Thread nD τ) (Pipeline.ucRefs τ sig) (V10 m (outsOf m) c) ∗ R c)
  post c := iprop(StableHlo.held (c : Thread nD τ) (Pipeline.ucRefs τ sig) (V11 m (outsOf m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [show (unscopedBufs (Ix := Unit) (Name := ℕ) (U := UR sig nD τ) (Lvl := ℕ) c (entry1 m c) : sProp 𝕄)
        = StableHlo.held (c : Thread nD τ) (Pipeline.ucRefs τ sig) (V10 m (outsOf m) c) from Pipeline.unscopedBufs_held c (V10 m (outsOf m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (left1 m c) ((pdats m 1 c).arrAt · cfg1.N) (hF1 m c) (hrest1 m c)
    rw [show (unscopedBufs (Ix := Unit) (Name := ℕ) (U := UR sig nD τ) (Lvl := ℕ) c (left1 m c) : sProp 𝕄)
        = StableHlo.held (c : Thread nD τ) (Pipeline.ucRefs τ sig) (V11 m (outsOf m) c) from Pipeline.unscopedBufs_held c (V11 m (outsOf m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- THE RUN AS A VALUE: from any memory with zero counters every weakly fair execution of @main terminates, the result
    buffer holding what region 1's write-backs fold to and every argument array its launch contents: the conditional
    run at the regions' records above, the rest state "the generator register at some state, nothing owed" on every
    core throughout. -/
theorem run_value (ρ : Dev nD → PrngReg) : θ_run defs (onTc (τ := τ) (main (F := F))) ⟨m, fun _ => 0, ρ⟩ (fun r => ∀ c : Dev nD,
    r.2.mem ((c.tc : Thread nD τ).loc main_v36) = outsOf m 11 main_v36 c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)) := by
  refine (θ_run defs _ _).mono (fun r h c => ?_)
    (run_cond m (emb₁ (Ix := Unit) (Val := Elt F) (Name := ℕ) (Lvl := ℕ)) () Variants.none L₀ lv₀ (fun _ _ => rfl) ρ (outsOf m) (pdats m)
      0 (fun _ => iprop(emp)) (initOf (Pipeline.cells cfgs cellOf_inj) (Pipeline.launchToks cfgs cellOf_inj)) ?hu₀
      (fun _ c => R c) ?hE0 (fun c => ?hE2) (reg0 m) (fun _ => .rfl) (fun _ => .rfl) (reg1 m) (fun _ => .rfl) (fun _ => .rfl))
  case hu₀ =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L₀ lv₀ fun c => ?_
    iintro ⟨⟨-, HO, -, Hp, -⟩, -⟩
    imodintro
    isplitl [Hp]; · iexists _; iexact Hp
    iexists ∅; iexact HO
  case hE2 =>
    iintro ⟨-, HO⟩; iexact HO
  · have h36 : V11 m (outsOf m) c main_v36 = outsOf m 11 main_v36 c :=
      Function.update_self (β := fun b : DevRef τ sig => b.ty.Contents (Elt F)) (Proc.devRef .tc main_v36) _ (V10 m (outsOf m) c)
    exact ⟨(h c).1.trans h36, (h c).2⟩

end Cert.Kernel.Hand

end
-- ==== Proof.KIRegion0.lean ====
/-
  The first launch, the fused first layer, at the buffer contents it is entered with. For each of its twelve windows
  the block at a grid point; what the body leaves in the result window's staging buffer, as a closed function of the
  eleven input blocks; the body's triple; the pipeline's proof data; and the body obligation at every point.
-/
import proofs.«408220_j76836964925933_3_alg».proof.Proof.Gen.KernelIdeal.Launch
import proofs.«408220_j76836964925933_3_alg».proof.Proof.Gen.KernelIdeal.Skeleton
import proofs.«408220_j76836964925933_3_alg».proof.Proof.Gen.KernelIdeal.Points
import Idealize.ShloMosaic.Lib.Pipeline.FrameBody
import Idealize.ShloMosaic.Lib.Tactic

-- membership in a rectangle of these extents recurses once per coordinate of the long axis
set_option maxRecDepth 16384

noncomputable section

open Cert.KernelIdeal Cert.KernelIdeal.Gen

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the launch is entered
variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is the entry contents (`hA`) and whose body leaves the block in place (`hafter`): an input that is
    not fetched at a point has not moved its block index since the point before, and the body left the block there.
    The three row-blocked inputs are fetched at every point; the eight whole-array inputs at the first point only,
    their block index constant. Every window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every load and the one store of the body is through the whole-buffer rectangle of its staging buffer's shape. -/

abbrev r0_0 : Rect S2000x128 := Rect.unit (s := S2000x128) ![0, 0] S2000x128.size inb_S2000x128_S2000x128_0_0
abbrev r0_1 : Rect S2000x64 := Rect.unit (s := S2000x64) ![0, 0] S2000x64.size inb_S2000x64_S2000x64_0_0
abbrev r0_2 : Rect S128x256 := Rect.unit (s := S128x256) ![0, 0] S128x256.size inb_S128x256_S128x256_0_0
abbrev r0_3 : Rect S64x256 := Rect.unit (s := S64x256) ![0, 0] S64x256.size inb_S64x256_S64x256_0_0
abbrev r0_4 : Rect S2000x1 := Rect.unit (s := S2000x1) ![0, 0] S2000x1.size inb_S2000x1_S2000x1_0_0
abbrev r0_5 : Rect S1x256 := Rect.unit (s := S1x256) ![0, 0] S1x256.size inb_S1x256_S1x256_0_0
abbrev r0_6 : Rect S256x64 := Rect.unit (s := S256x64) ![0, 0] S256x64.size inb_S256x64_S256x64_0_0
abbrev r0_7 : Rect S1x64 := Rect.unit (s := S1x64) ![0, 0] S1x64.size inb_S1x64_S1x64_0_0

/-! ## What the body leaves in the result window's buffer -/

/-- The result window's staging buffer after the body, from the eleven input blocks: its one store, through the
    whole-buffer rectangle, of the second projections' payload over the truncated hidden activation (the payloads are
    the printed body's, its loads in the body's own order: windows 0, 1, 3, 4, 2, 5, 6, then 7, 9, then 8, 10). -/
def out0_11 (x0 : Vec F S2000x128 .f32) (x1 : Vec F S2000x64 .f32) (x2 : Vec F S2000x1 .f32) (x3 : Vec F S128x256 .f32) (x4 : Vec F S64x256 .f32) (x5 : Vec F S1x256 .f32) (x6 : Vec F S1x256 .f32) (x7 : Vec F S256x64 .f32) (x8 : Vec F S1x64 .f32) (x9 : Vec F S256x64 .f32) (x10 : Vec F S1x64 .f32) : Vec F S2000x128 .f32 :=
  View.canon [⟨r0_0, k0_pay1 (k0_pay2 (View.ld x0 r0_0) (View.ld x1 r0_1) (View.ld x3 r0_2) (View.ld x4 r0_3) (View.ld x2 r0_4) (View.ld x5 r0_5) (View.ld x6 r0_5)) (k0_pay3 (View.ld x7 r0_6)) (k0_pay4 (View.ld x9 r0_6)) (constant S2000x64 .f32 0x00000000#32) (View.ld x8 r0_7) (View.ld x10 r0_7)⟩]

/-- The one store tiles the buffer, so it covers it. -/
theorem cover0_11 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 4000000 in
/-- The kernel body on whole staging memrefs, the eleven inputs' at read contents `x0 .. x10` and the result's at
    anything, runs to the continuation holding the inputs' as they were and the result's at `out0_11` of the inputs':
    the printed function and the one part it calls are their skeletons, eleven loads, a load of the result buffer whose
    value is dropped, and one store, which the symbolic executor runs one by one. -/
theorem sound_kernel0 (c : Dev nD) (E : Set ℕ) (i : grid0.Coords) (arg1 : Memref sig .tc .vmem S2000x128 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S128x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x64 .f32) (harg8 : arg8.IsWhole) (arg9 : Memref sig .tc .vmem S1x64 .f32) (harg9 : arg9.IsWhole) (arg10 : Memref sig .tc .vmem S256x64 .f32) (harg10 : arg10.IsWhole) (arg11 : Memref sig .tc .vmem S1x64 .f32) (harg11 : arg11.IsWhole) (arg12 : Memref sig .tc .vmem S2000x128 .f32) (harg12 : arg12.IsWhole)
    (x0 : Vec F S2000x128 .f32) (x1 : Vec F S2000x64 .f32) (x2 : Vec F S2000x1 .f32) (x3 : Vec F S128x256 .f32) (x4 : Vec F S64x256 .f32) (x5 : Vec F S1x256 .f32) (x6 : Vec F S1x256 .f32) (x7 : Vec F S256x64 .f32) (x8 : Vec F S1x64 .f32) (x9 : Vec F S256x64 .f32) (x10 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare (out0_11 x0 x1 x2 x3 x4 x5 x6 x7 x8 x9 x10)) -∗ K ⟨⟩))
      ⊢ wp frame (wpE (defs₀ (F := F)) Variants.none c none) E (cc0__layer1_fused_kernel i arg1 harg1 arg2 harg2 arg3 harg3 arg4 harg4 arg5 harg5 arg6 harg6 arg7 harg7 arg8 harg8 arg9 harg9 arg10 harg10 arg11 harg11 arg12 harg12) K := by
  simp only [cc0__layer1_fused_kernel_eq_skeleton]; unfold cc0__layer1_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _)

/-! ## The pipeline's proof data -/

/-- The proof data of the launch on core `c`: the arrays as the launch finds them; after the body at point `t` each
    input's buffer at its block and the result's at `out0_11` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  The second launch (custom_call 1, the layer-2 fused kernel) as a pipeline of six windows on a grid of 25 points,
  at a parameter V: the TensorCore's buffer contents when the launch is entered.

  Per point t the pipeline hands the body window w's block of its array (block row t of the three node tables, the
  whole of the weight matrix and of the bias row, which are fetched once and stay), and the body stores one value
  into the result window's buffer: the payload k1_pay1 of the five blocks it loaded. This module states that as the
  pipeline's proof data (dat1): the arrays are V's, an input window's buffer after the body is still its block, the
  result window's buffer after the body is out1_5 of the five input blocks; and it proves the body obligation — the
  printed body, run on the staging memrefs holding those blocks, leaves exactly that.
-/
import proofs.«408220_j76836964925933_3_alg».proof.Proof.Gen.KernelIdeal.Launch
import proofs.«408220_j76836964925933_3_alg».proof.Proof.Gen.KernelIdeal.Skeleton
import proofs.«408220_j76836964925933_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the launch is entered
variable (V : (c : Dev nD) → (b : Ref sig .tc) → Buf (Elt F) ((c : Thread nD τ).loc b))

/-! ## The windows' blocks -/

/-- Window w's block at point t, read off its array as the launch finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is V's and whose body leaves the block in place: an unfetched point has not moved the block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is V's and whose body leaves the block in place: an unfetched point has not moved the block index. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is V's and whose body leaves the block in place: an unfetched point has not moved the block index. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is V's and whose body leaves the block in place: an unfetched point has not moved the block index. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is V's and whose body leaves the block in place: an unfetched point has not moved the block index. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole staging buffer -/

abbrev r1_0 : Rect S2000x128 := Rect.unit (s := S2000x128) ![0, 0] S2000x128.size inb_S2000x128_S2000x128_0_0
abbrev r1_1 : Rect S2000x64 := Rect.unit (s := S2000x64) ![0, 0] S2000x64.size inb_S2000x64_S2000x64_0_0
abbrev r1_2 : Rect S2000x1 := Rect.unit (s := S2000x1) ![0, 0] S2000x1.size inb_S2000x1_S2000x1_0_0
abbrev r1_3 : Rect S64x64 := Rect.unit (s := S64x64) ![0, 0] S64x64.size inb_S64x64_S64x64_0_0
abbrev r1_4 : Rect S1x64 := Rect.unit (s := S1x64) ![0, 0] S1x64.size inb_S1x64_S1x64_0_0

/-! ## What the body leaves in the result window's buffer -/

/-- Window 5's staging buffer after the body, from the five input windows' blocks x0 .. x4: its one store, of the
    payload of what the body loaded (in the body's load order: windows 0, 3, 2, 4, 1). -/
def out1_5 (x0 : Vec F S2000x128 .f32) (x1 : Vec F S2000x64 .f32) (x2 : Vec F S2000x1 .f32) (x3 : Vec F S64x64 .f32) (x4 : Vec F S1x64 .f32) : Vec F S2000x64 .f32 :=
  View.canon [⟨r1_1, k1_pay1 (View.ld x0 r1_0) (View.ld x3 r1_3) (View.ld x2 r1_2) (View.ld x4 r1_4) (View.ld x1 r1_1)⟩]

/-- The one store takes the whole buffer, so it covers it. -/
theorem cover1_5 (p0 : Vec F S2000x64 .f32) (y : S2000x64.Idx) :
    ∃ pc ∈ ([⟨r1_1, p0⟩] : List (View.Piece (Elt F) S2000x64 .f32)), y ∈ pc.1.set :=
  View.cover_of_tiled [⟨r1_1, p0⟩] S2000x64.size (by rfl) y

/-! ## The body's triple -/

set_option maxHeartbeats 1000000 in
/-- The kernel body on whole staging memrefs, the five inputs' at read contents x0 .. x4 and the result's at anything,
    runs to the continuation holding the inputs' as they were and the result's at out1_5 of the inputs': the printed
    function is its skeleton, which the symbolic executor runs load by load; the load of the result buffer that
    precedes the store reads whatever is there and its value is dropped. -/
theorem sound_kernel1 (c : Dev nD) (E : Set ℕ) (i : grid1.Coords) (arg1 : Memref sig .tc .vmem S2000x128 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x128 .f32) (x1 : Vec F S2000x64 .f32) (x2 : Vec F S2000x1 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__layer2_fused_kernel i arg1 harg1 arg2 harg2 arg3 harg3 arg4 harg4 arg5 harg5 arg6 harg6) K := by
  simp only [cc1__layer2_fused_kernel_eq_skeleton]; unfold cc1__layer2_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the second launch's pipeline on core c: the arrays as the launch finds them (V); after the body
    at point t each input's buffer at its block and the result's at out1_5 of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/- The kernel program's @main run from the launch to the return, as a value. The two kernel regions' results are
   named from the launch memory: region 0 leaves in its result array what its pipeline's write-backs fold to over the
   buffers the six host stretches before it leave, region 1 likewise over the buffers the three stretches between the
   regions leave (`outsOf`, `outs7`, `outs11`). Each region is then a segment record over the thread state "every
   unscoped buffer at the valuation between the items, the generator register at some state, nothing owed" (`reg0`,
   `reg1`), and the conditional run at these records gives `run_value`: every weakly fair execution of @main
   terminates with the result buffer at region 1's folded write-backs and every argument array as launched. -/
import proofs.«408220_j76836964925933_3_alg».proof.Proof.KIRegion0
import proofs.«408220_j76836964925933_3_alg».proof.Proof.KIRegion1
import proofs.«408220_j76836964925933_3_alg».proof.Proof.KIRunCond
import Idealize.ShloMosaic.Lib.Pipeline.RegionsLoop
import Idealize.ShloMosaic.Lib.Pipeline.FrameSuffix

-- decided memberships over the program's references recurse past the default depth
set_option maxRecDepth 1068

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## What the two regions leave -/

/-- The buffers region 0 is entered from: the launch memory after the six host stretches before it. -/
def entry0 : (c : Dev nD) → (b : Ref sig .tc) → Buf (Elt F) ((c : Thread nD τ).loc b) := fun c b => V6 m c b

/-- The buffers as region 0 leaves them: its arrays at what the pipeline's write-backs leave, every other buffer as
    entered. -/
def exit0 (c : Dev nD) : Valuation τ sig (Elt F) :=
  Pipeline.withArrays spec0 c (V6 m c) fun w => (dat0 (entry0 m) c).arrAt w cfg0.N

/-- Region 0's part of the regions' results alone (region 1's entry reads the results at no other point). -/
def outsA : Outs (F := F) := fun _ r c => exit0 m c r

/-- The buffers region 1 is entered from, read off region 0's results alone. -/
def entryA : (c : Dev nD) → (b : Ref sig .tc) → Buf (Elt F) ((c : Thread nD τ).loc b) := fun c b => V10 m (outsA m) c b

/-- The buffers as region 1 leaves them. -/
def exit1 (c : Dev nD) : Valuation τ sig (Elt F) :=
  Pipeline.withArrays spec1 c (V10 m (outsA m) c) fun w => (dat1 (entryA m) c).arrAt w cfg1.N

/-- What the two regions leave in the buffers they may change: after item 6 region 0's exit contents, after item 10
    region 1's. -/
def outsOf : Outs (F := F) := fun j r c => if j = 7 then exit0 m c r else exit1 m c r

theorem outsOf_seven (r : Ref sig .tc) (c : Dev nD) : outsOf m 7 r c = exit0 m c r := if_pos rfl
theorem outsOf_eleven (r : Ref sig .tc) (c : Dev nD) : outsOf m 11 r c = exit1 m c r := if_neg (by decide)

/-- Region 0 leaves in its result array what its write-backs fold to. -/
theorem outs7 (c : Dev nD) : outsOf m 7 main_v26 c = (dat0 (entry0 m) c).arrAt 11 cfg0.N :=
  (outsOf_seven m main_v26 c).trans (Pipeline.withArrays_arr spec0 launch0.win.arr_inj c _ _ 11)

/-- The buffers after region 0 depend on the regions' results through region 0's alone, -/
theorem V7_outsOf (c : Dev nD) : V7 m (outsOf m) c = V7 m (outsA m) c := by
  show Function.update (V6 m c) main_v26 (outsOf m 7 main_v26 c) = Function.update (V6 m c) main_v26 (outsA m 7 main_v26 c)
  rw [outsOf_seven]; rfl
/-- and so do the buffers region 1 is entered from. -/
theorem V10_outsOf (c : Dev nD) : V10 m (outsOf m) c = V10 m (outsA m) c := by
  show StableHlo.after hostOps1_2 (StableHlo.after hostOps1_1 (StableHlo.after hostOps1 (V7 m (outsOf m) c))) = StableHlo.after hostOps1_2 (StableHlo.after hostOps1_1 (StableHlo.after hostOps1 (V7 m (outsA m) c)))
  rw [V7_outsOf]

/-- The buffers region 1 is entered from. -/
def entry1 : (c : Dev nD) → (b : Ref sig .tc) → Buf (Elt F) ((c : Thread nD τ).loc b) := fun c b => V10 m (outsOf m) c b

theorem entry1_eq : entry1 m = entryA m := by
  funext c b; unfold entry1 entryA; rw [V10_outsOf]

/-- Region 1 leaves in its result array what its write-backs fold to. -/
theorem outs11 (c : Dev nD) : outsOf m 11 main_v36 c = (dat1 (entry1 m) c).arrAt 5 cfg1.N := by
  rw [entry1_eq]
  exact (outsOf_eleven m main_v36 c).trans (Pipeline.withArrays_arr spec1 launch1.win.arr_inj c _ _ 5)

/-! ## The valuations between the items agree with the regions' arrays -/

/-- The buffers after region 0, at the TensorCore's references. -/
abbrev left0 : (c : Dev nD) → (b : Ref sig .tc) → Buf (Elt F) ((c : Thread nD τ).loc b) := fun c b => V7 m (outsOf m) c b
/-- The buffers after region 1, at the TensorCore's references. -/
abbrev left1 : (c : Dev nD) → (b : Ref sig .tc) → Buf (Elt F) ((c : Thread nD τ).loc b) := fun c b => V11 m (outsOf m) c b

/-- After region 0 each of its arrays holds what the pipeline leaves: an input what it held (never written back, and
    the buffers after the region differ from those before it at the result array alone), the result its write-backs. -/
theorem hF0 (c : Dev nD) (w : Fin cfg0.W) : (dat0 (entry0 m) c).arrAt w cfg0.N = left0 m c (Pipeline.arrRef spec0 w) := by
  by_cases hw : w = 11
  · subst hw
    exact (outs7 m c).symm.trans (Function.update_self (β := fun b : DevRef τ sig => b.ty.Contents (Elt F)) (Proc.devRef .tc main_v26) _ (V6 m c)).symm
  · have hin : (cfg0.win w).isOut = false := by revert w; decide
    have hne : Pipeline.arrRef spec0 w ∉ ([main_v26] : List (Ref sig .tc)) := by revert w; decide
    exact ((dat0 (entry0 m) c).arrAt_in w hin _).trans ((A_eq0 (entry0 m) c w).trans (V7_of m (outsOf m) c _ hne).symm)
/-- Off region 0's arrays the buffers after it are those before it. -/
theorem hrest0 (c : Dev nD) : ∀ b, b ∉ Finset.univ.image (Pipeline.arrRef spec0) → left0 m c b = entry0 m c b :=
  fun b hb => V7_of m (outsOf m) c b fun h =>
    hb (Finset.mem_image.mpr ⟨11, Finset.mem_univ _, (List.mem_singleton.mp h).symm⟩)

/-- After region 1 each of its arrays holds what the pipeline leaves. -/
theorem hF1 (c : Dev nD) (w : Fin cfg1.W) : (dat1 (entry1 m) c).arrAt w cfg1.N = left1 m c (Pipeline.arrRef spec1 w) := by
  by_cases hw : w = 5
  · subst hw
    exact (outs11 m c).symm.trans (Function.update_self (β := fun b : DevRef τ sig => b.ty.Contents (Elt F)) (Proc.devRef .tc main_v36) _ (V10 m (outsOf m) c)).symm
  · have hin : (cfg1.win w).isOut = false := by revert w; decide
    have hne : Pipeline.arrRef spec1 w ∉ ([main_v36] : List (Ref sig .tc)) := by revert w; decide
    exact ((dat1 (entry1 m) c).arrAt_in w hin _).trans ((A_eq1 (entry1 m) c w).trans (V11_of m (outsOf m) c _ hne).symm)
/-- Off region 1's arrays the buffers after it are those before it. -/
theorem hrest1 (c : Dev nD) : ∀ b, b ∉ Finset.univ.image (Pipeline.arrRef spec1) → left1 m c b = entry1 m c b :=
  fun b hb => V11_of m (outsOf m) c b fun h =>
    hb (Finset.mem_image.mpr ⟨5, Finset.mem_univ _, (List.mem_singleton.mp h).symm⟩)

/-! ## The proof data family and the thread state -/

/-- Every pipeline's proof data, each at its region's entry contents (a literal `match`, so that the data at a numeral
    reduces to the printed configuration's). -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

/-- No core owes another anything: no level is assigned. -/
abbrev L₀ : GSem nD τ sig → Finset Unit := fun _ => ∅
abbrev lv₀ : GSem nD τ sig → Unit → ℕ := fun _ _ => 0
/-- What rides beside the buffers through every item: the core's generator register at some state (the class
    invariant takes it in and gives it back) and its dues, at nothing. -/
abbrev R (c : Dev nD) : sProp 𝕄 := iprop((∃ r, prngReg c r) ∗ ∃ W, owes (c : Thread nD τ) (0 : CellTallies nD τ sig Unit) W)

/-! ## The regions as segments -/

-- `iapply` of a library lemma stated over the pinned configuration unifies with the printed one only when unification
-- may unfold plain definitions in a metavariable's type
set_option backward.isDefEq.respectTransparency.types false in
/-- REGION 0 over the thread state: entered from every unscoped buffer at the valuation before it, left at the one
    after it. Its arrays split out of the unscoped buffers and put back at the exit contents; the generator register
    into the class invariant and out; nothing owed; no semaphore of the kernel's own. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L₀ lv₀ 0 fun _ _ => rfl
  pre c := iprop(StableHlo.held (c : Thread nD τ) (Pipeline.ucRefs τ sig) (V6 m c) ∗ R c)
  post c := iprop(StableHlo.held (c : Thread nD τ) (Pipeline.ucRefs τ sig) (V7 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [show (unscopedBufs (Ix := Unit) (Name := ℕ) (U := UR sig nD τ) (Lvl := ℕ) c (entry0 m c) : sProp 𝕄)
        = StableHlo.held (c : Thread nD τ) (Pipeline.ucRefs τ sig) (V6 m c) from Pipeline.unscopedBufs_held c (V6 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (left0 m c) ((pdats m 0 c).arrAt · cfg0.N) (hF0 m c) (hrest0 m c)
    rw [show (unscopedBufs (Ix := Unit) (Name := ℕ) (U := UR sig nD τ) (Lvl := ℕ) c (left0 m c) : sProp 𝕄)
        = StableHlo.held (c : Thread nD τ) (Pipeline.ucRefs τ sig) (V7 m (outsOf m) c) from Pipeline.unscopedBufs_held c (V7 m (outsOf m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification
-- may unfold plain definitions in a metavariable's type
set_option backward.isDefEq.respectTransparency.types false in
/-- REGION 1 over the thread state: entered from every unscoped buffer at the valuation before it, left at the one
    after it. Its arrays split out of the unscoped buffers and put back at the exit contents; the generator register
    into the class invariant and out; nothing owed; no semaphore of the kernel's own. -/
def reg1 : Pipeline.RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L₀ lv₀ 1 fun _ _ => rfl
  pre c := iprop(StableHlo.held (c : Thread nD τ) (Pipeline.ucRefs τ sig) (V10 m (outsOf m) c) ∗ R c)
  post c := iprop(StableHlo.held (c : Thread nD τ) (Pipeline.ucRefs τ sig) (V11 m (outsOf m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [show (unscopedBufs (Ix := Unit) (Name := ℕ) (U := UR sig nD τ) (Lvl := ℕ) c (entry1 m c) : sProp 𝕄)
        = StableHlo.held (c : Thread nD τ) (Pipeline.ucRefs τ sig) (V10 m (outsOf m) c) from Pipeline.unscopedBufs_held c (V10 m (outsOf m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (left1 m c) ((pdats m 1 c).arrAt · cfg1.N) (hF1 m c) (hrest1 m c)
    rw [show (unscopedBufs (Ix := Unit) (Name := ℕ) (U := UR sig nD τ) (Lvl := ℕ) c (left1 m c) : sProp 𝕄)
        = StableHlo.held (c : Thread nD τ) (Pipeline.ucRefs τ sig) (V11 m (outsOf m) c) from Pipeline.unscopedBufs_held c (V11 m (outsOf m) c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- THE RUN AS A VALUE: from any memory with zero counters every weakly fair execution of @main terminates, the result
    buffer holding what region 1's write-backs fold to and every argument array its launch contents: the conditional
    run at the regions' records above, the rest state "the generator register at some state, nothing owed" on every
    core throughout. -/
theorem run_value (ρ : Dev nD → PrngReg) : θ_run defs (onTc (τ := τ) (main (F := F))) ⟨m, fun _ => 0, ρ⟩ (fun r => ∀ c : Dev nD,
    r.2.mem ((c.tc : Thread nD τ).loc main_v36) = outsOf m 11 main_v36 c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)) := by
  refine (θ_run defs _ _).mono (fun r h c => ?_)
    (run_cond m (emb₁ (Ix := Unit) (Val := Elt F) (Name := ℕ) (Lvl := ℕ)) () Variants.none L₀ lv₀ (fun _ _ => rfl) ρ (outsOf m) (pdats m)
      0 (fun _ => iprop(emp)) (initOf (Pipeline.cells cfgs cellOf_inj) (Pipeline.launchToks cfgs cellOf_inj)) ?hu₀
      (fun _ c => R c) ?hE0 (fun c => ?hE2) (reg0 m) (fun _ => .rfl) (fun _ => .rfl) (reg1 m) (fun _ => .rfl) (fun _ => .rfl))
  case hu₀ =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L₀ lv₀ fun c => ?_
    iintro ⟨⟨-, HO, -, Hp, -⟩, -⟩
    imodintro
    isplitl [Hp]; · iexists _; iexact Hp
    iexists ∅; iexact HO
  case hE2 =>
    iintro ⟨-, HO⟩; iexact HO
  · have h36 : V11 m (outsOf m) c main_v36 = outsOf m 11 main_v36 c :=
      Function.update_self (β := fun b : DevRef τ sig => b.ty.Contents (Elt F)) (Proc.devRef .tc main_v36) _ (V10 m (outsOf m) c)
    exact ⟨(h c).1.trans h36, (h c).2⟩

end Cert.KernelIdeal.Hand

end
-- ==== Proof.Spec.lean ====
/-
  WHAT BOTH PROGRAMS COMPUTE, as functions of the fifteen argument arrays, index by index, over the extended reals.

  A graph of 50000 nodes and 800000 edges; edge e reads node src e and adds into node dst e. One layer is
      conv(z)[n] = Σ_{e : dst e = n} ( (z[src e]·Wmᵀ + bm) + (ea[e]·Weᵀ + be) )  +  (z[n]·Wsᵀ + bs)
  and the result is relu(conv₂(relu(conv₁(x)))). The reference evaluates this as written (`outR`). The kernel moves
  the edge sum inside the products: it sums x[src e], ea[e] and the constant 1 over the edges into each node first
  (`aggx`, `agge`, `degree`), multiplies those node tables by the weights in its first launch (`region0`, which also
  applies the second layer's two node products to the hidden row at once), sums the projected rows over the edges
  again, and finishes in its second launch (`region1`) — `outK`. The two agree when every float input is a real
  number, because then sums and products distribute (`outK_eq_outR`).

  An index word is read as a signed integer. A gathered row is the word clamped into [0, 49999] (`srcRow`); an edge
  adds into node n exactly when its word is n (`intoNode`): an edge whose word is no node adds nowhere.
-/
import Idealize.ShloMosaic.Lib.ValueIdx
import Idealize.ShloMosaic.PureOps.Ideal

noncomputable section

open scoped BigOperators

namespace Cert.Spec

open Idealize.ShloMosaic Idealize.ShloMosaic.ValueIdx

/-- A table of r rows and c columns of extended reals; a vector of n of them; the two rows of edge end points. -/
abbrev Arr (r c : Nat) : Type := (⟨2, ![r, c]⟩ : Shape).Idx → EReal
abbrev Arr1 (n : Nat) : Type := (⟨1, ![n]⟩ : Shape).Idx → EReal
abbrev Edges : Type := IVec ⟨2, ![2, 800000]⟩ 32

/-- The table whose entry (p, q) is f p q. -/
def mk2 {r c : Nat} (f : Fin r → Fin c → EReal) : Arr r c := fun i => f (i 0) (i 1)

@[simp] theorem mk2_apply {r c : Nat} (f : Fin r → Fin c → EReal) (p : Fin r) (q : Fin c) : mk2 f (ix2 p q) = f p q := rfl

/-- The fifteen arguments. -/
structure Inputs where
  x : Arr 50000 64
  ei : Edges
  ea : Arr 800000 64
  W1m : Arr 256 64
  b1m : Arr1 256
  W1e : Arr 256 64
  b1e : Arr1 256
  W1s : Arr 256 64
  b1s : Arr1 256
  W2m : Arr 64 256
  b2m : Arr1 64
  W2e : Arr 64 64
  b2e : Arr1 64
  W2s : Arr 64 256
  b2s : Arr1 64

/-- Every entry is a real number. -/
def IsReal {α : Type} (X : α → EReal) : Prop := ∀ i, ∃ r : ℝ, X i = (r : EReal)

/-- Every float argument holds real numbers only. -/
def Inputs.Finite (I : Inputs) : Prop :=
  IsReal I.x ∧ IsReal I.ea ∧ IsReal I.W1m ∧ IsReal I.b1m ∧ IsReal I.W1e ∧ IsReal I.b1e ∧ IsReal I.W1s ∧ IsReal I.b1s
    ∧ IsReal I.W2m ∧ IsReal I.b2m ∧ IsReal I.W2e ∧ IsReal I.b2e ∧ IsReal I.W2s ∧ IsReal I.b2s

/-- Every edge end point is a node: 0 ≤ word < 50000, read signed. -/
def Inputs.InRange (I : Inputs) : Prop := ∀ i, 0 ≤ (I.ei i).toInt ∧ (I.ei i).toInt < 50000

/-! ## Edges -/

/-- The node whose row edge e reads: its source word, read signed and clamped into [0, 49999]. -/
def srcRow (ei : Edges) (e : Fin 800000) : Fin 50000 := ⟨min (ei (ix2 (0 : Fin 2) e)).toInt.toNat (50000 - 1), by omega⟩

/-- The edges that add into node n: those whose target word, read signed, is n. -/
def intoNode (ei : Edges) (n : Fin 50000) : Finset (Fin 800000) :=
  Finset.univ.filter fun e => (ei (ix2 (1 : Fin 2) e)).toInt = (n.val : ℤ)

/-- The sum over the edges into node n. -/
def seg (ei : Edges) (f : Fin 800000 → EReal) (n : Fin 50000) : EReal := ∑ e ∈ intoNode ei n, f e

/-! ## The two launches, as functions of their operand tables -/

/-- The first launch's hidden row: relu of (cat·wcat + deg·bsum) + (x·ws + bs). -/
def hidden (cat : Arr 50000 128) (x : Arr 50000 64) (deg : Arr 50000 1) (wcat : Arr 128 256) (ws : Arr 64 256)
    (bsum bs : Arr 1 256) (n : Fin 50000) (k : Fin 256) : EReal :=
  max (((∑ a : Fin 128, cat (ix2 n a) * wcat (ix2 a k)) + deg (ix2 n (0 : Fin 1)) * bsum (ix2 (0 : Fin 1) k))
        + ((∑ b : Fin 64, x (ix2 n b) * ws (ix2 b k)) + bs (ix2 (0 : Fin 1) k))) 0

/-- The first launch's result: columns 0–63 the hidden row times w2m plus b2m, columns 64–127 times w2s plus b2s. -/
def region0 (cat : Arr 50000 128) (x : Arr 50000 64) (deg : Arr 50000 1) (wcat : Arr 128 256) (ws : Arr 64 256)
    (bsum bs : Arr 1 256) (w2m : Arr 256 64) (b2m : Arr 1 64) (w2s : Arr 256 64) (b2s : Arr 1 64)
    (n : Fin 50000) (j : Fin 128) : EReal :=
  if h : j.val < 64 then
    (∑ k : Fin 256, hidden cat x deg wcat ws bsum bs n k * w2m (ix2 k (⟨j.val, h⟩ : Fin 64))) + b2m (ix2 (0 : Fin 1) (⟨j.val, h⟩ : Fin 64))
  else
    (∑ k : Fin 256, hidden cat x deg wcat ws bsum bs n k * w2s (ix2 k (⟨j.val - 64, by omega⟩ : Fin 64)))
      + b2s (ix2 (0 : Fin 1) (⟨j.val - 64, by omega⟩ : Fin 64))

/-- The second launch's result: relu of ((cat2[:, j] + cat2[:, 64:]·we) + deg·be) + skip. -/
def region1 (cat2 : Arr 50000 128) (skip : Arr 50000 64) (deg : Arr 50000 1) (we : Arr 64 64) (be : Arr 1 64)
    (n : Fin 50000) (j : Fin 64) : EReal :=
  max ((((cat2 (ix2 n (⟨j.val, by omega⟩ : Fin 128))
            + ∑ a : Fin 64, cat2 (ix2 n (⟨64 + a.val, by omega⟩ : Fin 128)) * we (ix2 a j))
          + deg (ix2 n (0 : Fin 1)) * be (ix2 (0 : Fin 1) j))
        + skip (ix2 n j))) 0

/-! ## The kernel's tables, from the arguments -/

variable (I : Inputs)

/-- Per node: the sum of the source rows of x, of the edge attributes, and the number of edges, over the edges into it. -/
def aggx (n : Fin 50000) (b : Fin 64) : EReal := seg I.ei (fun e => I.x (ix2 (srcRow I.ei e) b)) n
def agge (n : Fin 50000) (b : Fin 64) : EReal := seg I.ei (fun e => I.ea (ix2 e b)) n
def degree (n : Fin 50000) : EReal := seg I.ei (fun _ => 1) n

/-- The first launch's operands: [aggx | agge]; the degree as a column; [W1mᵀ ; W1eᵀ]; W1sᵀ; b1m + b1e and b1s as rows;
    W2mᵀ, b2m, W2sᵀ, b2s. -/
def cat1 : Arr 50000 128 := mk2 fun n a =>
  if h : a.val < 64 then aggx I n ⟨a.val, h⟩ else agge I n ⟨a.val - 64, by omega⟩
def degA : Arr 50000 1 := mk2 fun n _ => degree I n
def wcat : Arr 128 256 := mk2 fun a k =>
  if h : a.val < 64 then I.W1m (ix2 k (⟨a.val, h⟩ : Fin 64)) else I.W1e (ix2 k (⟨a.val - 64, by omega⟩ : Fin 64))
def wsT : Arr 64 256 := mk2 fun b k => I.W1s (ix2 k b)
def bsum : Arr 1 256 := mk2 fun _ k => I.b1m (ix1 k) + I.b1e (ix1 k)
def bs1 : Arr 1 256 := mk2 fun _ k => I.b1s (ix1 k)
def w2mT : Arr 256 64 := mk2 fun k j => I.W2m (ix2 j k)
def b2mR : Arr 1 64 := mk2 fun _ j => I.b2m (ix1 j)
def w2sT : Arr 256 64 := mk2 fun k j => I.W2s (ix2 j k)
def b2sR : Arr 1 64 := mk2 fun _ j => I.b2s (ix1 j)

/-- What the first launch leaves: [h·W2mᵀ + b2m | h·W2sᵀ + b2s]. -/
def packed : Arr 50000 128 :=
  mk2 (region0 (cat1 I) I.x (degA I) (wcat I) (wsT I) (bsum I) (bs1 I) (w2mT I) (b2mR I) (w2sT I) (b2sR I))

/-- The second launch's operands from a first-launch result Y: [Σ over the edges of Y[src e, :64] | agge]; Y[:, 64:];
    W2eᵀ; b2e as a row. -/
def cat2Of (Y : Arr 50000 128) : Arr 50000 128 := mk2 fun n a =>
  if h : a.val < 64 then seg I.ei (fun e => Y (ix2 (srcRow I.ei e) (⟨a.val, by omega⟩ : Fin 128))) n
  else agge I n ⟨a.val - 64, by omega⟩
def skipOf (Y : Arr 50000 128) : Arr 50000 64 := mk2 fun n j => Y (ix2 n (⟨64 + j.val, by omega⟩ : Fin 128))
def weT : Arr 64 64 := mk2 fun a j => I.W2e (ix2 j a)
def beR : Arr 1 64 := mk2 fun _ j => I.b2e (ix1 j)

/-- THE KERNEL'S RESULT at (n, j). -/
def outK (n : Fin 50000) (j : Fin 64) : EReal :=
  region1 (cat2Of I (packed I)) (skipOf (packed I)) (degA I) (weT I) (beR I) n j

/-! ## The reference, as written -/

def xmsg1 (n : Fin 50000) (k : Fin 256) : EReal := (∑ b : Fin 64, I.x (ix2 n b) * I.W1m (ix2 k b)) + I.b1m (ix1 k)
def et1 (e : Fin 800000) (k : Fin 256) : EReal := (∑ b : Fin 64, I.ea (ix2 e b) * I.W1e (ix2 k b)) + I.b1e (ix1 k)
def agg1 (n : Fin 50000) (k : Fin 256) : EReal := seg I.ei (fun e => xmsg1 I (srcRow I.ei e) k + et1 I e k) n
def hR (n : Fin 50000) (k : Fin 256) : EReal :=
  max (agg1 I n k + ((∑ b : Fin 64, I.x (ix2 n b) * I.W1s (ix2 k b)) + I.b1s (ix1 k))) 0
def xmsg2 (n : Fin 50000) (j : Fin 64) : EReal := (∑ k : Fin 256, hR I n k * I.W2m (ix2 j k)) + I.b2m (ix1 j)
def et2 (e : Fin 800000) (j : Fin 64) : EReal := (∑ a : Fin 64, I.ea (ix2 e a) * I.W2e (ix2 j a)) + I.b2e (ix1 j)
def agg2 (n : Fin 50000) (j : Fin 64) : EReal := seg I.ei (fun e => xmsg2 I (srcRow I.ei e) j + et2 I e j) n

/-- THE REFERENCE'S RESULT at (n, j). -/
def outR (n : Fin 50000) (j : Fin 64) : EReal :=
  max (agg2 I n j + ((∑ k : Fin 256, hR I n k * I.W2s (ix2 j k)) + I.b2s (ix1 j))) 0

end Cert.Spec

end
-- ==== Proof.KIValue0.lean ====
/-
  The value the first launch leaves in its result table, at F := Ideal.

  The launch runs its body at 25 grid points; at point t the body reads rows 2000·t … 2000·t + 1999 of the three node
  tables (the concatenated edge sums, the node features, the degree column) and the whole of the eight weight and bias
  tables, and stores one [2000,128] block: relu of (cat·wcat + deg·bsum) + (x·ws + bs), a [2000,256] hidden block,
  multiplied by the two second-layer tables and offset by their bias rows, the two [2000,64] results side by side.

  First the stored block is read at one entry (r, j): each product into a zero accumulator is a finite sum over the
  contracted axis, a broadcast reads its one row or column, the narrowings to bf16 are the identity on extended reals,
  and the concatenation reads its first piece below column 64 and its second from there on. That is `Spec.region0` at
  node n, for any node tables whose row n is the blocks' row r (`stored_row`). Then the blocks are placed in the arrays:
  block row r of point t is array row 2000·t + r, the weight and bias blocks are their arrays, what point t writes back
  is block t of `Spec.region0` of the eleven operand arrays, and the 25 blocks cover the result table.
-/
import proofs.«408220_j76836964925933_3_alg».proof.Proof.KIRegion0
import proofs.«408220_j76836964925933_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

namespace Value0

/-! ## The stored block at one entry -/

/-! ### The product of a [2000,128] block by a [128,256] table -/

theorem lhs_cat_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_cat_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_cat_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_cat_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Into a zero accumulator, entry (r, c) of the product is the sum over k of x (r, k) · y (k, c). -/
theorem matmul_cat_apply {φ₁ φ₂ : FTy} (x : FVec Ideal S2000x128 φ₁) (y : FVec Ideal S128x256 φ₂) (r : Fin 2000) (c : Fin 256) :
    matmul dot_S2000x128_S128x256_S2000x256_1_0_0_1_n_n none x y (constant (F := Ideal) S2000x256 .f32 0x00000000#32) (ix2 r c)
      = ∑ k : Fin 128, x (ix2 r k) * y (ix2 k c) := by
  show FloatOps.matmul dot_S2000x128_S128x256_S2000x256_1_0_0_1_n_n none x y (constant (F := Ideal) S2000x256 .f32 0x00000000#32) (ix2 r c) = _
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 r c) ((ValueIdx.contrEquiv1 dot_S2000x128_S128x256_S2000x256_1_0_0_1_n_n 128 rfl rfl).symm k) = ix2 r k := funext fun a => Fin.ext (by
    match a with
    | ⟨0, _⟩ => exact lhs_cat_0 _ _
    | ⟨1, _⟩ => exact (lhs_cat_1 _ _).trans hk)
  have er : dot_S2000x128_S128x256_S2000x256_1_0_0_1_n_n.rhsIdx (ix2 r c) ((ValueIdx.contrEquiv1 dot_S2000x128_S128x256_S2000x256_1_0_0_1_n_n 128 rfl rfl).symm k) = ix2 k c := funext fun a => Fin.ext (by
    match a with
    | ⟨0, _⟩ => exact (rhs_cat_0 _ _).trans hk
    | ⟨1, _⟩ => exact rhs_cat_1 _ _)
  rw [el, er]

/-! ### The product of a [2000,64] block by a [64,256] table -/

theorem lhs_self_0 (i : S2000x256.Idx) (q : dot_S2000x64_S64x256_S2000x256_1_0_0_1_n_n.contr.Idx) :
    (dot_S2000x64_S64x256_S2000x256_1_0_0_1_n_n.lhsIdx i q 0).val = (i 0).val := by
  unfold DotDims.lhsIdx
  rw [dif_neg (show ¬(0 : Fin S2000x64.rank) ∈ dot_S2000x64_S64x256_S2000x256_1_0_0_1_n_n.lhsBatch by decide), dif_pos (show (0 : Fin S2000x64.rank) ∈ dot_S2000x64_S64x256_S2000x256_1_0_0_1_n_n.lhsNonContracting by decide)]
  rfl
theorem lhs_self_1 (i : S2000x256.Idx) (q : dot_S2000x64_S64x256_S2000x256_1_0_0_1_n_n.contr.Idx) :
    (dot_S2000x64_S64x256_S2000x256_1_0_0_1_n_n.lhsIdx i q 1).val = (q ⟨0, by decide⟩).val :=
  dot_S2000x64_S64x256_S2000x256_1_0_0_1_n_n.lhsIdx_val_of_single rfl i q
theorem rhs_self_0 (i : S2000x256.Idx) (q : dot_S2000x64_S64x256_S2000x256_1_0_0_1_n_n.contr.Idx) :
    (dot_S2000x64_S64x256_S2000x256_1_0_0_1_n_n.rhsIdx i q 0).val = (q ⟨0, by decide⟩).val :=
  dot_S2000x64_S64x256_S2000x256_1_0_0_1_n_n.rhsIdx_val_of_single rfl i q
theorem rhs_self_1 (i : S2000x256.Idx) (q : dot_S2000x64_S64x256_S2000x256_1_0_0_1_n_n.contr.Idx) :
    (dot_S2000x64_S64x256_S2000x256_1_0_0_1_n_n.rhsIdx i q 1).val = (i 1).val := by
  unfold DotDims.rhsIdx
  rw [dif_neg (show ¬(1 : Fin S64x256.rank) ∈ dot_S2000x64_S64x256_S2000x256_1_0_0_1_n_n.rhsBatch by decide), dif_pos (show (1 : Fin S64x256.rank) ∈ dot_S2000x64_S64x256_S2000x256_1_0_0_1_n_n.rhsNonContracting by decide)]
  rfl

/-- Into a zero accumulator, entry (r, c) of the product is the sum over k of x (r, k) · y (k, c). -/
theorem matmul_self_apply {φ₁ φ₂ : FTy} (x : FVec Ideal S2000x64 φ₁) (y : FVec Ideal S64x256 φ₂) (r : Fin 2000) (c : Fin 256) :
    matmul dot_S2000x64_S64x256_S2000x256_1_0_0_1_n_n none x y (constant (F := Ideal) S2000x256 .f32 0x00000000#32) (ix2 r c)
      = ∑ k : Fin 64, x (ix2 r k) * y (ix2 k c) := by
  show FloatOps.matmul dot_S2000x64_S64x256_S2000x256_1_0_0_1_n_n none x y (constant (F := Ideal) S2000x256 .f32 0x00000000#32) (ix2 r c) = _
  rw [Ideal.matmul_constant_zero_apply, ← Equiv.sum_comp (ValueIdx.contrEquiv1 dot_S2000x64_S64x256_S2000x256_1_0_0_1_n_n 64 rfl rfl).symm]
  refine Finset.sum_congr rfl fun k _ => ?_
  have hk := ValueIdx.contrEquiv1_symm_val dot_S2000x64_S64x256_S2000x256_1_0_0_1_n_n 64 rfl rfl k
  have el : dot_S2000x64_S64x256_S2000x256_1_0_0_1_n_n.lhsIdx (ix2 r c) ((ValueIdx.contrEquiv1 dot_S2000x64_S64x256_S2000x256_1_0_0_1_n_n 64 rfl rfl).symm k) = ix2 r k := funext fun a => Fin.ext (by
    match a with
    | ⟨0, _⟩ => exact lhs_self_0 _ _
    | ⟨1, _⟩ => exact (lhs_self_1 _ _).trans hk)
  have er : dot_S2000x64_S64x256_S2000x256_1_0_0_1_n_n.rhsIdx (ix2 r c) ((ValueIdx.contrEquiv1 dot_S2000x64_S64x256_S2000x256_1_0_0_1_n_n 64 rfl rfl).symm k) = ix2 k c := funext fun a => Fin.ext (by
    match a with
    | ⟨0, _⟩ => exact (rhs_self_0 _ _).trans hk
    | ⟨1, _⟩ => exact rhs_self_1 _ _)
  rw [el, er]

/-! ### The product of a [2000,256] block by a [256,64] table -/

theorem lhs_hid_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs_hid_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhs_hid_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhs_hid_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- Into a zero accumulator, entry (r, c) of the product is the sum over k of x (r, k) · y (k, c). -/
theorem matmul_hid_apply {φ₁ φ₂ : FTy} (x : FVec Ideal S2000x256 φ₁) (y : FVec Ideal S256x64 φ₂) (r : Fin 2000) (c : Fin 64) :
    matmul dot_S2000x256_S256x64_S2000x64_1_0_0_1_n_n none x y (constant (F := Ideal) S2000x64 .f32 0x00000000#32) (ix2 r c)
      = ∑ k : Fin 256, x (ix2 r k) * y (ix2 k c) := by
  show FloatOps.matmul dot_S2000x256_S256x64_S2000x64_1_0_0_1_n_n none x y (constant (F := Ideal) S2000x64 .f32 0x00000000#32) (ix2 r c) = _
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 r c) ((ValueIdx.contrEquiv1 dot_S2000x256_S256x64_S2000x64_1_0_0_1_n_n 256 rfl rfl).symm k) = ix2 r k := funext fun a => Fin.ext (by
    match a with
    | ⟨0, _⟩ => exact lhs_hid_0 _ _
    | ⟨1, _⟩ => exact (lhs_hid_1 _ _).trans hk)
  have er : dot_S2000x256_S256x64_S2000x64_1_0_0_1_n_n.rhsIdx (ix2 r c) ((ValueIdx.contrEquiv1 dot_S2000x256_S256x64_S2000x64_1_0_0_1_n_n 256 rfl rfl).symm k) = ix2 k c := funext fun a => Fin.ext (by
    match a with
    | ⟨0, _⟩ => exact (rhs_hid_0 _ _).trans hk
    | ⟨1, _⟩ => exact rhs_hid_1 _ _)
  rw [el, er]

/-! ### A column broadcast along the rows -/

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The hidden row -/

/-- The first payload at row r, column k: relu of (cat·wcat + deg·bsum) + (x·ws + bs), the narrowings being the identity
    on extended reals. -/
theorem k0_pay2_apply (v0 : Vec Ideal S2000x128 .f32) (v3 : Vec Ideal S2000x64 .f32) (v5 : Vec Ideal S128x256 .f32)
    (v8 : Vec Ideal S64x256 .f32) (v12 : Vec Ideal S2000x1 .f32) (v16 v23 : Vec Ideal S1x256 .f32) (r : Fin 2000) (k : Fin 256) :
    k0_pay2 (F := Ideal) v0 v3 v5 v8 v12 v16 v23 (ix2 r k)
      = max (((∑ a : Fin 128, v0 (ix2 r a) * v5 (ix2 a k)) + v12 (ix2 r (0 : Fin 1)) * v16 (ix2 (0 : Fin 1) k))
          + ((∑ b : Fin 64, v3 (ix2 r b) * v8 (ix2 b k)) + v23 (ix2 (0 : Fin 1) k))) 0 := by
  unfold k0_pay2
  simp only [shapeCast_self]
  show max ((matmul dot_S2000x128_S128x256_S2000x256_1_0_0_1_n_n none (truncf .bf16 v0 _) (truncf .bf16 v5 _) (constant (F := Ideal) S2000x256 .f32 0x00000000#32) (ix2 r k)
        + broadcastTo S2000x256 v12 _ (ix2 r k) * broadcastTo S2000x256 v16 _ (ix2 r k))
      + (matmul dot_S2000x64_S64x256_S2000x256_1_0_0_1_n_n none (truncf .bf16 v3 _) (truncf .bf16 v8 _) (constant (F := Ideal) S2000x256 .f32 0x00000000#32) (ix2 r k)
        + broadcastTo S2000x256 v23 _ (ix2 r k))) (Ideal.ofBits .f32 0x00000000#32) = _
  rw [matmul_cat_apply, matmul_self_apply, broadcastTo_a1_ab_apply, broadcastTo_1b_ab_apply, broadcastTo_1b_ab_apply, Ideal.ofBits_zero_f32]
  rfl

/-! ### The two projections of the hidden row -/

/-- The second and third payloads are their operand: a same-shape cast and a narrowing. -/
theorem k0_pay3_apply (v31 : Vec Ideal S256x64 .f32) (i : S256x64.Idx) : k0_pay3 (F := Ideal) v31 i = v31 i := by
  unfold k0_pay3
  simp only [shapeCast_self]
  rfl
theorem k0_pay4_apply (v34 : Vec Ideal S256x64 .f32) (i : S256x64.Idx) : k0_pay4 (F := Ideal) v34 i = v34 i := by
  unfold k0_pay4
  simp only [shapeCast_self]
  rfl

/-- The stored value at row r and a column j below 64: the first piece of the concatenation, the hidden row times the
    first table plus the first bias row. -/
theorem k0_pay1_apply_left (v30 : FVec Ideal S2000x256 .bf16) (v33 v36 : FVec Ideal S256x64 .bf16) (v38 v43 : Vec Ideal S1x64 .f32)
    (r : Fin 2000) (j : Fin 128) (h : j.val < 64) :
    k0_pay1 (F := Ideal) v30 v33 v36 (constant (F := Ideal) S2000x64 .f32 0x00000000#32) v38 v43 (ix2 r j)
      = (∑ k : Fin 256, v30 (ix2 r k) * v33 (ix2 k (⟨j.val, h⟩ : Fin 64))) + v38 (ix2 (0 : Fin 1) (⟨j.val, h⟩ : Fin 64)) := by
  unfold k0_pay1
  simp only [shapeCast_self]
  refine (concatenate_pair_apply_left (t := S2000x128) (s₁ := S2000x64) (s₂ := S2000x64) (1 : Fin 2) _ _ _ (ix2 r j) rfl
    (ix2 r (⟨j.val, h⟩ : Fin 64)) (fun b => by
      match b with
      | ⟨0, _⟩ => rfl
      | ⟨1, _⟩ => rfl)).trans ?_
  show matmul dot_S2000x256_S256x64_S2000x64_1_0_0_1_n_n none v30 v33 (constant (F := Ideal) S2000x64 .f32 0x00000000#32) (ix2 r (⟨j.val, h⟩ : Fin 64))
      + broadcastTo S2000x64 v38 _ (ix2 r (⟨j.val, h⟩ : Fin 64)) = _
  rw [matmul_hid_apply, broadcastTo_1b_ab_apply]

/-- At a column j from 64 on: the second piece at column j − 64, the hidden row times the second table plus the second
    bias row. -/
theorem k0_pay1_apply_right (v30 : FVec Ideal S2000x256 .bf16) (v33 v36 : FVec Ideal S256x64 .bf16) (v38 v43 : Vec Ideal S1x64 .f32)
    (r : Fin 2000) (j : Fin 128) (h : ¬ j.val < 64) :
    k0_pay1 (F := Ideal) v30 v33 v36 (constant (F := Ideal) S2000x64 .f32 0x00000000#32) v38 v43 (ix2 r j)
      = (∑ k : Fin 256, v30 (ix2 r k) * v36 (ix2 k (⟨j.val - 64, by omega⟩ : Fin 64)))
          + v43 (ix2 (0 : Fin 1) (⟨j.val - 64, by omega⟩ : Fin 64)) := by
  unfold k0_pay1
  simp only [shapeCast_self]
  refine (concatenate_pair_apply_right (t := S2000x128) (s₁ := S2000x64) (s₂ := S2000x64) (1 : Fin 2) _ _ _ (ix2 r j) rfl rfl
    (ix2 r (⟨j.val - 64, by omega⟩ : Fin 64)) (fun b hb => by
      match b with
      | ⟨0, _⟩ => rfl
      | ⟨1, _⟩ => exact absurd rfl hb) (by show (j.val - 64) + 64 = j.val; omega)).trans ?_
  show matmul dot_S2000x256_S256x64_S2000x64_1_0_0_1_n_n none v30 v36 (constant (F := Ideal) S2000x64 .f32 0x00000000#32) (ix2 r (⟨j.val - 64, by omega⟩ : Fin 64))
      + broadcastTo S2000x64 v43 _ (ix2 r (⟨j.val - 64, by omega⟩ : Fin 64)) = _
  rw [matmul_hid_apply, broadcastTo_1b_ab_apply]

/-! ### The stored value as the specification's row -/

/-- The stored value at block row r, column j, is `Spec.region0` at node n of any three node tables whose row n is
    row r of the three row blocks (the eight weight and bias tables are whole). -/
theorem stored_row (x0 : Vec Ideal S2000x128 .f32) (x1 : Vec Ideal S2000x64 .f32) (x2 : Vec Ideal S2000x1 .f32)
    (x3 : Vec Ideal S128x256 .f32) (x4 : Vec Ideal S64x256 .f32) (x5 x6 : Vec Ideal S1x256 .f32)
    (x7 : Vec Ideal S256x64 .f32) (x8 : Vec Ideal S1x64 .f32) (x9 : Vec Ideal S256x64 .f32) (x10 : Vec Ideal S1x64 .f32)
    (A0 : Cert.Spec.Arr 50000 128) (A1 : Cert.Spec.Arr 50000 64) (A2 : Cert.Spec.Arr 50000 1) (r : Fin 2000) (n : Fin 50000)
    (h0 : ∀ a : Fin 128, x0 (ix2 r a) = A0 (ix2 n a)) (h1 : ∀ b : Fin 64, x1 (ix2 r b) = A1 (ix2 n b))
    (h2 : x2 (ix2 r (0 : Fin 1)) = A2 (ix2 n (0 : Fin 1))) (j : Fin 128) :
    k0_pay1 (F := Ideal) (k0_pay2 x0 x1 x3 x4 x2 x5 x6) (k0_pay3 x7) (k0_pay4 x9)
        (constant (F := Ideal) S2000x64 .f32 0x00000000#32) x8 x10 (ix2 r j)
      = Cert.Spec.region0 A0 A1 A2 x3 x4 x5 x6 x7 x8 x9 x10 n j := by
  have hh : ∀ k : Fin 256, k0_pay2 (F := Ideal) x0 x1 x3 x4 x2 x5 x6 (ix2 r k) = Cert.Spec.hidden A0 A1 A2 x3 x4 x5 x6 n k := fun k => by
    rw [k0_pay2_apply]
    unfold Cert.Spec.hidden
    simp only [h0, h1, h2]
  unfold Cert.Spec.region0
  split
  · next h =>
    rw [k0_pay1_apply_left _ _ _ _ _ r j h]
    simp only [hh, k0_pay3_apply]
  · next h =>
    rw [k0_pay1_apply_right _ _ _ _ _ r j h]
    simp only [hh, k0_pay4_apply]

/-! ## From blocks to the array -/

theorem zero_offsets : (![0, 0] : Fin 2 → Nat) = fun _ => 0 := funext fun a => by fin_cases a <;> rfl

/-- The printed index maps, decided over the 25 grid points: the three node tables and the result are at block row t,
    block column 0; the eight weight and bias tables stay at block (0, 0). -/
theorem index_facts : ∀ t : Fin cfg0.N,
    (win0_0.index t (0 : Fin 2) = t.val ∧ win0_0.index t (1 : Fin 2) = 0)
  ∧     (win0_1.index t (0 : Fin 2) = t.val ∧ win0_1.index t (1 : Fin 2) = 0)
  ∧     (win0_2.index t (0 : Fin 2) = t.val ∧ win0_2.index t (1 : Fin 2) = 0)
  ∧     (win0_3.index t (0 : Fin 2) = 0 ∧ win0_3.index t (1 : Fin 2) = 0)
  ∧     (win0_4.index t (0 : Fin 2) = 0 ∧ win0_4.index t (1 : Fin 2) = 0)
  ∧     (win0_5.index t (0 : Fin 2) = 0 ∧ win0_5.index t (1 : Fin 2) = 0)
  ∧     (win0_6.index t (0 : Fin 2) = 0 ∧ win0_6.index t (1 : Fin 2) = 0)
  ∧     (win0_7.index t (0 : Fin 2) = 0 ∧ win0_7.index t (1 : Fin 2) = 0)
  ∧     (win0_8.index t (0 : Fin 2) = 0 ∧ win0_8.index t (1 : Fin 2) = 0)
  ∧     (win0_9.index t (0 : Fin 2) = 0 ∧ win0_9.index t (1 : Fin 2) = 0)
  ∧     (win0_10.index t (0 : Fin 2) = 0 ∧ win0_10.index t (1 : Fin 2) = 0)
  ∧     (win0_11.index t (0 : Fin 2) = t.val ∧ win0_11.index t (1 : Fin 2) = 0) :=
  (by decide +kernel : ∀ t : Fin grid0.N, _)

section Blocks

variable (V : (c : Dev nD) → (b : Ref sig .tc) → Buf (Elt Ideal) ((c : Thread nD τ).loc b))

/-- Window 0's block at point t is rows 2000·t … 2000·t + 1999 of its table. -/
theorem block0_apply (c : Dev nD) (t : Fin cfg0.N) (r : Fin 2000) (a : Fin 128) (n : Fin 50000) (hn : n.val = 2000 * t.val + r.val) :
    (iblk0 V c 0 t : Vec Ideal S2000x128 .f32) (ix2 r a) = (V c main_v12 : S50000x128.Idx → EReal) (ix2 n a) := by
  obtain ⟨⟨e0, e1⟩, -, -, -, -, -, -, -, -, -, -, -⟩ := index_facts t
  show V c main_v12 (((cfg0.win 0).blk t).view.emb (ix2 r a)) = V c main_v12 (ix2 n a)
  refine congrArg (V c main_v12) (funext fun ax => Fin.ext ?_)
  match ax with
  | ⟨0, _⟩ => show win0_0.index t (0 : Fin 2) * 2000 + 1 * r.val = n.val; rw [e0, hn]; omega
  | ⟨1, _⟩ => show win0_0.index t (1 : Fin 2) * 128 + 1 * a.val = a.val; rw [e1]; omega

/-- Window 1's block at point t is rows 2000·t … 2000·t + 1999 of its table. -/
theorem block1_apply (c : Dev nD) (t : Fin cfg0.N) (r : Fin 2000) (a : Fin 64) (n : Fin 50000) (hn : n.val = 2000 * t.val + r.val) :
    (iblk0 V c 1 t : Vec Ideal S2000x64 .f32) (ix2 r a) = (V c main_arg0 : S50000x64.Idx → EReal) (ix2 n a) := by
  obtain ⟨-, ⟨e0, e1⟩, -, -, -, -, -, -, -, -, -, -⟩ := index_facts t
  show V c main_arg0 (((cfg0.win 1).blk t).view.emb (ix2 r a)) = V c main_arg0 (ix2 n a)
  refine congrArg (V c main_arg0) (funext fun ax => Fin.ext ?_)
  match ax with
  | ⟨0, _⟩ => show win0_1.index t (0 : Fin 2) * 2000 + 1 * r.val = n.val; rw [e0, hn]; omega
  | ⟨1, _⟩ => show win0_1.index t (1 : Fin 2) * 64 + 1 * a.val = a.val; rw [e1]; omega

/-- Window 2's block at point t is rows 2000·t … 2000·t + 1999 of its table. -/
theorem block2_apply (c : Dev nD) (t : Fin cfg0.N) (r : Fin 2000) (a : Fin 1) (n : Fin 50000) (hn : n.val = 2000 * t.val + r.val) :
    (iblk0 V c 2 t : Vec Ideal S2000x1 .f32) (ix2 r a) = (V c main_v14 : S50000x1.Idx → EReal) (ix2 n a) := by
  obtain ⟨-, -, ⟨e0, e1⟩, -, -, -, -, -, -, -, -, -⟩ := index_facts t
  show V c main_v14 (((cfg0.win 2).blk t).view.emb (ix2 r a)) = V c main_v14 (ix2 n a)
  refine congrArg (V c main_v14) (funext fun ax => Fin.ext ?_)
  match ax with
  | ⟨0, _⟩ => show win0_2.index t (0 : Fin 2) * 2000 + 1 * r.val = n.val; rw [e0, hn]; omega
  | ⟨1, _⟩ => show win0_2.index t (1 : Fin 2) * 1 + 1 * a.val = a.val; rw [e1]; omega

/-- Window 3's block is its whole table, at every point. -/
theorem block3_eq (c : Dev nD) (t : Fin cfg0.N) :
    (iblk0 V c 3 t : Vec Ideal S128x256 .f32) = (V c main_v17 : S128x256.Idx → EReal) := by
  obtain ⟨-, -, -, ⟨e0, e1⟩, -, -, -, -, -, -, -, -⟩ := index_facts t
  funext y
  show V c main_v17 (((cfg0.win 3).blk t).view.emb y) = V c main_v17 y
  refine congrArg (V c main_v17) (funext fun ax => Fin.ext ?_)
  match ax with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- Window 4's block is its whole table, at every point. -/
theorem block4_eq (c : Dev nD) (t : Fin cfg0.N) :
    (iblk0 V c 4 t : Vec Ideal S64x256 .f32) = (V c main_v21 : S64x256.Idx → EReal) := by
  obtain ⟨-, -, -, -, ⟨e0, e1⟩, -, -, -, -, -, -, -⟩ := index_facts t
  funext y
  show V c main_v21 (((cfg0.win 4).blk t).view.emb y) = V c main_v21 y
  refine congrArg (V c main_v21) (funext fun ax => Fin.ext ?_)
  match ax with
  | ⟨0, _⟩ => show win0_4.index t (0 : Fin 2) * 64 + 1 * (y 0).val = (y 0).val; rw [e0]; omega
  | ⟨1, _⟩ => show win0_4.index t (1 : Fin 2) * 256 + 1 * (y 1).val = (y 1).val; rw [e1]; omega

/-- Window 5's block is its whole table, at every point. -/
theorem block5_eq (c : Dev nD) (t : Fin cfg0.N) :
    (iblk0 V c 5 t : Vec Ideal S1x256 .f32) = (V c main_v19 : S1x256.Idx → EReal) := by
  obtain ⟨-, -, -, -, -, ⟨e0, e1⟩, -, -, -, -, -, -⟩ := index_facts t
  funext y
  show V c main_v19 (((cfg0.win 5).blk t).view.emb y) = V c main_v19 y
  refine congrArg (V c main_v19) (funext fun ax => Fin.ext ?_)
  match ax with
  | ⟨0, _⟩ => show win0_5.index t (0 : Fin 2) * 1 + 1 * (y 0).val = (y 0).val; rw [e0]; omega
  | ⟨1, _⟩ => show win0_5.index t (1 : Fin 2) * 256 + 1 * (y 1).val = (y 1).val; rw [e1]; omega

/-- Window 6's block is its whole table, at every point. -/
theorem block6_eq (c : Dev nD) (t : Fin cfg0.N) :
    (iblk0 V c 6 t : Vec Ideal S1x256 .f32) = (V c main_v20 : S1x256.Idx → EReal) := by
  obtain ⟨-, -, -, -, -, -, ⟨e0, e1⟩, -, -, -, -, -⟩ := index_facts t
  funext y
  show V c main_v20 (((cfg0.win 6).blk t).view.emb y) = V c main_v20 y
  refine congrArg (V c main_v20) (funext fun ax => Fin.ext ?_)
  match ax with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega

/-- Window 7's block is its whole table, at every point. -/
theorem block7_eq (c : Dev nD) (t : Fin cfg0.N) :
    (iblk0 V c 7 t : Vec Ideal S256x64 .f32) = (V c main_v22 : S256x64.Idx → EReal) := by
  obtain ⟨-, -, -, -, -, -, -, ⟨e0, e1⟩, -, -, -, -⟩ := index_facts t
  funext y
  show V c main_v22 (((cfg0.win 7).blk t).view.emb y) = V c main_v22 y
  refine congrArg (V c main_v22) (funext fun ax => Fin.ext ?_)
  match ax with
  | ⟨0, _⟩ => show win0_7.index t (0 : Fin 2) * 256 + 1 * (y 0).val = (y 0).val; rw [e0]; omega
  | ⟨1, _⟩ => show win0_7.index t (1 : Fin 2) * 64 + 1 * (y 1).val = (y 1).val; rw [e1]; omega

/-- Window 8's block is its whole table, at every point. -/
theorem block8_eq (c : Dev nD) (t : Fin cfg0.N) :
    (iblk0 V c 8 t : Vec Ideal S1x64 .f32) = (V c main_v23 : S1x64.Idx → EReal) := by
  obtain ⟨-, -, -, -, -, -, -, -, ⟨e0, e1⟩, -, -, -⟩ := index_facts t
  funext y
  show V c main_v23 (((cfg0.win 8).blk t).view.emb y) = V c main_v23 y
  refine congrArg (V c main_v23) (funext fun ax => Fin.ext ?_)
  match ax with
  | ⟨0, _⟩ => show win0_8.index t (0 : Fin 2) * 1 + 1 * (y 0).val = (y 0).val; rw [e0]; omega
  | ⟨1, _⟩ => show win0_8.index t (1 : Fin 2) * 64 + 1 * (y 1).val = (y 1).val; rw [e1]; omega

/-- Window 9's block is its whole table, at every point. -/
theorem block9_eq (c : Dev nD) (t : Fin cfg0.N) :
    (iblk0 V c 9 t : Vec Ideal S256x64 .f32) = (V c main_v24 : S256x64.Idx → EReal) := by
  obtain ⟨-, -, -, -, -, -, -, -, -, ⟨e0, e1⟩, -, -⟩ := index_facts t
  funext y
  show V c main_v24 (((cfg0.win 9).blk t).view.emb y) = V c main_v24 y
  refine congrArg (V c main_v24) (funext fun ax => Fin.ext ?_)
  match ax with
  | ⟨0, _⟩ => show win0_9.index t (0 : Fin 2) * 256 + 1 * (y 0).val = (y 0).val; rw [e0]; omega
  | ⟨1, _⟩ => show win0_9.index t (1 : Fin 2) * 64 + 1 * (y 1).val = (y 1).val; rw [e1]; omega

/-- Window 10's block is its whole table, at every point. -/
theorem block10_eq (c : Dev nD) (t : Fin cfg0.N) :
    (iblk0 V c 10 t : Vec Ideal S1x64 .f32) = (V c main_v25 : S1x64.Idx → EReal) := by
  obtain ⟨-, -, -, -, -, -, -, -, -, -, ⟨e0, e1⟩, -⟩ := index_facts t
  funext y
  show V c main_v25 (((cfg0.win 10).blk t).view.emb y) = V c main_v25 y
  refine congrArg (V c main_v25) (funext fun ax => Fin.ext ?_)
  match ax with
  | ⟨0, _⟩ => show win0_10.index t (0 : Fin 2) * 1 + 1 * (y 0).val = (y 0).val; rw [e0]; omega
  | ⟨1, _⟩ => show win0_10.index t (1 : Fin 2) * 64 + 1 * (y 1).val = (y 1).val; rw [e1]; omega

/-! ### What a point writes back, the cover, the array -/

/-- The result table as one function of the eleven operand arrays. -/
abbrev result0 (c : Dev nD) : S50000x128.Idx → EReal :=
  Cert.Spec.mk2 (Cert.Spec.region0 (V c main_v12) (V c main_arg0) (V c main_v14) (V c main_v17) (V c main_v21) (V c main_v19)
    (V c main_v20) (V c main_v22) (V c main_v23) (V c main_v24) (V c main_v25))

/-- What point t writes back is block t of `result0`. -/
theorem flushed0_eq (c : Dev nD) (t : Fin cfg0.N) :
    (dat0 (F := Ideal) V c).flushed 11 t = ((cfg0.win 11).blk t).view.read (Elt Ideal) (result0 V c) := by
  show (cfg0.win 11).cut (grid0.coords t) ((dat0 (F := Ideal) V c).after 11 t) = _
  rw [after0_11]
  unfold out0_11
  rw [View.canon_unit_zero zero_offsets]
  simp only [View.ld_unit_zero (S := S2000x128) zero_offsets, View.ld_unit_zero (S := S2000x64) zero_offsets, View.ld_unit_zero (S := S128x256) zero_offsets, View.ld_unit_zero (S := S64x256) zero_offsets, View.ld_unit_zero (S := S2000x1) zero_offsets, View.ld_unit_zero (S := S1x256) zero_offsets, View.ld_unit_zero (S := S256x64) zero_offsets, View.ld_unit_zero (S := S1x64) zero_offsets]
  obtain ⟨-, -, -, -, -, -, -, -, -, -, -, ⟨e0, e1⟩⟩ := index_facts t
  have hN : grid0.N = 25 := N_0
  have ht : t.val < 25 := by have h : t.val < grid0.N := t.isLt; omega
  funext y
  obtain ⟨r, j, rfl⟩ : ∃ (r : Fin 2000) (j : Fin 128), y = ix2 r j := ⟨y 0, y 1, eq_ix2 y⟩
  have hemb : ((cfg0.win 11).blk t).view.emb (ix2 r j) = (ix2 (⟨2000 * t.val + r.val, by omega⟩ : Fin 50000) j : S50000x128.Idx) :=
    funext fun ax => Fin.ext (by
      match ax with
      | ⟨0, _⟩ => show win0_11.index t (0 : Fin 2) * 2000 + 1 * r.val = 2000 * t.val + r.val; rw [e0]; omega
      | ⟨1, _⟩ => show win0_11.index t (1 : Fin 2) * 128 + 1 * j.val = j.val; rw [e1]; omega)
  show k0_pay1 (F := Ideal) (k0_pay2 (iblk0 V c 0 t) (iblk0 V c 1 t) (iblk0 V c 3 t) (iblk0 V c 4 t) (iblk0 V c 2 t) (iblk0 V c 5 t) (iblk0 V c 6 t))
      (k0_pay3 (iblk0 V c 7 t)) (k0_pay4 (iblk0 V c 9 t)) (constant (F := Ideal) S2000x64 .f32 0x00000000#32) (iblk0 V c 8 t) (iblk0 V c 10 t) (ix2 r j)
    = result0 V c (((cfg0.win 11).blk t).view.emb (ix2 r j))
  refine Eq.trans ?_ (congrArg (result0 V c) hemb).symm
  refine (stored_row (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) (V c main_v12) (V c main_arg0) (V c main_v14) r
    (⟨2000 * t.val + r.val, by omega⟩ : Fin 50000)
    (fun a => block0_apply V c t r a _ rfl) (fun b => block1_apply V c t r b _ rfl) (block2_apply V c t r 0 _ rfl) j).trans ?_
  rw [block3_eq V c t, block4_eq V c t, block5_eq V c t, block6_eq V c t, block7_eq V c t, block8_eq V c t, block9_eq V c t, block10_eq V c t]
  rfl

/-- An index of the result table is in point t's block iff each coordinate is in the block's range on its axis. -/
theorem mem_block11 (t : Fin cfg0.N) (i : S50000x128.Idx) :
    i ∈ ((cfg0.win 11).blk t).view.set ↔ ∀ a : Fin 2, win0_11.index t a * S2000x128.size a ≤ (i a).val
      ∧ (i a).val < win0_11.index t a * S2000x128.size a + S2000x128.size a := by
  show i ∈ ((View.whole main_v26).slice (win0_11.rect t)).set ↔ _
  rw [View.set_slice_whole, Rect.mem_set_unit]
  exact Iff.rfl

/-- Row n of the result table is written back by point n / 2000. -/
theorem cover11 (i : S50000x128.Idx) :
    ∃ t : Fin cfg0.N, (cfg0.win 11).flush t = true ∧ i ∈ ((cfg0.win 11).blk t).view.set := by
  have hi0 : (i 0).val < 50000 := (i 0).isLt
  have hi1 : (i 1).val < 128 := (i 1).isLt
  have hN : grid0.N = 25 := N_0
  have hlt : (i 0).val / 2000 < grid0.N := by omega
  refine ⟨⟨(i 0).val / 2000, hlt⟩, flush0_11 _, ?_⟩
  rw [mem_block11]
  obtain ⟨-, -, -, -, -, -, -, -, -, -, -, ⟨e0, e1⟩⟩ := index_facts ⟨(i 0).val / 2000, hlt⟩
  intro a
  match a with
  | ⟨0, _⟩ =>
    show win0_11.index ⟨(i 0).val / 2000, hlt⟩ (0 : Fin 2) * 2000 ≤ (i 0).val
      ∧ (i 0).val < win0_11.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_11.index ⟨(i 0).val / 2000, hlt⟩ (1 : Fin 2) * 128 ≤ (i 1).val
      ∧ (i 1).val < win0_11.index ⟨(i 0).val / 2000, hlt⟩ (1 : Fin 2) * 128 + 128
    rw [e1]; omega

end Blocks

end Value0

/-- What the first launch leaves in its result table, entry by entry: `Spec.region0` of its eleven operand arrays. -/
theorem region0_value (V : (c : Dev nD) → (b : Ref sig .tc) → Buf (Elt Ideal) ((c : Thread nD τ).loc b)) (c : Dev nD) (n : Fin 50000) (j : Fin 128) :
    ((dat0 (F := Ideal) V c).arrAt 11 cfg0.N : S50000x128.Idx → EReal) (ix2 n j)
      = Cert.Spec.region0 (V c main_v12) (V c main_arg0) (V c main_v14) (V c main_v17) (V c main_v21) (V c main_v19) (V c main_v20)
          (V c main_v22) (V c main_v23) (V c main_v24) (V c main_v25) n j :=
  congrFun ((dat0 (F := Ideal) V c).arrAt_eq_of_cover 11 (Value0.result0 V c) (fun t _ => Value0.flushed0_eq V c t) Value0.cover11) (ix2 n j)

end Cert.KernelIdeal.Hand

end
-- ==== Proof.KIValue1.lean ====
/-
  What the second launch leaves in its result array, entry by entry, over the extended reals.

  The launch's body stores, at row r and column j of a block of 2000 rows, the value
      max (((c[r, j] + Σ_a c[r, 64 + a] · w[a, j]) + d[r, 0] · b[0, j]) + s[r, j]) 0
  of the five blocks c, s, d, w, b it loaded (pay1_apply: the payload's slices, broadcasts and its product into a zero
  accumulator read at an index; the narrowing to half precision is the identity on extended reals). At grid point t the
  blocks of the three node tables and of the result are rows 2000·t .. 2000·t + 1999 of their arrays, the matrix w and
  the row b are whole (idx_facts1, decided over the 25 points), so what point t writes back is block t of ONE function
  of the operand arrays, the specification's region1 (flushed1_eq). The 25 blocks cover the result array (row n is in
  block n / 2000), hence the array ends holding that function everywhere (region1_value).
-/
import proofs.«408220_j76836964925933_3_alg».proof.Proof.KIRegion1
import proofs.«408220_j76836964925933_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand.Value1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## The layout operations of the body, read at an index -/

/-- Columns 0 to 63 of a block row: the slice at offset (0, 0) reads the block at the same row and column. -/
theorem slice_lo1 {α : Type} (v : S2000x128.Idx → α) (h : S2000x128.Slices ![0, 0] S2000x64) (r : Fin 2000) (j : Fin 64) :
    extractStridedSlice S2000x64 ![0, 0] v h (ix2 r j) = v (ix2 r (⟨j.val, by omega⟩ : Fin 128)) :=
  extractStridedSlice_apply ![0, 0] v h (ix2 r j) (ix2 r (⟨j.val, by omega⟩ : Fin 128)) (fun a => match a with
    | ⟨0, _⟩ => by show r.val = 0 + r.val; omega
    | ⟨1, _⟩ => by show j.val = 0 + j.val; omega)

/-- Columns 64 to 127: the slice at offset (0, 64) reads the block at the same row, 64 columns on. -/
theorem slice_hi1 {α : Type} (v : S2000x128.Idx → α) (h : S2000x128.Slices ![0, 64] S2000x64) (r : Fin 2000) (a : Fin 64) :
    extractStridedSlice S2000x64 ![0, 64] v h (ix2 r a) = v (ix2 r (⟨64 + a.val, by omega⟩ : Fin 128)) :=
  extractStridedSlice_apply ![0, 64] v h (ix2 r a) (ix2 r (⟨64 + a.val, by omega⟩ : Fin 128)) (fun b => match b with
    | ⟨0, _⟩ => by show r.val = 0 + r.val; omega
    | ⟨1, _⟩ => by show 64 + a.val = 64 + a.val; rfl)

/-- A column broadcast along the rows' 64 entries reads the column at the row. -/
theorem bcast_col1 {α : Type} (v : S2000x1.Idx → α) (h : S2000x1.Broadcasts S2000x64) (r : Fin 2000) (j : Fin 64) :
    broadcastTo S2000x64 v h (ix2 r j) = v (ix2 r (0 : Fin 1)) :=
  broadcastTo_apply v h (ix2 r j) (ix2 r (0 : Fin 1)) (fun a => match a with
    | ⟨0, _⟩ => rfl
    | ⟨1, _⟩ => rfl)

/-- A row broadcast down the 2000 rows reads the row at the column. -/
theorem bcast_row1 {α : Type} (v : S1x64.Idx → α) (h : S1x64.Broadcasts S2000x64) (r : Fin 2000) (j : Fin 64) :
    broadcastTo S2000x64 v h (ix2 r j) = v (ix2 (0 : Fin 1) j) :=
  broadcastTo_apply v h (ix2 r j) (ix2 (0 : Fin 1) j) (fun a => match a with
    | ⟨0, _⟩ => rfl
    | ⟨1, _⟩ => rfl)

/-! ## The body's product: a [2000, 64] by [64, 64] contraction over the one shared axis -/

theorem lhs_dot1_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_dot1_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_dot1_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_dot1_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Over the extended reals the product into a zero accumulator, at (r, j), is the sum over the shared axis. -/
theorem matmul1_apply (L : FVec Ideal S2000x64 .bf16) (R : FVec Ideal S64x64 .bf16) (r : Fin 2000) (j : Fin 64) :
    matmul dot_S2000x64_S64x64_S2000x64_1_0_0_1_n_n none L R (constant (F := Ideal) S2000x64 .f32 0x00000000#32) (ix2 r j)
      = ∑ a : Fin 64, L (ix2 r a) * R (ix2 a j) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 r j) ((contrEquiv1 dot_S2000x64_S64x64_S2000x64_1_0_0_1_n_n 64 rfl rfl).symm k) = ix2 r k := funext fun a => Fin.ext (by
    match a with
    | ⟨0, _⟩ => exact lhs_dot1_0 _ _
    | ⟨1, _⟩ => exact (lhs_dot1_1 _ _).trans hk)
  have er : dot_S2000x64_S64x64_S2000x64_1_0_0_1_n_n.rhsIdx (ix2 r j) ((contrEquiv1 dot_S2000x64_S64x64_S2000x64_1_0_0_1_n_n 64 rfl rfl).symm k) = ix2 k j := funext fun a => Fin.ext (by
    match a with
    | ⟨0, _⟩ => exact (rhs_dot1_0 _ _).trans hk
    | ⟨1, _⟩ => exact rhs_dot1_1 _ _)
  rw [el, er]

/-! ## The body's payload at an index -/

/-- What the body stores at row r, column j of its block, from the five blocks it loaded: the first 64 columns of
    the [2000, 128] block plus its last 64 columns times the [64, 64] matrix, plus the column times the row, plus the
    [2000, 64] block, floored at zero. -/
theorem pay1_apply (v0 : Vec Ideal S2000x128 .f32) (v5 : Vec Ideal S64x64 .f32) (v9 : Vec Ideal S2000x1 .f32)
    (v13 : Vec Ideal S1x64 .f32) (v20 : Vec Ideal S2000x64 .f32) (r : Fin 2000) (j : Fin 64) :
    k1_pay1 (F := Ideal) v0 v5 v9 v13 v20 (ix2 r j)
      = max ((((v0 (ix2 r (⟨j.val, by omega⟩ : Fin 128)) + ∑ a : Fin 64, v0 (ix2 r (⟨64 + a.val, by omega⟩ : Fin 128)) * v5 (ix2 a j))
              + v9 (ix2 r (0 : Fin 1)) * v13 (ix2 (0 : Fin 1) j)) + v20 (ix2 r j))) 0 := by
  unfold k1_pay1
  simp only [maximumf_apply, addf_apply, mulf_apply, broadcast_apply, shapeCast_self]
  rw [slice_lo1, matmul1_apply, bcast_col1, bcast_row1]
  simp only [truncf_apply, slice_hi1]
  exact congrArg (max _) Ideal.ofBits_zero_f32

/-! ## From blocks to the array -/

variable (V : (c : Dev nD) → (b : Ref sig .tc) → Buf (Elt Ideal) ((c : Thread nD τ).loc b))

theorem hz1 : (![0, 0] : Fin 2 → Nat) = fun _ => 0 := funext fun a => by fin_cases a <;> rfl

/-- What the launch leaves in its result array, as one function of its five operand arrays as it finds them. -/
def G1 (c : Dev nD) : S50000x64.Idx → EReal :=
  Cert.Spec.mk2 (Cert.Spec.region1 (V c main_v33) (V c main_v28) (V c main_v14) (V c main_v34) (V c main_v35))

/-- The printed index maps, decided over the 25 points: at point t the three node tables and the result are at block
    row t, block column 0; the matrix and the bias row are at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A point is one of 25. -/
theorem point_lt1 (t : Fin cfg1.N) : t.val < 25 := lt_of_lt_of_eq t.isLt N_1

/-- Row p of point t's block is row 2000·t + p of the array. -/
def row1 (t : Fin cfg1.N) (p : Fin 2000) : Fin 50000 := ⟨2000 * t.val + p.val, by have := point_lt1 t; omega⟩

/-- The [2000, 128] block of window 0 at point t, at (p, x), is the array at (2000·t + p, x). -/
theorem blk1_0 (c : Dev nD) (t : Fin cfg1.N) (p : Fin 2000) (x : Fin 128) :
    (iblk1 V c 0 t : S2000x128.Idx → EReal) (ix2 p x) = (V c main_v33 : S50000x128.Idx → EReal) (ix2 (row1 t p) x) := by
  obtain ⟨e0, e1, -⟩ := idx_facts1 t
  show (V c main_v33 : S50000x128.Idx → EReal) (((cfg1.win 0).blk t).view.emb (ix2 p x)) = _
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * x.val = x.val; omega

/-- The [2000, 64] block of window 1 at point t. -/
theorem blk1_1 (c : Dev nD) (t : Fin cfg1.N) (p : Fin 2000) (x : Fin 64) :
    (iblk1 V c 1 t : S2000x64.Idx → EReal) (ix2 p x) = (V c main_v28 : S50000x64.Idx → EReal) (ix2 (row1 t p) x) := by
  obtain ⟨-, -, e0, e1, -⟩ := idx_facts1 t
  show (V c main_v28 : S50000x64.Idx → EReal) (((cfg1.win 1).blk t).view.emb (ix2 p x)) = _
  refine congrArg _ (funext fun a => Fin.ext ?_)
  match a with
  | ⟨0, _⟩ => show win1_1.index t (0 : Fin 2) * 2000 + 1 * p.val = 2000 * t.val + p.val; omega
  | ⟨1, _⟩ => show win1_1.index t (1 : Fin 2) * 64 + 1 * x.val = x.val; omega

/-- The [2000, 1] block of window 2 at point t. -/
theorem blk1_2 (c : Dev nD) (t : Fin cfg1.N) (p : Fin 2000) (x : Fin 1) :
    (iblk1 V c 2 t : S2000x1.Idx → EReal) (ix2 p x) = (V c main_v14 : S50000x1.Idx → EReal) (ix2 (row1 t p) x) := by
  obtain ⟨-, -, -, -, e0, e1, -⟩ := idx_facts1 t
  show (V c main_v14 : S50000x1.Idx → EReal) (((cfg1.win 2).blk t).view.emb (ix2 p x)) = _
  refine congrArg _ (funext fun a => Fin.ext ?_)
  match a with
  | ⟨0, _⟩ => show win1_2.index t (0 : Fin 2) * 2000 + 1 * p.val = 2000 * t.val + p.val; omega
  | ⟨1, _⟩ => show win1_2.index t (1 : Fin 2) * 1 + 1 * x.val = x.val; omega

/-- Window 3's block is the whole [64, 64] matrix at every point. -/
theorem blk1_3 (c : Dev nD) (t : Fin cfg1.N) (p : Fin 64) (x : Fin 64) :
    (iblk1 V c 3 t : S64x64.Idx → EReal) (ix2 p x) = (V c main_v34 : S64x64.Idx → EReal) (ix2 p x) := by
  obtain ⟨-, -, -, -, -, -, e0, e1, -⟩ := idx_facts1 t
  show (V c main_v34 : S64x64.Idx → EReal) (((cfg1.win 3).blk t).view.emb (ix2 p x)) = _
  refine congrArg _ (funext fun a => Fin.ext ?_)
  match a with
  | ⟨0, _⟩ => show win1_3.index t (0 : Fin 2) * 64 + 1 * p.val = p.val; omega
  | ⟨1, _⟩ => show win1_3.index t (1 : Fin 2) * 64 + 1 * x.val = x.val; omega

/-- Window 4's block is the whole [1, 64] row at every point. -/
theorem blk1_4 (c : Dev nD) (t : Fin cfg1.N) (p : Fin 1) (x : Fin 64) :
    (iblk1 V c 4 t : S1x64.Idx → EReal) (ix2 p x) = (V c main_v35 : S1x64.Idx → EReal) (ix2 p x) := by
  obtain ⟨-, -, -, -, -, -, -, -, e0, e1, -⟩ := idx_facts1 t
  show (V c main_v35 : S1x64.Idx → EReal) (((cfg1.win 4).blk t).view.emb (ix2 p x)) = _
  refine congrArg _ (funext fun a => Fin.ext ?_)
  match a with
  | ⟨0, _⟩ => show win1_4.index t (0 : Fin 2) * 1 + 1 * p.val = p.val; omega
  | ⟨1, _⟩ => show win1_4.index t (1 : Fin 2) * 64 + 1 * x.val = x.val; omega

/-- The result window's block at point t, at (p, q), sits at (2000·t + p, q) of the array. -/
theorem emb1_5 (t : Fin cfg1.N) (p : Fin 2000) (q : Fin 64) :
    (((cfg1.win 5).blk t).view.emb (ix2 p q) : S50000x64.Idx) = ix2 (row1 t p) q := by
  obtain ⟨-, -, -, -, -, -, -, -, -, -, e0, e1⟩ := idx_facts1 t
  refine funext fun a => Fin.ext ?_
  match a with
  | ⟨0, _⟩ => show win1_5.index t (0 : Fin 2) * 2000 + 1 * p.val = 2000 * t.val + p.val; omega
  | ⟨1, _⟩ => show win1_5.index t (1 : Fin 2) * 64 + 1 * q.val = q.val; omega

/-- What point t writes back is block t of G1. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz1]
  simp only [View.ld_unit_zero (S := S2000x128) hz1, View.ld_unit_zero (S := S2000x64) hz1, View.ld_unit_zero (S := S2000x1) hz1,
    View.ld_unit_zero (S := S64x64) hz1, View.ld_unit_zero (S := S1x64) hz1]
  funext y
  obtain ⟨p, q, rfl⟩ : ∃ (p : Fin 2000) (q : Fin 64), y = ix2 p q := ⟨y 0, y 1, eq_ix2 y⟩
  show k1_pay1 (F := Ideal) (iblk1 V c 0 t) (iblk1 V c 3 t) (iblk1 V c 2 t) (iblk1 V c 4 t) (iblk1 V c 1 t) (ix2 p q)
    = G1 V c (((cfg1.win 5).blk t).view.emb (ix2 p q))
  refine (pay1_apply (iblk1 V c 0 t) (iblk1 V c 3 t) (iblk1 V c 2 t) (iblk1 V c 4 t) (iblk1 V c 1 t) p q).trans ?_
  rw [emb1_5 t p q]
  show _ = Cert.Spec.region1 (V c main_v33) (V c main_v28) (V c main_v14) (V c main_v34) (V c main_v35) (row1 t p) q
  unfold Cert.Spec.region1
  simp only [blk1_0 V c t p, blk1_1 V c t p, blk1_2 V c t p, blk1_3 V c t, blk1_4 V c t]

/-- An index of the array is in point t's block iff each coordinate is in the block's range on its axis. -/
theorem mem_blk1 (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v36).slice (win1_5.rect t)).set ↔ _
  rw [View.set_slice_whole, Rect.mem_set_unit]
  exact Iff.rfl

/-- Every index of the array is in some point's block: row n is in the block of point n / 2000. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  let t : Fin cfg1.N := ⟨(i 0).val / 2000, lt_of_lt_of_eq (by omega : (i 0).val / 2000 < 25) N_1.symm⟩
  obtain ⟨-, -, -, -, -, -, -, -, -, -, e0, e1⟩ := idx_facts1 t
  have ht : t.val = (i 0).val / 2000 := rfl
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- The result array after the launch is G1. -/
theorem final1 (c : Dev nD) : (dat1 (F := Ideal) V c).arrAt 5 cfg1.N = G1 V c :=
  (dat1 (F := Ideal) V c).arrAt_eq_of_cover 5 (G1 V c) (fun t _ => flushed1_eq V c t) cover1

end Cert.KernelIdeal.Hand.Value1

namespace Cert.KernelIdeal.Hand

open Cert.KernelIdeal Cert.KernelIdeal.Gen
open Idealize.ShloMosaic Idealize.ShloMosaic.TcCoe Idealize.ShloMosaic.ValueIdx Idealize.SL.Sem

/-- What the second launch leaves in its result array, entry by entry: the specification's second-launch function of
    its five operand arrays as the launch finds them. -/
theorem region1_value (V : (c : Dev nD) → (b : Ref sig .tc) → Buf (Elt Ideal) ((c : Thread nD τ).loc b)) (c : Dev nD) (n : Fin 50000) (j : Fin 64) :
    ((dat1 (F := Ideal) V c).arrAt 5 cfg1.N : S50000x64.Idx → EReal) (ix2 n j)
      = Cert.Spec.region1 (V c main_v33) (V c main_v28) (V c main_v14) (V c main_v34) (V c main_v35) n j :=
  congrFun (Value1.final1 V c) (ix2 n j)

end Cert.KernelIdeal.Hand

end
-- ==== Proof.Inputs.lean ====
/-
  The fifteen argument buffers of a memory, bundled as the specification's inputs: for the idealized kernel's
  memories and for the idealized reference's.
-/
import proofs.«408220_j76836964925933_3_alg».proof.Defs
import proofs.«408220_j76836964925933_3_alg».proof.Proof.Spec

noncomputable section

open Idealize.ShloMosaic Idealize.SL.Sem

namespace Cert.KernelIdeal.Hand

open Cert.KernelIdeal

/-- Core c's argument buffers in memory m. -/
def inputsOf (m : (ℓ : Loc nD τ sig) → Buf (Elt Ideal) ℓ) (c : Dev nD) : Cert.Spec.Inputs where
  x := m ((c.tc : Thread nD τ).loc main_arg0)
  ei := m ((c.tc : Thread nD τ).loc main_arg1)
  ea := m ((c.tc : Thread nD τ).loc main_arg2)
  W1m := m ((c.tc : Thread nD τ).loc main_arg3)
  b1m := m ((c.tc : Thread nD τ).loc main_arg4)
  W1e := m ((c.tc : Thread nD τ).loc main_arg5)
  b1e := m ((c.tc : Thread nD τ).loc main_arg6)
  W1s := m ((c.tc : Thread nD τ).loc main_arg7)
  b1s := m ((c.tc : Thread nD τ).loc main_arg8)
  W2m := m ((c.tc : Thread nD τ).loc main_arg9)
  b2m := m ((c.tc : Thread nD τ).loc main_arg10)
  W2e := m ((c.tc : Thread nD τ).loc main_arg11)
  b2e := m ((c.tc : Thread nD τ).loc main_arg12)
  W2s := m ((c.tc : Thread nD τ).loc main_arg13)
  b2s := m ((c.tc : Thread nD τ).loc main_arg14)

end Cert.KernelIdeal.Hand

namespace Cert.ReferenceIdeal.Hand

open Cert.ReferenceIdeal

/-- Core c's argument buffers in memory m. -/
def inputsOf (m : (ℓ : Loc nD τ sig) → Buf (Elt Ideal) ℓ) (c : Dev nD) : Cert.Spec.Inputs where
  x := m ((c.tc : Thread nD τ).loc main_arg0)
  ei := m ((c.tc : Thread nD τ).loc main_arg1)
  ea := m ((c.tc : Thread nD τ).loc main_arg2)
  W1m := m ((c.tc : Thread nD τ).loc main_arg3)
  b1m := m ((c.tc : Thread nD τ).loc main_arg4)
  W1e := m ((c.tc : Thread nD τ).loc main_arg5)
  b1e := m ((c.tc : Thread nD τ).loc main_arg6)
  W1s := m ((c.tc : Thread nD τ).loc main_arg7)
  b1s := m ((c.tc : Thread nD τ).loc main_arg8)
  W2m := m ((c.tc : Thread nD τ).loc main_arg9)
  b2m := m ((c.tc : Thread nD τ).loc main_arg10)
  W2e := m ((c.tc : Thread nD τ).loc main_arg11)
  b2e := m ((c.tc : Thread nD τ).loc main_arg12)
  W2s := m ((c.tc : Thread nD τ).loc main_arg13)
  b2s := m ((c.tc : Thread nD τ).loc main_arg14)

end Cert.ReferenceIdeal.Hand

end
-- ==== Proof.LibRowGatherScatter.lean ====
/-
  ROWS OF A TABLE, GATHERED AND SCATTER-ADDED, READ AT AN INDEX.

  For a table of shape [N, C] and E integer row indices (an [E, 1] array of words):

  * the row gather (dimension numbers: offset axis 1, collapsed axis 0, start index map [0], index vector on axis 1,
    slices of size [1, C]) has, at result position (e, j), the table's element at row idx[e, 0] — read as a signed
    integer and clamped into [0, N - 1] — and column j (gather_rows_apply);
  * the row scatter with an add body (window axis 1, inserted axis 0, scatter axis 0, index vector on axis 1) has, at
    the exact (extended-real) instance, at position (n, j) the operand's element plus the sum, over the rows e of the
    updates whose index idx[e, 0], read as a signed integer and NOT clamped, is exactly n, of upd[e, j]; a row whose
    index lies outside [0, N) contributes nowhere (scatterAdd_rows_apply);
  * both operations act column by column, so they commute with restricting every array to a block of columns
    c0, …, c0 + C' - 1 (gather_rows_cols, scatterAdd_rows_cols).
-/
import Idealize.ShloMosaic.Lib.ValueIdx
import Idealize.ShloMosaic.PureOps.Contract

noncomputable section

open scoped BigOperators

namespace Cert.LibRows

open Idealize.ShloMosaic Idealize.ShloMosaic.ValueIdx

/-! ## The row gather -/

section Gather
variable {α : Type}

/-- The row gather's dimension numbers for a table [N, C], start indices [E, 1] and result [E, C]; their conditions
    are decided on literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The conditions hold only of a table with at least one row: the size-1 slice must fit on axis 0. -/
theorem rowGather_pos {N E C : Nat}
    (wf : GatherDims.WF ⟨2, ![N, C]⟩ ⟨2, ![E, 1]⟩ ⟨2, ![E, C]⟩ [1] [0] [] [0] [] 1 ![1, C]) : 0 < N :=
  (rowGather N E C wf).slice_le 0

/-- THE ROW GATHER AT (e, j): the table at row idx[e, 0], read signed and clamped into [0, N - 1], and column j. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGather N E C wf) x idx (ix2 e j)
      = x (ix2 ⟨min (idx (ix2 e (0 : Fin 1))).toInt.toNat (N - 1), by omega⟩ j) := by
  have h10 : (1 : Fin 2) ∉ ([0] : List (Fin 2)) := by decide
  -- axis 0 is collapsed: no offset coordinate; its start is the clamped index
  have h0 : (rowGather N E C wf).start (ix2 e j) idx (0 : Fin 2) + (rowGather N E C wf).batchCoord (ix2 e j) (0 : Fin 2)
      + (rowGather N E C wf).offCoord (ix2 e j) (0 : Fin 2) = min (idx (ix2 e (0 : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e j) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1 is not indexed: its start is 0 and its offset coordinate the result's column
  have h1 : (rowGather N E C wf).start (ix2 e j) idx (1 : Fin 2) + (rowGather N E C wf).batchCoord (ix2 e j) (1 : Fin 2)
      + (rowGather N E C wf).offCoord (ix2 e j) (1 : Fin 2) = j.val := by
    have hs : (rowGather N E C wf).start (ix2 e j) idx (1 : Fin 2) = 0 := by
      unfold GatherDims.start
      rw [dif_neg (show (1 : Fin 2) ∉ (rowGather N E C wf).startIndexMap from h10)]
    have ho : (rowGather N E C wf).offCoord (ix2 e j) (1 : Fin 2) = j.val := by
      unfold GatherDims.offCoord
      rw [dif_pos (show (1 : Fin 2) ∈ (rowGather N E C wf).sKept from
        (GatherDims.mem_sKept _ _).mpr ⟨h10, List.not_mem_nil⟩)]
      rfl
    rw [GatherDims.batchCoord_eq_zero _ _ _ List.not_mem_nil, hs, ho]; omega
  unfold Host.gather
  congr 1
  funext a
  refine Fin.ext ?_
  match a with
  | ⟨0, _⟩ => exact h0
  | ⟨1, _⟩ => exact h1

end Gather

/-! ## The row scatter with an add body -/

section Scatter

/-- The row scatter's dimension numbers for an operand [N, C], scatter indices [E, 1] and updates [E, C]; their
    conditions are decided on literal shapes. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On axis 0 the window of update (e, j) starts at the index idx[e, 0], read signed. -/
theorem rowScatter_start0 (idx : IVec ⟨2, ![E, 1]⟩ w) (e : Fin E) (j : Fin C) :
    (rowScatter N E C wf).start (ix2 e j) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e j)
      ⟨List.idxOf (0 : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On axis 1, which no index names, it starts at 0. -/
theorem rowScatter_start1 (idx : IVec ⟨2, ![E, 1]⟩ w) (e : Fin E) (j : Fin C) :
    (rowScatter N E C wf).start (ix2 e j) idx (1 : Fin 2) = 0 := by
  unfold ScatterDims.start
  have h10 : (1 : Fin 2) ∉ ([0] : List (Fin 2)) := by decide
  rw [dif_neg (show (1 : Fin 2) ∉ (rowScatter N E C wf).scatterDimsToOperandDims from h10)]

/-- Axis 0 is an inserted axis: the window coordinate there is 0. -/
theorem rowScatter_window0 (e : Fin E) (j : Fin C) : (rowScatter N E C wf).window (ix2 e j) (0 : Fin 2) = 0 := by
  unfold ScatterDims.window
  rw [dif_neg (show (0 : Fin 2) ∉ (rowScatter N E C wf).sKept from by
    simp [ScatterDims.sKept, Shape.kept, List.mem_filter, List.mem_finRange])]

/-- On axis 1 the window coordinate is the update's column. -/
theorem rowScatter_window1 (e : Fin E) (j : Fin C) : (rowScatter N E C wf).window (ix2 e j) (1 : Fin 2) = j.val := by
  unfold ScatterDims.window
  rw [dif_pos (show (1 : Fin 2) ∈ (rowScatter N E C wf).sKept from by
    simp [ScatterDims.sKept, Shape.kept, List.mem_filter, List.mem_finRange])]
  rfl

/-- WHERE AN UPDATE LANDS: update (e, j') goes to operand position (n, j) exactly when its row index idx[e, 0], read
    signed, is n and j' = j. (An index outside [0, N) is no n : Fin N: that update lands nowhere.) -/
theorem rowScatter_resultIdx?_eq_some (idx : IVec ⟨2, ![E, 1]⟩ w) (e : Fin E) (j' : Fin C) (n : Fin N) (j : Fin C) :
    (rowScatter N E C wf).resultIdx? (ix2 e j') idx = some (ix2 n j)
      ↔ (idx (ix2 e (0 : Fin 1))).toInt = (n.val : ℤ) ∧ j' = j := by
  have hs0 := rowScatter_start0 wf idx e j'
  have hs1 := rowScatter_start1 wf idx e j'
  have hw0 := rowScatter_window0 wf e j'
  have hw1 := rowScatter_window1 wf e j'
  constructor
  · intro h
    unfold ScatterDims.resultIdx? at h
    split at h
    · rename_i hall
      have h' := Option.some.inj h
      have e0 : ((rowScatter N E C wf).start (ix2 e j') idx (0 : Fin 2)
          + ((rowScatter N E C wf).window (ix2 e j') (0 : Fin 2) : ℤ)).toNat = n.val :=
        congrArg (fun f => (f (0 : Fin 2)).val) h'
      have e1 : ((rowScatter N E C wf).start (ix2 e j') idx (1 : Fin 2)
          + ((rowScatter N E C wf).window (ix2 e j') (1 : Fin 2) : ℤ)).toNat = j.val :=
        congrArg (fun f => (f (1 : Fin 2)).val) h'
      have b0 := (hall (0 : Fin 2)).1
      rw [hs0, hw0] at e0 b0
      rw [hs1, hw1] at e1
      exact ⟨by omega, Fin.ext (by omega)⟩
    · exact absurd h (by simp)
  · rintro ⟨hn, rfl⟩
    unfold ScatterDims.resultIdx?
    have hall : ∀ a, 0 ≤ (rowScatter N E C wf).start (ix2 e j') idx a + ((rowScatter N E C wf).window (ix2 e j') a : ℤ)
        ∧ (rowScatter N E C wf).start (ix2 e j') idx a + ((rowScatter N E C wf).window (ix2 e j') a : ℤ)
          < (((⟨2, ![N, C]⟩ : Shape).size a : ℕ) : ℤ) := by
      intro a
      match a with
      | ⟨0, _⟩ =>
        show 0 ≤ (rowScatter N E C wf).start (ix2 e j') idx (0 : Fin 2)
            + ((rowScatter N E C wf).window (ix2 e j') (0 : Fin 2) : ℤ)
          ∧ (rowScatter N E C wf).start (ix2 e j') idx (0 : Fin 2)
            + ((rowScatter N E C wf).window (ix2 e j') (0 : Fin 2) : ℤ) < ((N : ℕ) : ℤ)
        rw [hs0, hw0, hn]; have := n.isLt; omega
      | ⟨1, _⟩ =>
        show 0 ≤ (rowScatter N E C wf).start (ix2 e j') idx (1 : Fin 2)
            + ((rowScatter N E C wf).window (ix2 e j') (1 : Fin 2) : ℤ)
          ∧ (rowScatter N E C wf).start (ix2 e j') idx (1 : Fin 2)
            + ((rowScatter N E C wf).window (ix2 e j') (1 : Fin 2) : ℤ) < ((C : ℕ) : ℤ)
        rw [hs1, hw1]; have := j'.isLt; omega
    rw [dif_pos hall]
    congr 1
    funext a
    refine Fin.ext ?_
    match a with
    | ⟨0, _⟩ =>
      show ((rowScatter N E C wf).start (ix2 e j') idx (0 : Fin 2)
          + ((rowScatter N E C wf).window (ix2 e j') (0 : Fin 2) : ℤ)).toNat = n.val
      rw [hs0, hw0, hn]; omega
    | ⟨1, _⟩ =>
      show ((rowScatter N E C wf).start (ix2 e j') idx (1 : Fin 2)
          + ((rowScatter N E C wf).window (ix2 e j') (1 : Fin 2) : ℤ)).toNat = j'.val
      rw [hs1, hw1]; omega

/-- THE ROW SCATTER-ADD AT (n, j), exact instance: the operand's element plus the sum of upd[e, j] over the update
    rows e whose index idx[e, 0], read signed and not clamped, is n. -/
theorem scatterAdd_rows_apply (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowScatter N E C wf) x idx upd (ix2 n j)
      = x (ix2 n j) + ∑ e ∈ Finset.univ.filter (fun e : Fin E => (idx (ix2 e (0 : Fin 1))).toInt = (n.val : ℤ)),
          upd (ix2 e j) := by
  unfold Ideal.hostScatterAdd
  congr 1
  -- the updates that land at (n, j) are the (e, j) with idx[e, 0] = n: re-index the sum by the row e
  refine Finset.sum_nbij' (fun u : (⟨2, ![E, C]⟩ : Shape).Idx => (u 0 : Fin E)) (fun e : Fin E => ix2 e j) ?_ ?_ ?_ ?_ ?_
  · intro u hu
    obtain ⟨e, j', rfl⟩ : ∃ (e : Fin E) (j' : Fin C), u = ix2 e j' := ⟨u 0, u 1, eq_ix2 u⟩
    exact Finset.mem_filter.mpr ⟨Finset.mem_univ _,
      ((rowScatter_resultIdx?_eq_some wf idx e j' n j).mp (Finset.mem_filter.mp hu).2).1⟩
  · intro e he
    exact Finset.mem_filter.mpr ⟨Finset.mem_univ _,
      (rowScatter_resultIdx?_eq_some wf idx e j n j).mpr ⟨(Finset.mem_filter.mp he).2, rfl⟩⟩
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl
  · intro e _
    rfl
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl

/-- The same of the host operation at the exact instance, for any float format. -/
theorem host_scatterAdd_rows_apply {φ : FTy} (x : FVec Ideal ⟨2, ![N, C]⟩ φ) (idx : IVec ⟨2, ![E, 1]⟩ w)
    (upd : FVec Ideal ⟨2, ![E, C]⟩ φ) (n : Fin N) (j : Fin C) :
    Host.scatterAdd (F := Ideal) (rowScatter N E C wf) x idx upd (ix2 n j)
      = x (ix2 n j) + ∑ e ∈ Finset.univ.filter (fun e : Fin E => (idx (ix2 e (0 : Fin 1))).toInt = (n.val : ℤ)),
          upd (ix2 e j) := by
  unfold Host.scatterAdd
  rw [Ideal.hostScatterAdd_def]
  exact scatterAdd_rows_apply wf x idx upd n j

end Scatter

/-! ## Restriction to a block of columns -/

section Cols

/-- The columns c0, …, c0 + C' - 1 of an [R, C] array, as an [R, C'] array. -/
def cols {α : Type} {R C C' : Nat} (c0 : Nat) (h : c0 + C' ≤ C) (X : (⟨2, ![R, C]⟩ : Shape).Idx → α) :
    (⟨2, ![R, C']⟩ : Shape).Idx → α :=
  fun i => X (ix2 ⟨(i 0).val, idx2_lt0 i⟩ ⟨c0 + (i 1).val, by have := idx2_lt1 i; omega⟩)

/-- Its element (r, c) is the array's element (r, c0 + c). -/
theorem cols_apply {α : Type} {R C C' : Nat} (c0 : Nat) (h : c0 + C' ≤ C) (X : (⟨2, ![R, C]⟩ : Shape).Idx → α)
    (r : Fin R) (c : Fin C') : cols c0 h X (ix2 r c) = X (ix2 r ⟨c0 + c.val, by omega⟩) := rfl

/-- THE ROW GATHER COMMUTES WITH TAKING COLUMNS: gathering rows of the column block is the column block of the
    gathered rows (the row chosen depends on the index only). -/
theorem gather_rows_cols {α : Type} {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (c0 : Nat) (h : c0 + C' ≤ C) (x : (⟨2, ![N, C]⟩ : Shape).Idx → α) (idx : IVec ⟨2, ![E, 1]⟩ w) :
    Host.gather (rowGather N E C' wf') (cols c0 h x) idx = cols c0 h (Host.gather (rowGather N E C wf) x idx) := by
  funext i
  obtain ⟨e, c, rfl⟩ : ∃ (e : Fin E) (c : Fin C'), i = ix2 e c := ⟨i 0, i 1, eq_ix2 i⟩
  rw [gather_rows_apply hN wf', cols_apply, cols_apply, gather_rows_apply hN wf]

/-- THE ROW SCATTER-ADD COMMUTES WITH TAKING COLUMNS (exact instance): column c0 + c of the result is made of column
    c0 + c of the operand and of the updates only. -/
theorem scatterAdd_rows_cols {φ : FTy} {N E C C' w : Nat}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (c0 : Nat) (h : c0 + C' ≤ C) (x : FVec Ideal ⟨2, ![N, C]⟩ φ) (idx : IVec ⟨2, ![E, 1]⟩ w)
    (upd : FVec Ideal ⟨2, ![E, C]⟩ φ) :
    Host.scatterAdd (F := Ideal) (rowScatter N E C' wf') (cols c0 h x) idx (cols c0 h upd)
      = cols c0 h (Host.scatterAdd (F := Ideal) (rowScatter N E C wf) x idx upd) := by
  funext i
  obtain ⟨n, c, rfl⟩ : ∃ (n : Fin N) (c : Fin C'), i = ix2 n c := ⟨i 0, i 1, eq_ix2 i⟩
  rw [host_scatterAdd_rows_apply wf', cols_apply, cols_apply, host_scatterAdd_rows_apply wf]
  rfl

end Cols

end Cert.LibRows

end
-- ==== Proof.KIHost.lean ====
/-
  WHAT THE KERNEL'S HOST OPERATIONS PUT IN THE TWO LAUNCHES' OPERAND BUFFERS, as the specification's tables, at the
  exact (extended-real) instance.

  Between the launches the program runs stretches of host operations: it cuts the two rows of edge words out of the
  edge array and clamps each word into [0, 49999]; takes the rows of the node features at the source words (wrap of
  negative words, range mask, row gather, fill where the mask fails); lays [rows | edge attributes | 1] side by side
  into a 129-column table and sums its rows into the nodes by the target words (a row scatter-add into zeros); cuts
  that table into [aggx | agge], agge alone and the degree column; and transposes, stacks, adds and reshapes the
  weights and biases. Before the second launch it does the same take and sum on the first 64 columns of the first
  launch's result, and sets agge beside it.

  Each stretch is read here ONCE from arbitrary contents before it, as a term over those contents; the terms are read
  at an index; and for a memory whose edge words all name nodes (0 ≤ word < 50000, read signed) the clamp, the wrap
  and the range mask are the identity, so that the gathered row of edge e is the table's row at its source node and
  the scatter-add at node n is the sum over the edges into n. The sixteen theorems at the end state the result: the
  first launch's eleven operands and the second launch's five, each equal to its table in the specification.
-/
import proofs.«408220_j76836964925933_3_alg».proof.Proof.Gen.KernelIdeal.Regions
import proofs.«408220_j76836964925933_3_alg».proof.Proof.Inputs
import proofs.«408220_j76836964925933_3_alg».proof.Proof.Spec
import proofs.«408220_j76836964925933_3_alg».proof.Proof.LibRowGatherScatter
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.Lib.Affine
import Idealize.ShloMosaic.PureOps.Reduce
import Idealize.ShloMosaic.PureOps.Ideal.Laws

set_option maxRecDepth 1068

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

namespace Host

/-! ## Words: an index word that names a node passes the clamp, the wrap and the range mask unchanged -/

section Words

/-- The clamp into [0, 49999] keeps a word in [0, 50000). -/
theorem clip_id (w : BitVec 32) (h0 : 0 ≤ w.toInt) (h1 : w.toInt < 50000) :
    IntOp.minsi 49999#32 (IntOp.maxsi 0#32 w) = w := by
  have e0 : (0#32 : BitVec 32).toInt = 0 := by decide
  have e1 : (49999#32 : BitVec 32).toInt = 49999 := by decide
  have a : IntOp.maxsi 0#32 w = w := by
    unfold IntOp.maxsi
    rw [if_neg]
    rw [BitVec.slt_iff_toInt_lt, e0]; omega
  rw [a]
  unfold IntOp.minsi
  rw [if_neg]
  rw [BitVec.slt_iff_toInt_lt, e1]; omega

/-- The wrap of a negative index (add 50000 where the word is below zero) keeps a word that is not negative. -/
theorem wrap_id (w : BitVec 32) (h0 : 0 ≤ w.toInt) :
    Scalar.select (IntOp.cmpi .slt w 0#32) (IntOp.addi w 50000#32) w = w := by
  have e0 : (0#32 : BitVec 32).toInt = 0 := by decide
  have h : IntOp.cmpi .slt w 0#32 = 0#1 := eq_zero_of_ne_one (by rw [IntOp.cmpi_slt, e0]; omega)
  rw [h, select_zero]

/-- The range test 0 ≤ w ≤ 49999 holds of a word in [0, 50000). -/
theorem inRange_one (w : BitVec 32) (h0 : 0 ≤ w.toInt) (h1 : w.toInt < 50000) :
    IntOp.andi (IntOp.cmpi .sge w 0#32) (IntOp.cmpi .sle w 49999#32) = 1#1 := by
  have e0 : (0#32 : BitVec 32).toInt = 0 := by decide
  have e1 : (49999#32 : BitVec 32).toInt = 49999 := by decide
  exact IntOp.andi_eq_one.mpr ⟨IntOp.cmpi_sge.mpr (by rw [e0]; exact h0), IntOp.cmpi_sle.mpr (by rw [e1]; omega)⟩

/-- A reduction by "and" of words that are all 1, from 1, is 1. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  have e11 : IntOp.andi (1#1) (1#1) = 1#1 := by decide
  have key : ∀ l : List s.Idx, l.foldl (fun r i => IntOp.andi r (x i)) 1#1 = 1#1 := by
    intro l
    induction l with
    | nil => rfl
    | cons a l ih => rw [List.foldl_cons, hx a, e11]; exact ih
  rw [Host.reduce_eq_foldl, hi]
  exact key _

end Words

/-! ## Layout operations read at an index -/

section Layout
variable {α : Type}

/-- A vector as an [n, 1] column reads, at (p, u), the vector at p. -/
theorem bcast_col_apply {n : Nat} (h : (⟨1, ![n]⟩ : Shape).BroadcastsInDim ⟨2, ![n, 1]⟩ ![0]) (hn : n ≠ 1)
    (v : (⟨1, ![n]⟩ : Shape).Idx → α) (p : Fin n) (u : Fin 1) :
    broadcastInDim ⟨2, ![n, 1]⟩ ![0] h v (ix2 p u) = v (ix1 p) :=
  broadcastInDim_apply _ h v _ _ fun a => match a with
    | ⟨0, _⟩ => by show p.val = if n = 1 then 0 else p.val; rw [if_neg hn]

/-- A vector copied along the rows of an [n, k] array reads, at (p, q), the vector at p. -/
theorem bcast_rowsOf_apply {n k : Nat} (h : (⟨1, ![n]⟩ : Shape).BroadcastsInDim ⟨2, ![n, k]⟩ ![0]) (hn : n ≠ 1)
    (v : (⟨1, ![n]⟩ : Shape).Idx → α) (p : Fin n) (q : Fin k) :
    broadcastInDim ⟨2, ![n, k]⟩ ![0] h v (ix2 p q) = v (ix1 p) :=
  broadcastInDim_apply _ h v _ _ fun a => match a with
    | ⟨0, _⟩ => by show p.val = if n = 1 then 0 else p.val; rw [if_neg hn]

/-- Two tables side by side: columns 0 … k₁ − 1 from the first, the rest from the second. -/
theorem concat2_cols_apply {n k₁ k₂ k : Nat}
    (h : Shape.Concatenates [⟨2, ![n, k₁]⟩, ⟨2, ![n, k₂]⟩] ⟨2, ![n, k]⟩ 1) (hk : k = k₁ + k₂)
    (x₁ : (⟨2, ![n, k₁]⟩ : Shape).Idx → α) (x₂ : (⟨2, ![n, k₂]⟩ : Shape).Idx → α) (p : Fin n) (q : Fin k) :
    concatenate ⟨2, ![n, k]⟩ 1 [⟨⟨2, ![n, k₁]⟩, x₁⟩, ⟨⟨2, ![n, k₂]⟩, x₂⟩] h (ix2 p q)
      = if hq : q.val < k₁ then x₁ (ix2 p ⟨q.val, hq⟩) else x₂ (ix2 p ⟨q.val - k₁, by omega⟩) := by
  by_cases hq : q.val < k₁
  · rw [dif_pos hq]
    exact concatenate_pair_apply_left (1 : Fin 2) x₁ x₂ h (ix2 p q) rfl (ix2 p ⟨q.val, hq⟩)
      (fun b => match b with | ⟨0, _⟩ => rfl | ⟨1, _⟩ => rfl)
  · rw [dif_neg hq]
    exact concatenate_pair_apply_right (1 : Fin 2) x₁ x₂ h (ix2 p q) rfl rfl (ix2 p ⟨q.val - k₁, by omega⟩)
      (fun b hb => match b, hb with | ⟨0, _⟩, _ => rfl | ⟨1, _⟩, hb => absurd rfl hb)
      (show q.val - k₁ + k₁ = q.val by omega)

/-- Two tables one above the other: rows 0 … r₁ − 1 from the first, the rest from the second. -/
theorem concat2_rows_apply {r₁ r₂ r k : Nat}
    (h : Shape.Concatenates [⟨2, ![r₁, k]⟩, ⟨2, ![r₂, k]⟩] ⟨2, ![r, k]⟩ 0) (hr : r = r₁ + r₂)
    (x₁ : (⟨2, ![r₁, k]⟩ : Shape).Idx → α) (x₂ : (⟨2, ![r₂, k]⟩ : Shape).Idx → α) (p : Fin r) (q : Fin k) :
    concatenate ⟨2, ![r, k]⟩ 0 [⟨⟨2, ![r₁, k]⟩, x₁⟩, ⟨⟨2, ![r₂, k]⟩, x₂⟩] h (ix2 p q)
      = if hp : p.val < r₁ then x₁ (ix2 ⟨p.val, hp⟩ q) else x₂ (ix2 ⟨p.val - r₁, by omega⟩ q) := by
  by_cases hp : p.val < r₁
  · rw [dif_pos hp]
    exact concatenate_pair_apply_left (0 : Fin 2) x₁ x₂ h (ix2 p q) rfl (ix2 ⟨p.val, hp⟩ q)
      (fun b => match b with | ⟨0, _⟩ => rfl | ⟨1, _⟩ => rfl)
  · rw [dif_neg hp]
    exact concatenate_pair_apply_right (0 : Fin 2) x₁ x₂ h (ix2 p q) rfl rfl (ix2 ⟨p.val - r₁, by omega⟩ q)
      (fun b hb => match b, hb with | ⟨0, _⟩, hb => absurd rfl hb | ⟨1, _⟩, _ => rfl)
      (show p.val - r₁ + r₁ = p.val by omega)

end Layout

/-! ## Rows of a table taken at index words, and rows summed into nodes, as the program prints them -/

section Take

/-- The index words after the wrap of the negative ones, as a column. -/
def idxCol (idx : S800000.Idx → BitVec 32) : S800000x1.Idx → BitVec 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The range test 0 ≤ word ≤ 49999 on each word of a column. -/
def idxOk (col : S800000x1.Idx → BitVec 32) : S800000.Idx → BitVec 1 :=
  Host.reduce IntOp.andi
    (andi (cmpi .sge col (broadcastInDim S800000x1 ![] bcast_S_S800000x1 (constantI S_ 32 0#32)))
      (cmpi .sle col (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of a table at the index words, NaN where a word is out of range. -/
def takeRows (tbl : FVec Ideal S50000x64 .f32) (idx : S800000.Idx → BitVec 32) : FVec Ideal S800000x64 .f32 :=
  select (broadcastInDim S800000x64 ![0] bcast_S800000_S800000x64_0 (idxOk (idxCol idx)))
    (Host.gather gather_S50000x64_S800000x1_S800000x64_1_0_n_n_0_1_164 tbl (idxCol idx))
    (broadcastInDim S800000x64 ![] bcast_S_S800000x64 (constant (F := Ideal) S_ .f32 0x7FC00000#32))

variable (idx : S800000.Idx → BitVec 32)

/-- A word that is not negative passes the wrap. -/
theorem idxCol_apply (e : Fin 800000) (u : Fin 1) (h0 : 0 ≤ (idx (ix1 e)).toInt) : idxCol idx (ix2 e u) = idx (ix1 e) := by
  unfold idxCol
  rw [bcast_col_apply _ (by decide)]
  exact wrap_id _ h0

/-- Words that all name nodes all pass the range test. -/
theorem idxOk_one (h : ∀ e : Fin 800000, 0 ≤ (idx (ix1 e)).toInt ∧ (idx (ix1 e)).toInt < 50000) (j : S800000.Idx) :
    idxOk (idxCol idx) j = 1#1 := by
  unfold idxOk
  refine reduce_andi_one _ _ _ _ _ (fun i => ?_) (fun _ => rfl)
  obtain ⟨e, u, rfl⟩ : ∃ (e : Fin 800000) (u : Fin 1), i = ix2 e u := ⟨i 0, i 1, eq_ix2 i⟩
  have hc := idxCol_apply idx e u (h e).1
  show IntOp.andi (IntOp.cmpi .sge (idxCol idx (ix2 e u)) 0#32) (IntOp.cmpi .sle (idxCol idx (ix2 e u)) 49999#32) = 1#1
  rw [hc]; exact inRange_one _ (h e).1 (h e).2

/-- With index words that all name nodes, row e of the take is the table's row at word e. -/
theorem takeRows_apply (tbl : FVec Ideal S50000x64 .f32)
    (h : ∀ e : Fin 800000, 0 ≤ (idx (ix1 e)).toInt ∧ (idx (ix1 e)).toInt < 50000) (e : Fin 800000) (j : Fin 64) :
    takeRows tbl idx (ix2 e j) = tbl (ix2 (⟨(idx (ix1 e)).toInt.toNat, by have := h e; omega⟩ : Fin 50000) j) := by
  unfold takeRows
  rw [select_apply, bcast_rowsOf_apply _ (by decide), idxOk_one idx h, select_one]
  have hg : gather_S50000x64_S800000x1_S800000x64_1_0_n_n_0_1_164
      = Cert.LibRows.rowGather 50000 800000 64 gather_S50000x64_S800000x1_S800000x64_1_0_n_n_0_1_164_wf := rfl
  rw [hg]
  refine (Cert.LibRows.gather_rows_apply (by decide) _ tbl (idxCol idx) e j).trans ?_
  have hr : (⟨min (idxCol idx (ix2 e (0 : Fin 1))).toInt.toNat (50000 - 1), by omega⟩ : Fin 50000)
      = ⟨(idx (ix1 e)).toInt.toNat, by have := h e; omega⟩ :=
    Fin.ext (by
      show min (idxCol idx (ix2 e (0 : Fin 1))).toInt.toNat (50000 - 1) = (idx (ix1 e)).toInt.toNat
      rw [idxCol_apply idx e 0 (h e).1]; have := h e; omega)
  exact congrArg (fun r => tbl (ix2 r j)) hr

/-- The same with the words given as edge words that name nodes: the table's row at the edge's source node. -/
theorem takeRows_src (tbl : FVec Ideal S50000x64 .f32) (ei : Cert.Spec.Edges)
    (hw : ∀ e : Fin 800000, idx (ix1 e) = ei (ix2 (0 : Fin 2) e))
    (hr : ∀ i, 0 ≤ (ei i).toInt ∧ (ei i).toInt < 50000) (e : Fin 800000) (j : Fin 64) :
    takeRows tbl idx (ix2 e j) = tbl (ix2 (Cert.Spec.srcRow ei e) j) := by
  rw [takeRows_apply idx tbl (fun e' => by rw [hw e']; exact hr _) e j]
  refine congrArg (fun r => tbl (ix2 r j)) (Fin.ext ?_)
  show (idx (ix1 e)).toInt.toNat = min (ei (ix2 (0 : Fin 2) e)).toInt.toNat (50000 - 1)
  rw [hw e]
  have := hr (ix2 (0 : Fin 2) e)
  omega

end Take

section Scatter

/-- Three tables side by side. -/
theorem concat3_cols_apply {α : Type} {n k₁ k₂ k₃ k : Nat}
    (h : Shape.Concatenates [⟨2, ![n, k₁]⟩, ⟨2, ![n, k₂]⟩, ⟨2, ![n, k₃]⟩] ⟨2, ![n, k]⟩ 1) (hk : k = k₁ + k₂ + k₃)
    (x₁ : (⟨2, ![n, k₁]⟩ : Shape).Idx → α) (x₂ : (⟨2, ![n, k₂]⟩ : Shape).Idx → α) (x₃ : (⟨2, ![n, k₃]⟩ : Shape).Idx → α)
    (p : Fin n) (q : Fin k) :
    concatenate ⟨2, ![n, k]⟩ 1 [⟨⟨2, ![n, k₁]⟩, x₁⟩, ⟨⟨2, ![n, k₂]⟩, x₂⟩, ⟨⟨2, ![n, k₃]⟩, x₃⟩] h (ix2 p q)
      = if h1 : q.val < k₁ then x₁ (ix2 p ⟨q.val, h1⟩)
        else if h2 : q.val < k₁ + k₂ then x₂ (ix2 p ⟨q.val - k₁, by omega⟩)
        else x₃ (ix2 p ⟨q.val - (k₁ + k₂), by omega⟩) := by
  by_cases h1 : q.val < k₁
  · rw [dif_pos h1]
    exact concatenate_apply_piece (t := ⟨2, ![n, k]⟩) (1 : Fin 2) [⟨⟨2, ![n, k₁]⟩, x₁⟩, ⟨⟨2, ![n, k₂]⟩, x₂⟩, ⟨⟨2, ![n, k₃]⟩, x₃⟩] h (ix2 p q) 0
      (by show 0 < 3; omega) ⟨2, ![n, k₁]⟩ x₁ rfl rfl 0 rfl
      (ix2 p ⟨q.val, h1⟩) (fun b hb => match b, hb with | ⟨0, _⟩, _ => rfl | ⟨1, _⟩, hb => absurd rfl hb)
      (show 0 + q.val = q.val by omega)
  · rw [dif_neg h1]
    by_cases h2 : q.val < k₁ + k₂
    · rw [dif_pos h2]
      exact concatenate_apply_piece (t := ⟨2, ![n, k]⟩) (1 : Fin 2) [⟨⟨2, ![n, k₁]⟩, x₁⟩, ⟨⟨2, ![n, k₂]⟩, x₂⟩, ⟨⟨2, ![n, k₃]⟩, x₃⟩] h (ix2 p q) 1
        (by show 1 < 3; omega) ⟨2, ![n, k₂]⟩ x₂ rfl rfl k₁ (by rfl)
        (ix2 p ⟨q.val - k₁, by omega⟩) (fun b hb => match b, hb with | ⟨0, _⟩, _ => rfl | ⟨1, _⟩, hb => absurd rfl hb)
        (show k₁ + (q.val - k₁) = q.val by omega)
    · rw [dif_neg h2]
      exact concatenate_apply_piece (t := ⟨2, ![n, k]⟩) (1 : Fin 2) [⟨⟨2, ![n, k₁]⟩, x₁⟩, ⟨⟨2, ![n, k₂]⟩, x₂⟩, ⟨⟨2, ![n, k₃]⟩, x₃⟩] h (ix2 p q) 2
        (by show 2 < 3; omega) ⟨2, ![n, k₃]⟩ x₃ rfl rfl (k₁ + k₂) (by rfl)
        (ix2 p ⟨q.val - (k₁ + k₂), by omega⟩) (fun b hb => match b, hb with | ⟨0, _⟩, _ => rfl | ⟨1, _⟩, hb => absurd rfl hb)
        (show k₁ + k₂ + (q.val - (k₁ + k₂)) = q.val by omega)

/-- Per node, the sum over the edges whose target word is the node of the 129-column row [rows | ea | 1]. -/
def aggAll (tgt : S800000.Idx → BitVec 32) (rows ea : FVec Ideal S800000x64 .f32) : FVec Ideal S50000x129 .f32 :=
  Host.scatterAdd (F := Ideal) scatter_S50000x129_S800000x1_S800000x129_1_0_0_1
    (broadcastInDim S50000x129 ![] bcast_S_S50000x129 (constant (F := Ideal) S_ .f32 0x00000000#32))
    (broadcastInDim S800000x1 ![0] bcast_S800000_S800000x1_0 tgt)
    (concatenate S800000x129 1 [⟨S800000x64, rows⟩, ⟨S800000x64, ea⟩,
      ⟨S800000x1, broadcastInDim S800000x1 ![] bcast_S_S800000x1 (constant (F := Ideal) S_ .f32 0x3F800000#32)⟩]
      concatenates_S800000x64_S800000x64_S800000x1_S800000x129_d1)

theorem aggAll_apply (tgt : S800000.Idx → BitVec 32) (rows ea : FVec Ideal S800000x64 .f32) (n : Fin 50000) (a : Fin 129) :
    aggAll tgt rows ea (ix2 n a)
      = ∑ e ∈ Finset.univ.filter (fun e : Fin 800000 => (tgt (ix1 e)).toInt = (n.val : ℤ)),
          (if h1 : a.val < 64 then rows (ix2 e ⟨a.val, h1⟩)
           else if h2 : a.val < 64 + 64 then ea (ix2 e ⟨a.val - 64, by omega⟩) else (1 : EReal)) := by
  unfold aggAll
  have hs : scatter_S50000x129_S800000x1_S800000x129_1_0_0_1
      = Cert.LibRows.rowScatter 50000 800000 129 scatter_S50000x129_S800000x1_S800000x129_1_0_0_1_wf := rfl
  have hidx : ∀ e : Fin 800000,
      broadcastInDim S800000x1 ![0] bcast_S800000_S800000x1_0 tgt (ix2 e (0 : Fin 1)) = tgt (ix1 e) :=
    fun e => bcast_col_apply _ (by decide) tgt e 0
  rw [hs, Cert.LibRows.host_scatterAdd_rows_apply, broadcastInDim_scalar_apply, constant_apply, Ideal.ofBits_zero_f32, zero_add]
  simp only [hidx]
  refine Finset.sum_congr rfl fun e _ => ?_
  rw [concat3_cols_apply concatenates_S800000x64_S800000x64_S800000x1_S800000x129_d1 rfl]
  by_cases h1 : a.val < 64
  · rw [dif_pos h1, dif_pos h1]
  · rw [dif_neg h1, dif_neg h1]
    by_cases h2 : a.val < 64 + 64
    · rw [dif_pos h2, dif_pos h2]
    · rw [dif_neg h2, dif_neg h2, broadcastInDim_scalar_apply, constant_apply, Ideal.ofBits_one_f32]

/-- Per node, the sum over the edges whose target word is the node of a 64-column row. -/
def aggRows (tgt : S800000.Idx → BitVec 32) (rows : FVec Ideal S800000x64 .f32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 tgt) rows

theorem aggRows_apply (tgt : S800000.Idx → BitVec 32) (rows : FVec Ideal S800000x64 .f32) (n : Fin 50000) (j : Fin 64) :
    aggRows tgt rows (ix2 n j)
      = ∑ e ∈ Finset.univ.filter (fun e : Fin 800000 => (tgt (ix1 e)).toInt = (n.val : ℤ)), rows (ix2 e j) := by
  unfold aggRows
  have hs : scatter_S50000x64_S800000x1_S800000x64_1_0_0_1
      = Cert.LibRows.rowScatter 50000 800000 64 scatter_S50000x64_S800000x1_S800000x64_1_0_0_1_wf := rfl
  have hidx : ∀ e : Fin 800000,
      broadcastInDim S800000x1 ![0] bcast_S800000_S800000x1_0 tgt (ix2 e (0 : Fin 1)) = tgt (ix1 e) :=
    fun e => bcast_col_apply _ (by decide) tgt e 0
  rw [hs, Cert.LibRows.host_scatterAdd_rows_apply, broadcastInDim_scalar_apply, constant_apply, Ideal.ofBits_zero_f32, zero_add]
  simp only [hidx]

end Scatter

/-! ## A stretch cut in two -/

section Cut

theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- Running a stretch is running its first n operations and then the rest. -/
theorem after_split (n : Nat) (l : List (HloOp τ sig (Elt Ideal))) (V : Valuation τ sig (Elt Ideal)) :
    StableHlo.after l V = StableHlo.after (l.drop n) (StableHlo.after (l.take n) V) := by
  rw [← after_append, List.take_append_drop]

end Cut

/-! ## What each stretch of host operations writes, from any contents W before it -/

section Steps
variable (W : Valuation τ sig (Elt Ideal))

local notation "↑ᵣ" r => Proc.devRef (τ := τ) (sig := sig) Proc.tc r

/-- Row 0 of the edge words, as a vector. -/
theorem step0_v1 : (StableHlo.after hostOps0 W (Proc.devRef .tc main_v1) : S800000.Idx → BitVec 32)
    = shapeCast S800000 (extractStridedSlice S1x800000 ![0, 0] (W (Proc.devRef .tc main_arg1) : S2x800000.Idx → BitVec 32)
        slices_S2x800000_S1x800000_0_0) shapeCasts_S1x800000_S800000 := by
  after_results <;> rfl

theorem step0_c : (StableHlo.after hostOps0 W (Proc.devRef .tc main_c) : S_.Idx → BitVec 32) = constantI S_ 32 0#32 := by
  after_results <;> rfl

theorem step0_c_0 : (StableHlo.after hostOps0 W (Proc.devRef .tc main_c_0) : S_.Idx → BitVec 32) = constantI S_ 32 49999#32 := by
  after_results <;> rfl

/-- The clamp of the source words. -/
theorem step1_v2 : (StableHlo.after hostOps0_1 W (Proc.devRef .tc main_v2) : S800000.Idx → BitVec 32)
    = minsi (broadcastInDim S800000 ![] bcast_S_S800000 (W (Proc.devRef .tc main_c_0) : S_.Idx → BitVec 32))
        (maxsi (broadcastInDim S800000 ![] bcast_S_S800000 (W (Proc.devRef .tc main_c) : S_.Idx → BitVec 32))
          (W (Proc.devRef .tc main_v1) : S800000.Idx → BitVec 32)) := by
  after_results <;> rfl

/-- Row 1 of the edge words, as a vector. -/
theorem step2_v4 : (StableHlo.after hostOps0_2 W (Proc.devRef .tc main_v4) : S800000.Idx → BitVec 32)
    = shapeCast S800000 (extractStridedSlice S1x800000 ![1, 0] (W (Proc.devRef .tc main_arg1) : S2x800000.Idx → BitVec 32)
        slices_S2x800000_S1x800000_1_0) shapeCasts_S1x800000_S800000 := by
  after_results <;> rfl

theorem step2_c_1 : (StableHlo.after hostOps0_2 W (Proc.devRef .tc main_c_1) : S_.Idx → BitVec 32) = constantI S_ 32 0#32 := by
  after_results <;> rfl

theorem step2_c_2 : (StableHlo.after hostOps0_2 W (Proc.devRef .tc main_c_2) : S_.Idx → BitVec 32) = constantI S_ 32 49999#32 := by
  after_results <;> rfl

/-- The clamp of the target words. -/
theorem step3_v5 : (StableHlo.after hostOps0_3 W (Proc.devRef .tc main_v5) : S800000.Idx → BitVec 32)
    = minsi (broadcastInDim S800000 ![] bcast_S_S800000 (W (Proc.devRef .tc main_c_2) : S_.Idx → BitVec 32))
        (maxsi (broadcastInDim S800000 ![] bcast_S_S800000 (W (Proc.devRef .tc main_c_1) : S_.Idx → BitVec 32))
          (W (Proc.devRef .tc main_v4) : S800000.Idx → BitVec 32)) := by
  after_results <;> rfl

end Steps

/-! ## The later stretches, from any contents W before them -/

section Steps2
variable (W : Valuation τ sig (Elt Ideal))

/-- A three-operand operation's result, each operand's contents at its own reference. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The fold of a stretch at one reference, a three-operand operation included. -/
local macro "host_results" : tactic =>
  `(tactic| (simp only [StableHlo.after_cons, StableHlo.after_nil]
             repeat (first
               | rw [StableHlo.nullary_result] | rw [StableHlo.unary_result] | rw [StableHlo.binary_result]
               | rw [StableHlo.ternary_result] | rw [StableHlo.reshape_result] | rw [nary3_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

/-- The take cut in three: the wrapped index column, the range test, the selected rows. -/
theorem step4A : (StableHlo.after ((hostOps0_4.take 18).take 8) W (Proc.devRef .tc main_call2_v5) : S800000x1.Idx → BitVec 32)
    = idxCol (W (Proc.devRef .tc main_v2)) := by
  simp only [hostOps0_4, List.take_succ_cons, List.take_zero]
  host_results <;> (try simp only [StableHlo.TRef.ofBuf, StableHlo.TRef.toBuf, cast_eq]) <;> rfl

theorem step4A_tbl : StableHlo.after ((hostOps0_4.take 18).take 8) W (Proc.devRef .tc main_arg0) = W (Proc.devRef .tc main_arg0) := by
  simp only [hostOps0_4, List.take_succ_cons, List.take_zero]
  host_results <;> rfl

theorem step4B : (StableHlo.after ((hostOps0_4.take 18).drop 8) W (Proc.devRef .tc main_call2_v12) : S800000.Idx → BitVec 1)
    = idxOk (W (Proc.devRef .tc main_call2_v5)) := by
  simp only [hostOps0_4, List.take_succ_cons, List.take_zero, List.drop_succ_cons, List.drop_zero]
  host_results <;> (try simp only [StableHlo.TRef.ofBuf, StableHlo.TRef.toBuf, cast_eq]) <;> rfl

theorem step4B_v5 : StableHlo.after ((hostOps0_4.take 18).drop 8) W (Proc.devRef .tc main_call2_v5) = W (Proc.devRef .tc main_call2_v5) := by
  simp only [hostOps0_4, List.take_succ_cons, List.take_zero, List.drop_succ_cons, List.drop_zero]
  host_results <;> rfl

theorem step4B_tbl : StableHlo.after ((hostOps0_4.take 18).drop 8) W (Proc.devRef .tc main_arg0) = W (Proc.devRef .tc main_arg0) := by
  simp only [hostOps0_4, List.take_succ_cons, List.take_zero, List.drop_succ_cons, List.drop_zero]
  host_results <;> rfl

theorem step4C : (StableHlo.after (hostOps0_4.drop 18) W (Proc.devRef .tc main_v6) : FVec Ideal S800000x64 .f32)
    = select (broadcastInDim S800000x64 ![0] bcast_S800000_S800000x64_0 (W (Proc.devRef .tc main_call2_v12) : S800000.Idx → BitVec 1))
        (Host.gather gather_S50000x64_S800000x1_S800000x64_1_0_n_n_0_1_164 (W (Proc.devRef .tc main_arg0) : FVec Ideal S50000x64 .f32)
          (W (Proc.devRef .tc main_call2_v5) : S800000x1.Idx → BitVec 32))
        (broadcastInDim S800000x64 ![] bcast_S_S800000x64 (constant (F := Ideal) S_ .f32 0x7FC00000#32)) := by
  simp only [hostOps0_4, List.drop_succ_cons, List.drop_zero]
  host_results <;> (try simp only [StableHlo.TRef.ofBuf, StableHlo.TRef.toBuf, cast_eq]) <;> rfl

/-- The first take: rows of the node features at the source words. -/
theorem step4_v6 : (StableHlo.after hostOps0_4 W (Proc.devRef .tc main_v6) : FVec Ideal S800000x64 .f32)
    = takeRows (W (Proc.devRef .tc main_arg0)) (W (Proc.devRef .tc main_v2)) := by
  rw [after_split 18 hostOps0_4 W, step4C, after_split 8 (hostOps0_4.take 18) W, step4B, step4B_v5, step4B_tbl, step4A, step4A_tbl]
  rfl

/-- The 129-column table summed into the nodes. -/
theorem step5_v11 : (StableHlo.after hostOps0_5 W (Proc.devRef .tc main_v11) : FVec Ideal S50000x129 .f32)
    = aggAll (W (Proc.devRef .tc main_v5)) (W (Proc.devRef .tc main_v6)) (W (Proc.devRef .tc main_arg2)) := by
  host_results <;> rfl

/-- The three cuts of the summed table: columns 0–127, 64–127 and 128. -/
theorem step5_v12 : (StableHlo.after hostOps0_5 W (Proc.devRef .tc main_v12) : FVec Ideal S50000x128 .f32)
    = extractStridedSlice S50000x128 ![0, 0]
        (aggAll (W (Proc.devRef .tc main_v5)) (W (Proc.devRef .tc main_v6)) (W (Proc.devRef .tc main_arg2)))
        slices_S50000x129_S50000x128_0_0 := by
  host_results <;> rfl

theorem step5_v13 : (StableHlo.after hostOps0_5 W (Proc.devRef .tc main_v13) : FVec Ideal S50000x64 .f32)
    = extractStridedSlice S50000x64 ![0, 64]
        (aggAll (W (Proc.devRef .tc main_v5)) (W (Proc.devRef .tc main_v6)) (W (Proc.devRef .tc main_arg2)))
        slices_S50000x129_S50000x64_0_64 := by
  host_results <;> rfl

theorem step5_v14 : (StableHlo.after hostOps0_5 W (Proc.devRef .tc main_v14) : FVec Ideal S50000x1 .f32)
    = extractStridedSlice S50000x1 ![0, 128]
        (aggAll (W (Proc.devRef .tc main_v5)) (W (Proc.devRef .tc main_v6)) (W (Proc.devRef .tc main_arg2)))
        slices_S50000x129_S50000x1_0_128 := by
  host_results <;> rfl

/-- The weights and biases as the first launch takes them. -/
theorem step5_v17 : (StableHlo.after hostOps0_5 W (Proc.devRef .tc main_v17) : FVec Ideal S128x256 .f32)
    = concatenate S128x256 0
        [⟨S64x256, transpose S64x256 [1, 0] (W (Proc.devRef .tc main_arg3) : FVec Ideal S256x64 .f32) transposes_S256x64_S64x256_1_0⟩,
         ⟨S64x256, transpose S64x256 [1, 0] (W (Proc.devRef .tc main_arg5) : FVec Ideal S256x64 .f32) transposes_S256x64_S64x256_1_0⟩]
        concatenates_S64x256_S64x256_S128x256_d0 := by
  host_results <;> rfl

theorem step5_v19 : (StableHlo.after hostOps0_5 W (Proc.devRef .tc main_v19) : FVec Ideal S1x256 .f32)
    = shapeCast S1x256 (addf (F := Ideal) (s := S256) (φ := .f32) (W (Proc.devRef .tc main_arg4)) (W (Proc.devRef .tc main_arg6)))
        shapeCasts_S256_S1x256 := by
  host_results <;> rfl

theorem step5_v20 : (StableHlo.after hostOps0_5 W (Proc.devRef .tc main_v20) : FVec Ideal S1x256 .f32)
    = shapeCast S1x256 (W (Proc.devRef .tc main_arg8) : FVec Ideal S256 .f32) shapeCasts_S256_S1x256 := by
  host_results <;> rfl

theorem step5_v21 : (StableHlo.after hostOps0_5 W (Proc.devRef .tc main_v21) : FVec Ideal S64x256 .f32)
    = transpose S64x256 [1, 0] (W (Proc.devRef .tc main_arg7) : FVec Ideal S256x64 .f32) transposes_S256x64_S64x256_1_0 := by
  host_results <;> rfl

theorem step5_v22 : (StableHlo.after hostOps0_5 W (Proc.devRef .tc main_v22) : FVec Ideal S256x64 .f32)
    = transpose S256x64 [1, 0] (W (Proc.devRef .tc main_arg9) : FVec Ideal S64x256 .f32) transposes_S64x256_S256x64_1_0 := by
  host_results <;> rfl

theorem step5_v23 : (StableHlo.after hostOps0_5 W (Proc.devRef .tc main_v23) : FVec Ideal S1x64 .f32)
    = shapeCast S1x64 (W (Proc.devRef .tc main_arg10) : FVec Ideal S64 .f32) shapeCasts_S64_S1x64 := by
  host_results <;> rfl

theorem step5_v24 : (StableHlo.after hostOps0_5 W (Proc.devRef .tc main_v24) : FVec Ideal S256x64 .f32)
    = transpose S256x64 [1, 0] (W (Proc.devRef .tc main_arg13) : FVec Ideal S64x256 .f32) transposes_S64x256_S256x64_1_0 := by
  host_results <;> rfl

theorem step5_v25 : (StableHlo.after hostOps0_5 W (Proc.devRef .tc main_v25) : FVec Ideal S1x64 .f32)
    = shapeCast S1x64 (W (Proc.devRef .tc main_arg14) : FVec Ideal S64 .f32) shapeCasts_S64_S1x64 := by
  host_results <;> rfl

/-- The two halves of the first launch's result. -/
theorem step7_v27 : (StableHlo.after hostOps1 W (Proc.devRef .tc main_v27) : FVec Ideal S50000x64 .f32)
    = extractStridedSlice S50000x64 ![0, 0] (W (Proc.devRef .tc main_v26) : FVec Ideal S50000x128 .f32)
        slices_S50000x128_S50000x64_0_0 := by
  host_results <;> rfl

theorem step7_v28 : (StableHlo.after hostOps1 W (Proc.devRef .tc main_v28) : FVec Ideal S50000x64 .f32)
    = extractStridedSlice S50000x64 ![0, 64] (W (Proc.devRef .tc main_v26) : FVec Ideal S50000x128 .f32)
        slices_S50000x128_S50000x64_0_64 := by
  host_results <;> rfl

/-- The take cut in three: the wrapped index column, the range test, the selected rows. -/
theorem step8A : (StableHlo.after ((hostOps1_1.take 18).take 8) W (Proc.devRef .tc main_call3_v5) : S800000x1.Idx → BitVec 32)
    = idxCol (W (Proc.devRef .tc main_v2)) := by
  simp only [hostOps1_1, List.take_succ_cons, List.take_zero]
  host_results <;> (try simp only [StableHlo.TRef.ofBuf, StableHlo.TRef.toBuf, cast_eq]) <;> rfl

theorem step8A_tbl : StableHlo.after ((hostOps1_1.take 18).take 8) W (Proc.devRef .tc main_v27) = W (Proc.devRef .tc main_v27) := by
  simp only [hostOps1_1, List.take_succ_cons, List.take_zero]
  host_results <;> rfl

theorem step8B : (StableHlo.after ((hostOps1_1.take 18).drop 8) W (Proc.devRef .tc main_call3_v12) : S800000.Idx → BitVec 1)
    = idxOk (W (Proc.devRef .tc main_call3_v5)) := by
  simp only [hostOps1_1, List.take_succ_cons, List.take_zero, List.drop_succ_cons, List.drop_zero]
  host_results <;> (try simp only [StableHlo.TRef.ofBuf, StableHlo.TRef.toBuf, cast_eq]) <;> rfl

theorem step8B_v5 : StableHlo.after ((hostOps1_1.take 18).drop 8) W (Proc.devRef .tc main_call3_v5) = W (Proc.devRef .tc main_call3_v5) := by
  simp only [hostOps1_1, List.take_succ_cons, List.take_zero, List.drop_succ_cons, List.drop_zero]
  host_results <;> rfl

theorem step8B_tbl : StableHlo.after ((hostOps1_1.take 18).drop 8) W (Proc.devRef .tc main_v27) = W (Proc.devRef .tc main_v27) := by
  simp only [hostOps1_1, List.take_succ_cons, List.take_zero, List.drop_succ_cons, List.drop_zero]
  host_results <;> rfl

theorem step8C : (StableHlo.after (hostOps1_1.drop 18) W (Proc.devRef .tc main_v29) : FVec Ideal S800000x64 .f32)
    = select (broadcastInDim S800000x64 ![0] bcast_S800000_S800000x64_0 (W (Proc.devRef .tc main_call3_v12) : S800000.Idx → BitVec 1))
        (Host.gather gather_S50000x64_S800000x1_S800000x64_1_0_n_n_0_1_164 (W (Proc.devRef .tc main_v27) : FVec Ideal S50000x64 .f32)
          (W (Proc.devRef .tc main_call3_v5) : S800000x1.Idx → BitVec 32))
        (broadcastInDim S800000x64 ![] bcast_S_S800000x64 (constant (F := Ideal) S_ .f32 0x7FC00000#32)) := by
  simp only [hostOps1_1, List.drop_succ_cons, List.drop_zero]
  host_results <;> (try simp only [StableHlo.TRef.ofBuf, StableHlo.TRef.toBuf, cast_eq]) <;> rfl

/-- The second take: rows of the first half at the source words. -/
theorem step8_v29 : (StableHlo.after hostOps1_1 W (Proc.devRef .tc main_v29) : FVec Ideal S800000x64 .f32)
    = takeRows (W (Proc.devRef .tc main_v27)) (W (Proc.devRef .tc main_v2)) := by
  rw [after_split 18 hostOps1_1 W, step8C, after_split 8 (hostOps1_1.take 18) W, step8B, step8B_v5, step8B_tbl, step8A, step8A_tbl]
  rfl

/-- The second launch's operands. -/
theorem step9_v33 : (StableHlo.after hostOps1_2 W (Proc.devRef .tc main_v33) : FVec Ideal S50000x128 .f32)
    = concatenate S50000x128 1
        [⟨S50000x64, aggRows (W (Proc.devRef .tc main_v5)) (W (Proc.devRef .tc main_v29))⟩,
         ⟨S50000x64, (W (Proc.devRef .tc main_v13) : FVec Ideal S50000x64 .f32)⟩]
        concatenates_S50000x64_S50000x64_S50000x128_d1 := by
  host_results <;> rfl

theorem step9_v34 : (StableHlo.after hostOps1_2 W (Proc.devRef .tc main_v34) : FVec Ideal S64x64 .f32)
    = transpose S64x64 [1, 0] (W (Proc.devRef .tc main_arg11) : FVec Ideal S64x64 .f32) transposes_S64x64_S64x64_1_0 := by
  host_results <;> rfl

theorem step9_v35 : (StableHlo.after hostOps1_2 W (Proc.devRef .tc main_v35) : FVec Ideal S1x64 .f32)
    = shapeCast S1x64 (W (Proc.devRef .tc main_arg12) : FVec Ideal S64 .f32) shapeCasts_S64_S1x64 := by
  host_results <;> rfl

end Steps2

/-! ## The buffers of one memory -/

section Memory
variable (outs : Outs (F := Ideal))

/-! Arguments reach every stretch as launched; a written buffer keeps its contents until it is written again. -/

theorem V2_arg1 : V2 m c main_arg1 = m ((c.tc : Thread nD τ).loc main_arg1) :=
  (V2_of m c main_arg1 (by decide)).trans <| (V1_of m c main_arg1 (by decide)).trans rfl

theorem V4_arg0 : V4 m c main_arg0 = m ((c.tc : Thread nD τ).loc main_arg0) :=
  (V4_of m c main_arg0 (by decide)).trans <| (V3_of m c main_arg0 (by decide)).trans <| (V2_of m c main_arg0 (by decide)).trans <| (V1_of m c main_arg0 (by decide)).trans rfl

theorem V5_arg2 : V5 m c main_arg2 = m ((c.tc : Thread nD τ).loc main_arg2) :=
  (V5_of m c main_arg2 (by decide)).trans <| (V4_of m c main_arg2 (by decide)).trans <| (V3_of m c main_arg2 (by decide)).trans <| (V2_of m c main_arg2 (by decide)).trans <| (V1_of m c main_arg2 (by decide)).trans rfl

theorem V5_arg3 : V5 m c main_arg3 = m ((c.tc : Thread nD τ).loc main_arg3) :=
  (V5_of m c main_arg3 (by decide)).trans <| (V4_of m c main_arg3 (by decide)).trans <| (V3_of m c main_arg3 (by decide)).trans <| (V2_of m c main_arg3 (by decide)).trans <| (V1_of m c main_arg3 (by decide)).trans rfl

theorem V5_arg4 : V5 m c main_arg4 = m ((c.tc : Thread nD τ).loc main_arg4) :=
  (V5_of m c main_arg4 (by decide)).trans <| (V4_of m c main_arg4 (by decide)).trans <| (V3_of m c main_arg4 (by decide)).trans <| (V2_of m c main_arg4 (by decide)).trans <| (V1_of m c main_arg4 (by decide)).trans rfl

theorem V5_arg5 : V5 m c main_arg5 = m ((c.tc : Thread nD τ).loc main_arg5) :=
  (V5_of m c main_arg5 (by decide)).trans <| (V4_of m c main_arg5 (by decide)).trans <| (V3_of m c main_arg5 (by decide)).trans <| (V2_of m c main_arg5 (by decide)).trans <| (V1_of m c main_arg5 (by decide)).trans rfl

theorem V5_arg6 : V5 m c main_arg6 = m ((c.tc : Thread nD τ).loc main_arg6) :=
  (V5_of m c main_arg6 (by decide)).trans <| (V4_of m c main_arg6 (by decide)).trans <| (V3_of m c main_arg6 (by decide)).trans <| (V2_of m c main_arg6 (by decide)).trans <| (V1_of m c main_arg6 (by decide)).trans rfl

theorem V5_arg7 : V5 m c main_arg7 = m ((c.tc : Thread nD τ).loc main_arg7) :=
  (V5_of m c main_arg7 (by decide)).trans <| (V4_of m c main_arg7 (by decide)).trans <| (V3_of m c main_arg7 (by decide)).trans <| (V2_of m c main_arg7 (by decide)).trans <| (V1_of m c main_arg7 (by decide)).trans rfl

theorem V5_arg8 : V5 m c main_arg8 = m ((c.tc : Thread nD τ).loc main_arg8) :=
  (V5_of m c main_arg8 (by decide)).trans <| (V4_of m c main_arg8 (by decide)).trans <| (V3_of m c main_arg8 (by decide)).trans <| (V2_of m c main_arg8 (by decide)).trans <| (V1_of m c main_arg8 (by decide)).trans rfl

theorem V5_arg9 : V5 m c main_arg9 = m ((c.tc : Thread nD τ).loc main_arg9) :=
  (V5_of m c main_arg9 (by decide)).trans <| (V4_of m c main_arg9 (by decide)).trans <| (V3_of m c main_arg9 (by decide)).trans <| (V2_of m c main_arg9 (by decide)).trans <| (V1_of m c main_arg9 (by decide)).trans rfl

theorem V5_arg10 : V5 m c main_arg10 = m ((c.tc : Thread nD τ).loc main_arg10) :=
  (V5_of m c main_arg10 (by decide)).trans <| (V4_of m c main_arg10 (by decide)).trans <| (V3_of m c main_arg10 (by decide)).trans <| (V2_of m c main_arg10 (by decide)).trans <| (V1_of m c main_arg10 (by decide)).trans rfl

theorem V5_arg13 : V5 m c main_arg13 = m ((c.tc : Thread nD τ).loc main_arg13) :=
  (V5_of m c main_arg13 (by decide)).trans <| (V4_of m c main_arg13 (by decide)).trans <| (V3_of m c main_arg13 (by decide)).trans <| (V2_of m c main_arg13 (by decide)).trans <| (V1_of m c main_arg13 (by decide)).trans rfl

theorem V5_arg14 : V5 m c main_arg14 = m ((c.tc : Thread nD τ).loc main_arg14) :=
  (V5_of m c main_arg14 (by decide)).trans <| (V4_of m c main_arg14 (by decide)).trans <| (V3_of m c main_arg14 (by decide)).trans <| (V2_of m c main_arg14 (by decide)).trans <| (V1_of m c main_arg14 (by decide)).trans rfl

theorem V9_arg11 : V9 m outs c main_arg11 = m ((c.tc : Thread nD τ).loc main_arg11) :=
  (V9_of m outs c main_arg11 (by decide)).trans <| (V8_of m outs c main_arg11 (by decide)).trans <| (V7_of m outs c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans rfl

theorem V9_arg12 : V9 m outs c main_arg12 = m ((c.tc : Thread nD τ).loc main_arg12) :=
  (V9_of m outs c main_arg12 (by decide)).trans <| (V8_of m outs c main_arg12 (by decide)).trans <| (V7_of m outs c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans rfl

theorem V4_v2 : V4 m c main_v2 = V2 m c main_v2 :=
  (V4_of m c main_v2 (by decide)).trans (V3_of m c main_v2 (by decide))

theorem V8_v2 : V8 m outs c main_v2 = V2 m c main_v2 :=
  (V8_of m outs c main_v2 (by decide)).trans <| (V7_of m outs c main_v2 (by decide)).trans <| (V6_of m c main_v2 (by decide)).trans <| (V5_of m c main_v2 (by decide)).trans <| (V4_of m c main_v2 (by decide)).trans (V3_of m c main_v2 (by decide))

theorem V5_v5 : V5 m c main_v5 = V4 m c main_v5 :=
  V5_of m c main_v5 (by decide)

theorem V9_v5 : V9 m outs c main_v5 = V4 m c main_v5 :=
  (V9_of m outs c main_v5 (by decide)).trans <| (V8_of m outs c main_v5 (by decide)).trans <| (V7_of m outs c main_v5 (by decide)).trans <| (V6_of m c main_v5 (by decide)).trans (V5_of m c main_v5 (by decide))

theorem V9_v13 : V9 m outs c main_v13 = V6 m c main_v13 :=
  (V9_of m outs c main_v13 (by decide)).trans <| (V8_of m outs c main_v13 (by decide)).trans (V7_of m outs c main_v13 (by decide))

theorem V10_v14 : V10 m outs c main_v14 = V6 m c main_v14 :=
  (V10_of m outs c main_v14 (by decide)).trans <| (V9_of m outs c main_v14 (by decide)).trans <| (V8_of m outs c main_v14 (by decide)).trans (V7_of m outs c main_v14 (by decide))

theorem V10_v28 : V10 m outs c main_v28 = V8 m outs c main_v28 :=
  (V10_of m outs c main_v28 (by decide)).trans (V9_of m outs c main_v28 (by decide))

theorem V7_v26 : V7 m outs c main_v26 = outs 7 main_v26 c := Function.update_self _ _ _

/-! ## Buffers no host operation writes, and the weights -/

/-- The node features reach the first launch as launched. -/
theorem V6_x : (V6 m c main_arg0 : S50000x64.Idx → EReal) = (inputsOf m c).x :=
  (V6_of m c main_arg0 (by decide)).trans <| (V5_of m c main_arg0 (by decide)).trans (V4_arg0 m c)

/-- [W1mᵀ ; W1eᵀ]: rows 0–63 from W1m, rows 64–127 from W1e. -/
theorem V6_wcat : (V6 m c main_v17 : S128x256.Idx → EReal) = Cert.Spec.wcat (inputsOf m c) := by
  funext i
  obtain ⟨a, k, rfl⟩ : ∃ (a : Fin 128) (k : Fin 256), i = ix2 a k := ⟨i 0, i 1, eq_ix2 i⟩
  rw [show (V6 m c main_v17 : S128x256.Idx → EReal) = _ from step5_v17 (V5 m c),
    concat2_rows_apply concatenates_S64x256_S64x256_S128x256_d0 rfl]
  show _ = Cert.Spec.mk2 _ (ix2 a k)
  rw [Cert.Spec.mk2_apply]
  by_cases h : a.val < 64
  · rw [dif_pos h, dif_pos h, transpose_ix2_apply, V5_arg3]; rfl
  · rw [dif_neg h, dif_neg h, transpose_ix2_apply, V5_arg5]; rfl

/-- W1sᵀ. -/
theorem V6_wsT : (V6 m c main_v21 : S64x256.Idx → EReal) = Cert.Spec.wsT (inputsOf m c) := by
  funext i
  obtain ⟨p, q, rfl⟩ : ∃ (p : Fin 64) (q : Fin 256), i = ix2 p q := ⟨i 0, i 1, eq_ix2 i⟩
  rw [show (V6 m c main_v21 : S64x256.Idx → EReal) = _ from step5_v21 (V5 m c), transpose_ix2_apply, V5_arg7]; rfl

/-- b1m + b1e as a row. -/
theorem V6_bsum : (V6 m c main_v19 : S1x256.Idx → EReal) = Cert.Spec.bsum (inputsOf m c) := by
  funext i
  obtain ⟨u, k, rfl⟩ : ∃ (u : Fin 1) (k : Fin 256), i = ix2 u k := ⟨i 0, i 1, eq_ix2 i⟩
  rw [show (V6 m c main_v19 : S1x256.Idx → EReal) = _ from step5_v19 (V5 m c), shapeCast_a_1a_apply, addf_apply,
    V5_arg4, V5_arg6]; rfl

/-- b1s as a row. -/
theorem V6_bs1 : (V6 m c main_v20 : S1x256.Idx → EReal) = Cert.Spec.bs1 (inputsOf m c) := by
  funext i
  obtain ⟨u, k, rfl⟩ : ∃ (u : Fin 1) (k : Fin 256), i = ix2 u k := ⟨i 0, i 1, eq_ix2 i⟩
  rw [show (V6 m c main_v20 : S1x256.Idx → EReal) = _ from step5_v20 (V5 m c), shapeCast_a_1a_apply, V5_arg8]; rfl

/-- W2mᵀ. -/
theorem V6_w2mT : (V6 m c main_v22 : S256x64.Idx → EReal) = Cert.Spec.w2mT (inputsOf m c) := by
  funext i
  obtain ⟨p, q, rfl⟩ : ∃ (p : Fin 256) (q : Fin 64), i = ix2 p q := ⟨i 0, i 1, eq_ix2 i⟩
  rw [show (V6 m c main_v22 : S256x64.Idx → EReal) = _ from step5_v22 (V5 m c), transpose_ix2_apply, V5_arg9]; rfl

/-- b2m as a row. -/
theorem V6_b2mR : (V6 m c main_v23 : S1x64.Idx → EReal) = Cert.Spec.b2mR (inputsOf m c) := by
  funext i
  obtain ⟨u, k, rfl⟩ : ∃ (u : Fin 1) (k : Fin 64), i = ix2 u k := ⟨i 0, i 1, eq_ix2 i⟩
  rw [show (V6 m c main_v23 : S1x64.Idx → EReal) = _ from step5_v23 (V5 m c), shapeCast_a_1a_apply, V5_arg10]; rfl

/-- W2sᵀ. -/
theorem V6_w2sT : (V6 m c main_v24 : S256x64.Idx → EReal) = Cert.Spec.w2sT (inputsOf m c) := by
  funext i
  obtain ⟨p, q, rfl⟩ : ∃ (p : Fin 256) (q : Fin 64), i = ix2 p q := ⟨i 0, i 1, eq_ix2 i⟩
  rw [show (V6 m c main_v24 : S256x64.Idx → EReal) = _ from step5_v24 (V5 m c), transpose_ix2_apply, V5_arg13]; rfl

/-- b2s as a row. -/
theorem V6_b2sR : (V6 m c main_v25 : S1x64.Idx → EReal) = Cert.Spec.b2sR (inputsOf m c) := by
  funext i
  obtain ⟨u, k, rfl⟩ : ∃ (u : Fin 1) (k : Fin 64), i = ix2 u k := ⟨i 0, i 1, eq_ix2 i⟩
  rw [show (V6 m c main_v25 : S1x64.Idx → EReal) = _ from step5_v25 (V5 m c), shapeCast_a_1a_apply, V5_arg14]; rfl

/-- W2eᵀ. -/
theorem V10_weT : (V10 m outs c main_v34 : S64x64.Idx → EReal) = Cert.Spec.weT (inputsOf m c) := by
  funext i
  obtain ⟨p, q, rfl⟩ : ∃ (p : Fin 64) (q : Fin 64), i = ix2 p q := ⟨i 0, i 1, eq_ix2 i⟩
  rw [show (V10 m outs c main_v34 : S64x64.Idx → EReal) = _ from step9_v34 (V9 m outs c), transpose_ix2_apply, V9_arg11]; rfl

/-- b2e as a row. -/
theorem V10_beR : (V10 m outs c main_v35 : S1x64.Idx → EReal) = Cert.Spec.beR (inputsOf m c) := by
  funext i
  obtain ⟨u, k, rfl⟩ : ∃ (u : Fin 1) (k : Fin 64), i = ix2 u k := ⟨i 0, i 1, eq_ix2 i⟩
  rw [show (V10 m outs c main_v35 : S1x64.Idx → EReal) = _ from step9_v35 (V9 m outs c), shapeCast_a_1a_apply, V9_arg12]; rfl

/-! Elementwise operations on words read at an index. -/

theorem minsi_at {s : Shape} {w : Nat} (x y : IVec s w) (i : s.Idx) : minsi x y i = IntOp.minsi (x i) (y i) := rfl
theorem maxsi_at {s : Shape} {w : Nat} (x y : IVec s w) (i : s.Idx) : maxsi x y i = IntOp.maxsi (x i) (y i) := rfl

variable (hr : (inputsOf m c).InRange)
include hr

/-- After the clamp, source word e is edge e's source word. -/
theorem src_word (e : Fin 800000) :
    (V2 m c main_v2 : S800000.Idx → BitVec 32) (ix1 e) = (inputsOf m c).ei (ix2 (0 : Fin 2) e) := by
  have h1 : (V1 m c main_v1 : S800000.Idx → BitVec 32) (ix1 e) = (inputsOf m c).ei (ix2 (0 : Fin 2) e) := by
    rw [show (V1 m c main_v1 : S800000.Idx → BitVec 32) = _ from step0_v1 (V0 m c),
      shapeCast_1a_a_apply, slice2_axis0_apply 0 _ _ (0 : Fin 1) e (0 : Fin 2) rfl]
    rfl
  rw [show (V2 m c main_v2 : S800000.Idx → BitVec 32) = _ from step1_v2 (V1 m c), minsi_at, maxsi_at,
    broadcastInDim_scalar_apply, broadcastInDim_scalar_apply,
    show (V1 m c main_c_0 : S_.Idx → BitVec 32) = _ from step0_c_0 (V0 m c),
    show (V1 m c main_c : S_.Idx → BitVec 32) = _ from step0_c (V0 m c), constantI_apply, constantI_apply, h1]
  exact clip_id _ (hr _).1 (hr _).2

/-- After the clamp, target word e is edge e's target word. -/
theorem tgt_word (e : Fin 800000) :
    (V4 m c main_v5 : S800000.Idx → BitVec 32) (ix1 e) = (inputsOf m c).ei (ix2 (1 : Fin 2) e) := by
  have h1 : (V3 m c main_v4 : S800000.Idx → BitVec 32) (ix1 e) = (inputsOf m c).ei (ix2 (1 : Fin 2) e) := by
    rw [show (V3 m c main_v4 : S800000.Idx → BitVec 32) = _ from step2_v4 (V2 m c),
      shapeCast_1a_a_apply, slice2_axis0_apply 1 _ _ (0 : Fin 1) e (1 : Fin 2) rfl, V2_arg1]
    rfl
  rw [show (V4 m c main_v5 : S800000.Idx → BitVec 32) = _ from step3_v5 (V3 m c), minsi_at, maxsi_at,
    broadcastInDim_scalar_apply, broadcastInDim_scalar_apply,
    show (V3 m c main_c_2 : S_.Idx → BitVec 32) = _ from step2_c_2 (V2 m c),
    show (V3 m c main_c_1 : S_.Idx → BitVec 32) = _ from step2_c_1 (V2 m c), constantI_apply, constantI_apply, h1]
  exact clip_id _ (hr _).1 (hr _).2

/-- The edges whose target word is node n are the edges into n. -/
theorem filter_tgt (n : Fin 50000) :
    Finset.univ.filter (fun e : Fin 800000 => ((V4 m c main_v5 : S800000.Idx → BitVec 32) (ix1 e)).toInt = (n.val : ℤ))
      = Cert.Spec.intoNode (inputsOf m c).ei n := by
  unfold Cert.Spec.intoNode
  refine Finset.filter_congr fun e _ => ?_
  rw [tgt_word m c hr e]

/-- Row e of a take at the source words is the table's row at edge e's source node. -/
theorem take_src (tbl : FVec Ideal S50000x64 .f32) (e : Fin 800000) (j : Fin 64) :
    takeRows tbl (V2 m c main_v2) (ix2 e j) = tbl (ix2 (Cert.Spec.srcRow (inputsOf m c).ei e) j) :=
  takeRows_src (V2 m c main_v2) tbl (inputsOf m c).ei (src_word m c hr) hr e j

/-- The summed 129-column table: per node, Σ x[src e] | Σ ea[e] | the number of edges, over the edges into it. -/
theorem agg1_apply (n : Fin 50000) (a : Fin 129) :
    aggAll (V5 m c main_v5) (V5 m c main_v6) (V5 m c main_arg2) (ix2 n a)
      = if h1 : a.val < 64 then Cert.Spec.aggx (inputsOf m c) n ⟨a.val, h1⟩
        else if h2 : a.val < 64 + 64 then Cert.Spec.agge (inputsOf m c) n ⟨a.val - 64, by omega⟩
        else Cert.Spec.degree (inputsOf m c) n := by
  rw [aggAll_apply, V5_v5, filter_tgt m c hr n, show (V5 m c main_v6 : FVec Ideal S800000x64 .f32) = _ from step4_v6 (V4 m c),
    V4_v2, V4_arg0, V5_arg2]
  by_cases h1 : a.val < 64
  · rw [dif_pos h1]
    unfold Cert.Spec.aggx Cert.Spec.seg
    refine Finset.sum_congr rfl fun e _ => ?_
    rw [dif_pos h1]
    exact take_src m c hr _ e _
  · rw [dif_neg h1]
    by_cases h2 : a.val < 64 + 64
    · rw [dif_pos h2]
      unfold Cert.Spec.agge Cert.Spec.seg
      refine Finset.sum_congr rfl fun e _ => ?_
      rw [dif_neg h1, dif_pos h2]
      rfl
    · rw [dif_neg h2]
      unfold Cert.Spec.degree Cert.Spec.seg
      refine Finset.sum_congr rfl fun e _ => ?_
      rw [dif_neg h1, dif_neg h2]

/-! ## The first launch's operands -/

/-- [aggx | agge]. -/
theorem V6_cat1 : (V6 m c main_v12 : S50000x128.Idx → EReal) = Cert.Spec.cat1 (inputsOf m c) := by
  funext i
  obtain ⟨n, a, rfl⟩ : ∃ (n : Fin 50000) (a : Fin 128), i = ix2 n a := ⟨i 0, i 1, eq_ix2 i⟩
  rw [show (V6 m c main_v12 : S50000x128.Idx → EReal) = _ from step5_v12 (V5 m c),
    slice2_axis1_apply 0 _ _ n a (⟨a.val, by omega⟩ : Fin 129) (Nat.zero_add _).symm, agg1_apply m c hr]
  show _ = Cert.Spec.mk2 _ (ix2 n a)
  rw [Cert.Spec.mk2_apply]
  by_cases h1 : a.val < 64
  · rw [dif_pos h1, dif_pos h1]
  · rw [dif_neg h1, dif_neg h1, dif_pos (show a.val < 64 + 64 by omega)]

/-- The degree as a column. -/
theorem V6_deg : (V6 m c main_v14 : S50000x1.Idx → EReal) = Cert.Spec.degA (inputsOf m c) := by
  funext i
  obtain ⟨n, u, rfl⟩ : ∃ (n : Fin 50000) (u : Fin 1), i = ix2 n u := ⟨i 0, i 1, eq_ix2 i⟩
  rw [show (V6 m c main_v14 : S50000x1.Idx → EReal) = _ from step5_v14 (V5 m c),
    slice2_axis1_apply 128 _ _ n u (⟨128, by omega⟩ : Fin 129) (by show 128 = 128 + u.val; omega), agg1_apply m c hr,
    dif_neg (show ¬ (128 : ℕ) < 64 by omega), dif_neg (show ¬ (128 : ℕ) < 64 + 64 by omega)]
  rfl

/-- Columns 64–127 of the summed table: agge. -/
theorem v13_apply (n : Fin 50000) (j : Fin 64) :
    (V6 m c main_v13 : S50000x64.Idx → EReal) (ix2 n j) = Cert.Spec.agge (inputsOf m c) n j := by
  rw [show (V6 m c main_v13 : S50000x64.Idx → EReal) = _ from step5_v13 (V5 m c),
    slice2_axis1_apply 64 _ _ n j (⟨64 + j.val, by omega⟩ : Fin 129) rfl, agg1_apply m c hr,
    dif_neg (show ¬ 64 + j.val < 64 by omega), dif_pos (show 64 + j.val < 64 + 64 by omega)]
  exact congrArg (Cert.Spec.agge (inputsOf m c) n) (Fin.ext (by show 64 + j.val - 64 = j.val; omega))

/-! ## The second launch's operands -/

/-- [Σ over the edges of Y[src e, :64] | agge]. -/
theorem V10_cat2 : (V10 m outs c main_v33 : S50000x128.Idx → EReal)
    = Cert.Spec.cat2Of (inputsOf m c) (outs 7 main_v26 c) := by
  funext i
  obtain ⟨n, a, rfl⟩ : ∃ (n : Fin 50000) (a : Fin 128), i = ix2 n a := ⟨i 0, i 1, eq_ix2 i⟩
  rw [show (V10 m outs c main_v33 : S50000x128.Idx → EReal) = _ from step9_v33 (V9 m outs c),
    concat2_cols_apply concatenates_S50000x64_S50000x64_S50000x128_d1 rfl]
  show _ = Cert.Spec.mk2 _ (ix2 n a)
  rw [Cert.Spec.mk2_apply]
  by_cases h1 : a.val < 64
  · rw [dif_pos h1, dif_pos h1, aggRows_apply, V9_v5, filter_tgt m c hr n,
      show (V9 m outs c main_v29 : FVec Ideal S800000x64 .f32) = _ from step8_v29 (V8 m outs c), V8_v2]
    unfold Cert.Spec.seg
    refine Finset.sum_congr rfl fun e _ => ?_
    rw [take_src m c hr _ e _, show (V8 m outs c main_v27 : FVec Ideal S50000x64 .f32) = _ from step7_v27 (V7 m outs c),
      slice2_axis1_apply 0 _ _ _ (⟨a.val, h1⟩ : Fin 64) (⟨a.val, by omega⟩ : Fin 128) (Nat.zero_add _).symm, V7_v26]
  · rw [dif_neg h1, dif_neg h1, V9_v13]
    exact v13_apply m c hr n _

/-- The degree column reaches the second launch unchanged. -/
theorem V10_deg : (V10 m outs c main_v14 : S50000x1.Idx → EReal) = Cert.Spec.degA (inputsOf m c) :=
  (V10_v14 m c outs).trans (V6_deg m c hr)

omit hr

/-- Columns 64–127 of the first launch's result. -/
theorem V10_skip : (V10 m outs c main_v28 : S50000x64.Idx → EReal) = Cert.Spec.skipOf (outs 7 main_v26 c) := by
  funext i
  obtain ⟨n, j, rfl⟩ : ∃ (n : Fin 50000) (j : Fin 64), i = ix2 n j := ⟨i 0, i 1, eq_ix2 i⟩
  rw [V10_v28, show (V8 m outs c main_v28 : S50000x64.Idx → EReal) = _ from step7_v28 (V7 m outs c),
    slice2_axis1_apply 64 _ _ n j (⟨64 + j.val, by omega⟩ : Fin 128) rfl, V7_v26]
  rfl

end Memory

end Host

/-! ## The operands of the two launches -/

/-- The node features. -/
theorem V6_x : (V6 m c main_arg0 : S50000x64.Idx → EReal) = (inputsOf m c).x := Host.V6_x m c
/-- [aggx | agge]. -/
theorem V6_cat1 (hr : (inputsOf m c).InRange) : (V6 m c main_v12 : S50000x128.Idx → EReal) = Cert.Spec.cat1 (inputsOf m c) :=
  Host.V6_cat1 m c hr
/-- The degree as a column. -/
theorem V6_deg (hr : (inputsOf m c).InRange) : (V6 m c main_v14 : S50000x1.Idx → EReal) = Cert.Spec.degA (inputsOf m c) :=
  Host.V6_deg m c hr
/-- [W1mᵀ ; W1eᵀ]. -/
theorem V6_wcat : (V6 m c main_v17 : S128x256.Idx → EReal) = Cert.Spec.wcat (inputsOf m c) := Host.V6_wcat m c
/-- W1sᵀ. -/
theorem V6_wsT : (V6 m c main_v21 : S64x256.Idx → EReal) = Cert.Spec.wsT (inputsOf m c) := Host.V6_wsT m c
/-- b1m + b1e as a row. -/
theorem V6_bsum : (V6 m c main_v19 : S1x256.Idx → EReal) = Cert.Spec.bsum (inputsOf m c) := Host.V6_bsum m c
/-- b1s as a row. -/
theorem V6_bs1 : (V6 m c main_v20 : S1x256.Idx → EReal) = Cert.Spec.bs1 (inputsOf m c) := Host.V6_bs1 m c
/-- W2mᵀ. -/
theorem V6_w2mT : (V6 m c main_v22 : S256x64.Idx → EReal) = Cert.Spec.w2mT (inputsOf m c) := Host.V6_w2mT m c
/-- b2m as a row. -/
theorem V6_b2mR : (V6 m c main_v23 : S1x64.Idx → EReal) = Cert.Spec.b2mR (inputsOf m c) := Host.V6_b2mR m c
/-- W2sᵀ. -/
theorem V6_w2sT : (V6 m c main_v24 : S256x64.Idx → EReal) = Cert.Spec.w2sT (inputsOf m c) := Host.V6_w2sT m c
/-- b2s as a row. -/
theorem V6_b2sR : (V6 m c main_v25 : S1x64.Idx → EReal) = Cert.Spec.b2sR (inputsOf m c) := Host.V6_b2sR m c
/-- [Σ over the edges of Y[src e, :64] | agge], Y what the first launch left. -/
theorem V10_cat2 (hr : (inputsOf m c).InRange) (outs : Outs (F := Ideal)) :
    (V10 m outs c main_v33 : S50000x128.Idx → EReal) = Cert.Spec.cat2Of (inputsOf m c) (outs 7 main_v26 c) :=
  Host.V10_cat2 m c outs hr
/-- Y[:, 64:]. -/
theorem V10_skip (outs : Outs (F := Ideal)) :
    (V10 m outs c main_v28 : S50000x64.Idx → EReal) = Cert.Spec.skipOf (outs 7 main_v26 c) := Host.V10_skip m c outs
/-- The degree column again. -/
theorem V10_deg (hr : (inputsOf m c).InRange) (outs : Outs (F := Ideal)) :
    (V10 m outs c main_v14 : S50000x1.Idx → EReal) = Cert.Spec.degA (inputsOf m c) := Host.V10_deg m c outs hr
/-- W2eᵀ. -/
theorem V10_weT (outs : Outs (F := Ideal)) : (V10 m outs c main_v34 : S64x64.Idx → EReal) = Cert.Spec.weT (inputsOf m c) :=
  Host.V10_weT m c outs
/-- b2e as a row. -/
theorem V10_beR (outs : Outs (F := Ideal)) : (V10 m outs c main_v35 : S1x64.Idx → EReal) = Cert.Spec.beR (inputsOf m c) :=
  Host.V10_beR m c outs

end Cert.KernelIdeal.Hand

end
-- ==== Proof.KIResult.lean ====
/-
  THE IDEALIZED KERNEL'S RESULT, as the specification's function of the arguments.

  The run ends with the result buffer at what the second launch's write-backs leave. That is region1 of the second
  launch's five operand tables; the host operations between the launches make those tables from what the first launch
  left (the edge sum of its first 64 columns beside the edge attributes' sum, its last 64 columns, the degree, W2eᵀ,
  b2e); what the first launch left is region0 of its eleven operand tables; and the host operations before it make
  those from the arguments. Composed: outK of the arguments.
-/
import proofs.«408220_j76836964925933_3_alg».proof.Proof.KIRun
import proofs.«408220_j76836964925933_3_alg».proof.Proof.KIValue0
import proofs.«408220_j76836964925933_3_alg».proof.Proof.KIValue1
import proofs.«408220_j76836964925933_3_alg».proof.Proof.KIHost

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- What the first launch leaves in its result buffer is the specification's packed table [h·W2mᵀ + b2m | h·W2sᵀ + b2s]. -/
theorem first_launch_result (hr : (inputsOf m c).InRange) :
    (outsOf (F := Ideal) m 7 main_v26 c : S50000x128.Idx → EReal) = Cert.Spec.packed (inputsOf m c) := by
  funext i
  obtain ⟨n, a, rfl⟩ : ∃ (n : Fin 50000) (a : Fin 128), i = ix2 n a := ⟨i 0, i 1, eq_ix2 i⟩
  rw [outs7]
  refine (region0_value (entry0 m) c n a).trans ?_
  have e : ∀ r : Ref sig .tc, entry0 m c r = V6 m c r := fun _ => rfl
  rw [e main_v12, e main_arg0, e main_v14, e main_v17, e main_v21, e main_v19, e main_v20, e main_v22, e main_v23,
    e main_v24, e main_v25]
  rw [V6_cat1 m c hr, V6_x m c, V6_deg m c hr, V6_wcat m c, V6_wsT m c, V6_bsum m c, V6_bs1 m c, V6_w2mT m c, V6_b2mR m c,
    V6_w2sT m c, V6_b2sR m c]
  rw [Cert.Spec.packed, Cert.Spec.mk2_apply]

/-- THE RESULT: the run's result buffer is the kernel's function of the arguments, entry by entry. -/
theorem kernel_result (hr : (inputsOf m c).InRange) :
    (outsOf (F := Ideal) m 11 main_v36 c : S50000x64.Idx → EReal) = Cert.Spec.mk2 (Cert.Spec.outK (inputsOf m c)) := by
  funext i
  obtain ⟨n, j, rfl⟩ : ∃ (n : Fin 50000) (j : Fin 64), i = ix2 n j := ⟨i 0, i 1, eq_ix2 i⟩
  rw [outs11]
  refine (region1_value (entry1 m) c n j).trans ?_
  have e : ∀ r : Ref sig .tc, entry1 m c r = V10 m (outsOf m) c r := fun _ => rfl
  rw [e main_v33, e main_v28, e main_v14, e main_v34, e main_v35]
  rw [V10_cat2 m c hr, V10_skip m c, V10_deg m c hr, V10_weT m c, V10_beR m c, first_launch_result m c hr]
  rw [Cert.Spec.mk2_apply, Cert.Spec.outK]

end Cert.KernelIdeal.Hand

end
-- ==== Proof.RefRun.lean ====
/-
  The reference program's run and its read-at-an-index lemmas, brought into scope for the modules that
  state what the reference computes.
-/
import proofs.«408220_j76836964925933_3_alg».proof.Proof.Gen.ReferenceIdeal.Run
import proofs.«408220_j76836964925933_3_alg».proof.Proof.Gen.ReferenceIdeal.Read
-- ==== Proof.RefValue.lean ====
/-
  THE REFERENCE COMPUTES Spec.outR.

  The reference program is a chain of host operations on the fifteen argument arrays: two rounds of
      conv(z)[n] = Σ_{e : dst e = n} ( (z[src e]·Wmᵀ + bm) + (ea[e]·Weᵀ + be) )  +  (z[n]·Wsᵀ + bs),
  each followed by a maximum with 0. This module reads every operation of the chain at an index and identifies the
  stages with the specification's: the node messages xmsg1, the edge terms et1, the sums over the edges into a node
  agg1, the hidden row hR, and the same four for the second round, xmsg2, et2, agg2, outR.

  Two kinds of operation choose their element by an operand's VALUE. The row gather reads, for edge e, the row whose
  number is the source word of e, read signed and clamped into [0, 49999]: Spec.srcRow. Before the gather the
  reference adds 50000 to a negative source word; on a word in [0, 50000) that is the identity. The row scatter-add
  adds edge e's row into the node whose number is the target word of e, read signed, and nowhere when that is no
  node: the sum over Spec.intoNode. Its operand is the zero table.

  Every other operation reads one element of each operand (a transpose, a broadcast of a bias over the rows, a sum of
  two tables, a maximum with the zero table) or is a product of two tables, the sum over the contracted axis.

  The result (ref_run): every weakly fair execution of the reference ends with its result buffer holding
  mk2 (Spec.outR I), I the arguments' contents at launch, and the arguments unchanged.
-/
import proofs.«408220_j76836964925933_3_alg».proof.Proof.RefRun
import proofs.«408220_j76836964925933_3_alg».proof.Proof.Inputs
import proofs.«408220_j76836964925933_3_alg».proof.Proof.Spec
import proofs.«408220_j76836964925933_3_alg».proof.Proof.LibRowGatherScatter

noncomputable section

open scoped BigOperators

namespace Cert.ReferenceIdeal.Hand

open Cert.ReferenceIdeal Cert.ReferenceIdeal.Gen Cert.ReferenceIdeal.Read Cert.Spec Cert.LibRows
open Idealize.ShloMosaic Idealize.ShloMosaic.ValueIdx Idealize.SL.Sem

/-- Two rank-2 (rank-1) indices are equal when their coordinates are. -/
local macro "idx2" : tactic => `(tactic| (funext a; match a with | ⟨0, _⟩ => rfl | ⟨1, _⟩ => rfl))
local macro "idx1" : tactic => `(tactic| (funext a; match a with | ⟨0, _⟩ => rfl))

/-! ## A source word that is a node is left as it is

The reference replaces a source word w by w + 50000 when w < 0 (signed). -/

theorem wrap_id (w : BitVec 32) (h0 : 0 ≤ w.toInt) :
    Scalar.select (IntOp.cmpi .slt w 0#32) (IntOp.addi w 50000#32) w = w := by
  have hs : w.slt 0#32 = false := by
    simp only [BitVec.slt, BitVec.toInt_zero]
    exact decide_eq_false (by omega)
  unfold IntOp.cmpi Scalar.select
  simp [hs]

variable (I : Inputs)

/-! ## The edge words

Row 0 of the edge array holds the source words, row 1 the target words; each is sliced out, flattened, and made a
column of 800000 one-word index vectors. -/

/-- The flattened row 0 at e is the source word of edge e. -/
theorem src_word (e : Fin 800000) : val_main_v1 (F := Ideal) I.ei (ix1 e) = I.ei (ix2 (0 : Fin 2) e) := by
  rw [val_main_v1_apply, val_main_v0_apply]
  refine congrArg I.ei (funext fun a => Fin.ext ?_)
  match a with
  | ⟨0, _⟩ => rfl
  | ⟨1, _⟩ => exact Nat.mod_eq_of_lt e.isLt

/-- The flattened row 1 at e is the target word of edge e. -/
theorem dst_word (e : Fin 800000) : val_main_v3 (F := Ideal) I.ei (ix1 e) = I.ei (ix2 (1 : Fin 2) e) := by
  rw [val_main_v3_apply, val_main_v2_apply]
  refine congrArg I.ei (funext fun a => Fin.ext ?_)
  match a with
  | ⟨0, _⟩ => rfl
  | ⟨1, _⟩ => exact Nat.mod_eq_of_lt e.isLt

/-- The first round's gather index of edge e: its source word, the wrap being the identity on a node. -/
theorem gidx1_at (hr : I.InRange) (e : Fin 800000) :
    val_main_v19 (F := Ideal) I.ei (ix2 e (0 : Fin 1)) = I.ei (ix2 (0 : Fin 2) e) := by
  rw [val_main_v19_apply, show idx_main_v19 (ix2 e (0 : Fin 1)) = ix1 e from by idx1,
    val_main_v18_apply, val_main_v15_apply, val_main_v17_apply, val_main_v14_apply, val_main_v16_apply,
    val_main_c_apply, val_main_c_0_apply, src_word]
  exact wrap_id _ (hr _).1

/-- The second round's gather index of edge e: the same. -/
theorem gidx2_at (hr : I.InRange) (e : Fin 800000) :
    val_main_v47 (F := Ideal) I.ei (ix2 e (0 : Fin 1)) = I.ei (ix2 (0 : Fin 2) e) := by
  rw [val_main_v47_apply, show idx_main_v47 (ix2 e (0 : Fin 1)) = ix1 e from by idx1,
    val_main_v46_apply, val_main_v43_apply, val_main_v45_apply, val_main_v42_apply, val_main_v44_apply,
    val_main_c_1_apply, val_main_c_2_apply, src_word]
  exact wrap_id _ (hr _).1

/-- The first round's scatter index of edge e: its target word. -/
theorem sidx1_at (e : Fin 800000) :
    val_main_v23 (F := Ideal) I.ei (ix2 e (0 : Fin 1)) = I.ei (ix2 (1 : Fin 2) e) := by
  rw [val_main_v23_apply, show idx_main_v23 (ix2 e (0 : Fin 1)) = ix1 e from by idx1]
  exact dst_word I e

/-- The second round's scatter index of edge e: its target word. -/
theorem sidx2_at (e : Fin 800000) :
    val_main_v51 (F := Ideal) I.ei (ix2 e (0 : Fin 1)) = I.ei (ix2 (1 : Fin 2) e) := by
  rw [val_main_v51_apply, show idx_main_v51 (ix2 e (0 : Fin 1)) = ix1 e from by idx1]
  exact dst_word I e

/-- The row the gathers read for edge e, from either gather index, is Spec.srcRow. -/
theorem row1_eq (hr : I.InRange) (e : Fin 800000)
    (h : min (val_main_v19 (F := Ideal) I.ei (ix2 e (0 : Fin 1))).toInt.toNat (50000 - 1) < 50000) :
    (⟨min (val_main_v19 (F := Ideal) I.ei (ix2 e (0 : Fin 1))).toInt.toNat (50000 - 1), h⟩ : Fin 50000)
      = srcRow I.ei e :=
  Fin.ext (congrArg (fun w : BitVec 32 => min w.toInt.toNat (50000 - 1)) (gidx1_at I hr e))

theorem row2_eq (hr : I.InRange) (e : Fin 800000)
    (h : min (val_main_v47 (F := Ideal) I.ei (ix2 e (0 : Fin 1))).toInt.toNat (50000 - 1) < 50000) :
    (⟨min (val_main_v47 (F := Ideal) I.ei (ix2 e (0 : Fin 1))).toInt.toNat (50000 - 1), h⟩ : Fin 50000)
      = srcRow I.ei e :=
  Fin.ext (congrArg (fun w : BitVec 32 => min w.toInt.toNat (50000 - 1)) (gidx2_at I hr e))

/-- The edges whose scatter index is node n are Spec.intoNode. -/
theorem into1_eq (n : Fin 50000) :
    (Finset.univ.filter fun e : Fin 800000 =>
        (val_main_v23 (F := Ideal) I.ei (ix2 e (0 : Fin 1))).toInt = (n.val : ℤ)) = intoNode I.ei n := by
  unfold intoNode
  exact Finset.filter_congr fun e _ => by rw [sidx1_at I e]

theorem into2_eq (n : Fin 50000) :
    (Finset.univ.filter fun e : Fin 800000 =>
        (val_main_v51 (F := Ideal) I.ei (ix2 e (0 : Fin 1))).toInt = (n.val : ℤ)) = intoNode I.ei n := by
  unfold intoNode
  exact Finset.filter_congr fun e _ => by rw [sidx2_at I e]

/-! ## The zero tables: the scatters' operands and the second operands of the two maxima -/

theorem zero1 (i : S50000x256.Idx) : val_main_v22 (F := Ideal) i = 0 := by
  rw [val_main_v22_apply, val_main_cst_apply]; exact Ideal.ofBits_zero_f32

theorem zero1' (i : S50000x256.Idx) : val_main_call0_v0 (F := Ideal) i = 0 := by
  rw [val_main_call0_v0_apply, val_main_call0_cst_apply]; exact Ideal.ofBits_zero_f32

theorem zero2 (i : S50000x64.Idx) : val_main_v50 (F := Ideal) i = 0 := by
  rw [val_main_v50_apply, val_main_cst_3_apply]; exact Ideal.ofBits_zero_f32

theorem zero2' (i : S50000x64.Idx) : val_main_call1_v0 (F := Ideal) i = 0 := by
  rw [val_main_call1_v0_apply, val_main_call1_cst_apply]; exact Ideal.ofBits_zero_f32

/-! ## The first round -/

/-- The node messages: x·W1mᵀ + b1m at (n, k). -/
theorem xmsg1_at (n : Fin 50000) (k : Fin 256) :
    val_main_v8 (F := Ideal) I.x I.W1m I.b1m (ix2 n k) = xmsg1 I n k := by
  rw [val_main_v8_apply, val_main_v5_apply, val_main_v7_apply, val_main_v6_apply]
  simp only [val_main_v4_apply, Ideal.addf_def]
  unfold xmsg1
  refine congrArg₂ (· + ·) (Finset.sum_congr rfl fun b _ =>
    congrArg₂ (· * ·) (congrArg I.x ?_) (congrArg I.W1m ?_)) (congrArg I.b1m ?_)
  · idx2
  · idx2
  · idx1

/-- The edge terms: ea·W1eᵀ + b1e at (e, k). -/
theorem et1_at (e : Fin 800000) (k : Fin 256) :
    val_main_v13 (F := Ideal) I.ea I.W1e I.b1e (ix2 e k) = et1 I e k := by
  rw [val_main_v13_apply, val_main_v10_apply, val_main_v12_apply, val_main_v11_apply]
  simp only [val_main_v9_apply, Ideal.addf_def]
  unfold et1
  refine congrArg₂ (· + ·) (Finset.sum_congr rfl fun b _ =>
    congrArg₂ (· * ·) (congrArg I.ea ?_) (congrArg I.W1e ?_)) (congrArg I.b1e ?_)
  · idx2
  · idx2
  · idx1

/-- The gathered messages: edge e reads the message row of its source node. -/
theorem gath1_at (hr : I.InRange) (e : Fin 800000) (k : Fin 256) :
    val_main_v20 (F := Ideal) I.x I.ei I.W1m I.b1m (ix2 e k) = xmsg1 I (srcRow I.ei e) k := by
  unfold val_main_v20
  refine (gather_rows_apply (N := 50000) (E := 800000) (C := 256) (by decide)
    Facts₀.gather_S50000x256_S800000x1_S800000x256_1_0_n_n_0_1_1256_wf _ _ e k).trans ?_
  rw [row1_eq I hr e]
  exact xmsg1_at I (srcRow I.ei e) k

/-- What edge e carries: its source node's message plus its own term. -/
theorem msg1_at (hr : I.InRange) (e : Fin 800000) (k : Fin 256) :
    val_main_v21 (F := Ideal) I.x I.ei I.ea I.W1m I.b1m I.W1e I.b1e (ix2 e k)
      = xmsg1 I (srcRow I.ei e) k + et1 I e k := by
  rw [val_main_v21_apply, gath1_at I hr e k, et1_at I e k]
  rfl

/-- The scatter-add into the zero table: the sum of what the edges into node n carry. -/
theorem agg1_at (hr : I.InRange) (n : Fin 50000) (k : Fin 256) :
    val_main_v24 (F := Ideal) I.x I.ei I.ea I.W1m I.b1m I.W1e I.b1e (ix2 n k) = agg1 I n k := by
  unfold val_main_v24
  refine (host_scatterAdd_rows_apply (N := 50000) (E := 800000) (C := 256)
    Facts₀.scatter_S50000x256_S800000x1_S800000x256_1_0_0_1_wf _ _ _ n k).trans ?_
  rw [zero1, zero_add, into1_eq I n]
  unfold agg1 seg
  exact Finset.sum_congr rfl fun e _ => msg1_at I hr e k

/-- The skip term: x·W1sᵀ + b1s at (n, k). -/
theorem skip1_at (n : Fin 50000) (k : Fin 256) :
    val_main_v29 (F := Ideal) I.x I.W1s I.b1s (ix2 n k)
      = (∑ b : Fin 64, I.x (ix2 n b) * I.W1s (ix2 k b)) + I.b1s (ix1 k) := by
  rw [val_main_v29_apply, val_main_v26_apply, val_main_v28_apply, val_main_v27_apply]
  simp only [val_main_v25_apply, Ideal.addf_def]
  refine congrArg₂ (· + ·) (Finset.sum_congr rfl fun b _ =>
    congrArg₂ (· * ·) (congrArg I.x ?_) (congrArg I.W1s ?_)) (congrArg I.b1s ?_)
  · idx2
  · idx2
  · idx1

/-- The hidden row: the maximum of the edge sum plus the skip term with 0. -/
theorem hR_at (hr : I.InRange) (n : Fin 50000) (k : Fin 256) :
    val_main_v31 (F := Ideal) I.x I.ei I.ea I.W1m I.b1m I.W1e I.b1e I.W1s I.b1s (ix2 n k) = hR I n k := by
  rw [val_main_v31_apply, val_main_v30_apply, agg1_at I hr n k, skip1_at I n k, zero1']
  rfl

/-! ## The second round -/

/-- The node messages: h·W2mᵀ + b2m at (n, j). -/
theorem xmsg2_at (hr : I.InRange) (n : Fin 50000) (j : Fin 64) :
    val_main_v36 (F := Ideal) I.x I.ei I.ea I.W1m I.b1m I.W1e I.b1e I.W1s I.b1s I.W2m I.b2m (ix2 n j) = xmsg2 I n j := by
  rw [val_main_v36_apply, val_main_v33_apply, val_main_v35_apply, val_main_v34_apply]
  simp only [val_main_v32_apply, Ideal.addf_def]
  unfold xmsg2
  refine congrArg₂ (· + ·) (Finset.sum_congr rfl fun k _ =>
    congrArg₂ (· * ·) ?_ (congrArg I.W2m ?_)) (congrArg I.b2m ?_)
  · rw [show lidx_main_v33 (ix2 n j) k = ix2 n k from by idx2]
    exact hR_at I hr n k
  · idx2
  · idx1

/-- The edge terms: ea·W2eᵀ + b2e at (e, j). -/
theorem et2_at (e : Fin 800000) (j : Fin 64) :
    val_main_v41 (F := Ideal) I.ea I.W2e I.b2e (ix2 e j) = et2 I e j := by
  rw [val_main_v41_apply, val_main_v38_apply, val_main_v40_apply, val_main_v39_apply]
  simp only [val_main_v37_apply, Ideal.addf_def]
  unfold et2
  refine congrArg₂ (· + ·) (Finset.sum_congr rfl fun a _ =>
    congrArg₂ (· * ·) (congrArg I.ea ?_) (congrArg I.W2e ?_)) (congrArg I.b2e ?_)
  · idx2
  · idx2
  · idx1

/-- The gathered messages: edge e reads the message row of its source node. -/
theorem gath2_at (hr : I.InRange) (e : Fin 800000) (j : Fin 64) :
    val_main_v48 (F := Ideal) I.x I.ei I.ea I.W1m I.b1m I.W1e I.b1e I.W1s I.b1s I.W2m I.b2m (ix2 e j) = xmsg2 I (srcRow I.ei e) j := by
  unfold val_main_v48
  refine (gather_rows_apply (N := 50000) (E := 800000) (C := 64) (by decide)
    Facts₀.gather_S50000x64_S800000x1_S800000x64_1_0_n_n_0_1_164_wf _ _ e j).trans ?_
  rw [row2_eq I hr e]
  exact xmsg2_at I hr (srcRow I.ei e) j

/-- What edge e carries: its source node's message plus its own term. -/
theorem msg2_at (hr : I.InRange) (e : Fin 800000) (j : Fin 64) :
    val_main_v49 (F := Ideal) I.x I.ei I.ea I.W1m I.b1m I.W1e I.b1e I.W1s I.b1s I.W2m I.b2m I.W2e I.b2e (ix2 e j) = xmsg2 I (srcRow I.ei e) j + et2 I e j := by
  rw [val_main_v49_apply, gath2_at I hr e j, et2_at I e j]
  rfl

/-- The scatter-add into the zero table: the sum of what the edges into node n carry. -/
theorem agg2_at (hr : I.InRange) (n : Fin 50000) (j : Fin 64) :
    val_main_v52 (F := Ideal) I.x I.ei I.ea I.W1m I.b1m I.W1e I.b1e I.W1s I.b1s I.W2m I.b2m I.W2e I.b2e (ix2 n j) = agg2 I n j := by
  unfold val_main_v52
  refine (host_scatterAdd_rows_apply (N := 50000) (E := 800000) (C := 64)
    Facts₀.scatter_S50000x64_S800000x1_S800000x64_1_0_0_1_wf _ _ _ n j).trans ?_
  rw [zero2, zero_add, into2_eq I n]
  unfold agg2 seg
  exact Finset.sum_congr rfl fun e _ => msg2_at I hr e j

/-- The skip term: h·W2sᵀ + b2s at (n, j). -/
theorem skip2_at (hr : I.InRange) (n : Fin 50000) (j : Fin 64) :
    val_main_v57 (F := Ideal) I.x I.ei I.ea I.W1m I.b1m I.W1e I.b1e I.W1s I.b1s I.W2s I.b2s (ix2 n j)
      = (∑ k : Fin 256, hR I n k * I.W2s (ix2 j k)) + I.b2s (ix1 j) := by
  rw [val_main_v57_apply, val_main_v54_apply, val_main_v56_apply, val_main_v55_apply]
  simp only [val_main_v53_apply, Ideal.addf_def]
  refine congrArg₂ (· + ·) (Finset.sum_congr rfl fun k _ =>
    congrArg₂ (· * ·) ?_ (congrArg I.W2s ?_)) (congrArg I.b2s ?_)
  · rw [show lidx_main_v54 (ix2 n j) k = ix2 n k from by idx2]
    exact hR_at I hr n k
  · idx2
  · idx1

/-- The result at (n, j): the maximum of the edge sum plus the skip term with 0. -/
theorem out_at (hr : I.InRange) (n : Fin 50000) (j : Fin 64) :
    val_main_v59 (F := Ideal) I.x I.ei I.ea I.W1m I.b1m I.W1e I.b1e I.W1s I.b1s I.W2m I.b2m I.W2e I.b2e I.W2s I.b2s (ix2 n j) = outR I n j := by
  rw [val_main_v59_apply, val_main_v58_apply, agg2_at I hr n j, skip2_at I hr n j, zero2']
  rfl

/-- The last stage, as a table, is the specification's. -/
theorem out_eq (hr : I.InRange) :
    val_main_v59 (F := Ideal) I.x I.ei I.ea I.W1m I.b1m I.W1e I.b1e I.W1s I.b1s I.W2m I.b2m I.W2e I.b2e I.W2s I.b2s = mk2 (outR I) := by
  funext i
  obtain ⟨n, j, rfl⟩ : ∃ (n : Fin 50000) (j : Fin 64), i = ix2 n j := ⟨i 0, i 1, eq_ix2 i⟩
  exact out_at I hr n j

/-! ## The run -/

/-- Every weakly fair execution of the reference ends with its result at mk2 (Spec.outR I), I the arguments'
    contents at launch, and the arguments unchanged. -/
theorem ref_run (m : (ℓ : Loc nD τ sig) → Buf (Elt Ideal) ℓ) (ρ : Dev nD → PrngReg)
    (hr : ∀ c, (inputsOf m c).InRange) :
    θ_run defs (onTc (τ := τ) (main (F := Ideal))) ⟨m, fun _ => 0, ρ⟩ (fun r => ∀ c : Dev nD,
      r.2.mem ((c.tc : Thread nD τ).loc main_v59) = Cert.Spec.mk2 (Cert.Spec.outR (inputsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono
    (fun _ h c => ⟨(h c).1.trans ((val_main_v59_eq m c).trans (out_eq (inputsOf m c) (hr c))), (h c).2⟩)
    (Cert.ReferenceIdeal.Value.run (F := Ideal) m ρ)

end Cert.ReferenceIdeal.Hand

end
-- ==== Proof.PreDecode.lean ====
/-
  The precondition, decoded. The printed predicate is the conjunction, left-nested, of sixteen reductions by "and" to
  one bit: for each of the fourteen float arguments, |entry| < +∞ at every entry; then, for the edge words, 0 ≤ word
  and word < 50000, read signed, at every entry. That it evaluates to 1 on a core's fifteen argument buffers says
  that every float entry is a real number (an extended real x with max x (-x) < ⊤ is neither ⊤ nor ⊥) and that every
  edge word, read signed, lies in [0, 50000).
-/
import proofs.«408220_j76836964925933_3_alg».proof.Proof.Inputs
import proofs.«408220_j76836964925933_3_alg».proof.Proof.Gen.Pre_finite_inputs
import Idealize.ShloMosaic.Lib.ReduceAll
import Idealize.ShloMosaic.Lib.StableHlo.Predicate

noncomputable section

open Idealize.ShloMosaic Idealize.SL.Sem

namespace Cert.KernelIdeal.Hand

open Cert.KernelIdeal

/-- The shape of rank 0 has one index. -/
instance : Subsingleton (⟨0, ![]⟩ : Shape).Idx := ⟨fun _ _ => funext fun d => d.elim0⟩

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The pattern 0x7F800000 denotes +∞. -/
theorem inf_pattern : Ideal.ofBits .f32 0x7F800000#32 = ⊤ := by simp [Ideal.ofBits, Ideal.ieee]

/-- One float conjunct, at any shape: if the reduction by "and" of |X| < +∞ over all of X is 1, then X holds real
    numbers only. -/
theorem isReal_of_all {s : Shape} {axes : List (Fin s.rank)} (X : FVec Ideal s .f32)
    (hb : (⟨0, ![]⟩ : Shape).BroadcastsInDim s (![] : Fin 0 → Fin s.rank))
    (hr : s.ReducesTo axes ⟨0, ![]⟩) (h0 : 0 < (⟨0, ![]⟩ : Shape).numel)
    (e : Host.reduce IntOp.andi
          (cmpf .olt (Host.absf X) (broadcastInDim s ![] hb (constant (F := Ideal) ⟨0, ![]⟩ .f32 0x7F800000#32)))
          (constantI ⟨0, ![]⟩ 1 1#1) hr h0 ValueIdx.ix0 = 1#1) :
    Cert.Spec.IsReal X := by
  intro i
  -- the comparison at entry i is 1; its right side is the broadcast scalar, +∞
  have hi : Ideal.cmp .olt (max (X i) (-(X i))) (Ideal.ofBits .f32 0x7F800000#32) = 1#1 :=
    Host.reduce_andi_all _ _ hr h0 _ e i
  rw [inf_pattern] at hi
  simp only [Ideal.cmp, StableHlo.Predicate.ofBool_eq_one_iff, decide_eq_true_eq] at hi
  exact real_of_abs_lt_top _ hi

/-- The two integer conjuncts, at any shape: if the reductions by "and" of 0 ≤ E and of E < 50000 (signed) over all
    of E are 1, then every word of E, read signed, lies in [0, 50000). -/
theorem inRange_of_all {s : Shape} {axes : List (Fin s.rank)} (E : IVec s 32)
    (hb : (⟨0, ![]⟩ : Shape).BroadcastsInDim s (![] : Fin 0 → Fin s.rank))
    (hr : s.ReducesTo axes ⟨0, ![]⟩) (h0 : 0 < (⟨0, ![]⟩ : Shape).numel)
    (ege : Host.reduce IntOp.andi (cmpi .sge E (broadcastInDim s ![] hb (constantI ⟨0, ![]⟩ 32 0#32)))
          (constantI ⟨0, ![]⟩ 1 1#1) hr h0 ValueIdx.ix0 = 1#1)
    (elt : Host.reduce IntOp.andi (cmpi .slt E (broadcastInDim s ![] hb (constantI ⟨0, ![]⟩ 32 50000#32)))
          (constantI ⟨0, ![]⟩ 1 1#1) hr h0 ValueIdx.ix0 = 1#1) :
    ∀ i, 0 ≤ (E i).toInt ∧ (E i).toInt < 50000 := by
  intro i
  have hge : IntOp.cmpi .sge (E i) 0#32 = 1#1 := Host.reduce_andi_all _ _ hr h0 _ ege i
  have hlt : IntOp.cmpi .slt (E i) 50000#32 = 1#1 := Host.reduce_andi_all _ _ hr h0 _ elt i
  simp only [IntOp.cmpi, StableHlo.Predicate.ofBool_eq_one_iff, BitVec.sle, BitVec.slt, decide_eq_true_eq] at hge hlt
  have z : (0#32 : BitVec 32).toInt = 0 := by decide
  have f : (50000#32 : BitVec 32).toInt = 50000 := by decide
  exact ⟨z ▸ hge, f ▸ hlt⟩

/-- THE PRECONDITION DECODED on core c: the fourteen float arguments hold real numbers only, and every edge word,
    read signed, names a node. The conjunction's sixteen parts come in the order of the specification's: the float
    arguments in argument order, then the lower and the upper bound on the edge words. -/
theorem pre_decode [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (Cert.KernelIdeal.Hand.inputsOf m c).Finite ∧ (Cert.KernelIdeal.Hand.inputsOf m c).InRange := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  simp only [Idealize.ShloMosaic.andi, IntOp.andi_eq_one] at e
  obtain ⟨⟨⟨⟨⟨⟨⟨⟨⟨⟨⟨⟨⟨⟨⟨a0, a2⟩, a3⟩, a4⟩, a5⟩, a6⟩, a7⟩, a8⟩, a9⟩, a10⟩, a11⟩, a12⟩, a13⟩, a14⟩, ege⟩, elt⟩ := e
  exact ⟨⟨isReal_of_all _ _ _ _ a0, isReal_of_all _ _ _ _ a2, isReal_of_all _ _ _ _ a3, isReal_of_all _ _ _ _ a4,
      isReal_of_all _ _ _ _ a5, isReal_of_all _ _ _ _ a6, isReal_of_all _ _ _ _ a7, isReal_of_all _ _ _ _ a8,
      isReal_of_all _ _ _ _ a9, isReal_of_all _ _ _ _ a10, isReal_of_all _ _ _ _ a11, isReal_of_all _ _ _ _ a12,
      isReal_of_all _ _ _ _ a13, isReal_of_all _ _ _ _ a14⟩,
    inRange_of_all _ _ _ _ ege elt⟩

end Cert.KernelIdeal.Hand

end
-- ==== Proof.Algebra.lean ====
/-
  THE LAW THAT JOINS THE TWO SIDES. With every float argument a real number, the kernel's arrangement (edge sums
  first, then the products) and the reference's (products per edge, then the edge sum) give the same numbers:
  a finite sum of products distributes, Σ_{e→n} (z[src e]·W + b) = (Σ_{e→n} z[src e])·W + deg(n)·b, and a sum over
  128 concatenated columns splits into its two halves of 64.

  The extended reals are not a ring, so the computation is done over ℝ: the fourteen float tables are written as
  the images of real tables (RInputs.up), each quantity of the specification is shown to be the image of a real
  number (the lemmas named …_up), and the two real results are compared by Finset.sum_add_distrib, Finset.sum_comm,
  Finset.sum_mul and ring.
-/
import proofs.«408220_j76836964925933_3_alg».proof.Proof.Spec
import Mathlib.Algebra.BigOperators.Fin
import Mathlib.Algebra.BigOperators.Ring.Finset
import Mathlib.Data.EReal.Basic
import Mathlib.Tactic.Ring

noncomputable section

open scoped BigOperators

namespace Cert.Spec

open Idealize.ShloMosaic Idealize.ShloMosaic.ValueIdx

namespace Lift

/-! ## Real numbers inside the extended reals -/

/-- The inclusion of ℝ carries a finite sum to the sum of the images. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The inclusion of ℝ is monotone, so it carries a maximum to the maximum of the images. -/
theorem coe_max (a b : ℝ) : ((max a b : ℝ) : EReal) = max (a : EReal) (b : EReal) :=
  EReal.coe_strictMono.monotone.map_max

/-! ## Two facts about finite sums -/

/-- A sum over 128 columns is the sum over the first 64 plus the sum over the last 64. -/
theorem sum_fin128 {M : Type} [AddCommMonoid M] (f : Fin 128 → M) :
    ∑ a, f a = (∑ a : Fin 64, f ⟨a.val, by omega⟩) + ∑ a : Fin 64, f ⟨64 + a.val, by omega⟩ :=
  Fin.sum_univ_add (a := 64) (b := 64) f

/-- Over ℝ, the sum over a set of edges of an affine image of each edge's row is the affine image of the summed rows,
    the constant counted once per edge. -/
theorem sum_affine {E : Type} {B : ℕ} (S : Finset E) (z : E → Fin B → ℝ) (W : Fin B → ℝ) (c : ℝ) :
    ∑ e ∈ S, ((∑ b, z e b * W b) + c) = (∑ b, (∑ e ∈ S, z e b) * W b) + (∑ _e ∈ S, (1 : ℝ)) * c := by
  rw [Finset.sum_add_distrib, Finset.sum_comm]
  congr 1
  · exact Finset.sum_congr rfl fun b _ => (Finset.sum_mul _ _ _).symm
  · rw [Finset.sum_mul]; simp only [one_mul]

/-! ## The float arguments as real tables -/

/-- Real tables on the index sets of the specification. -/
abbrev RArr (r c : Nat) : Type := (⟨2, ![r, c]⟩ : Shape).Idx → ℝ
abbrev RArr1 (n : Nat) : Type := (⟨1, ![n]⟩ : Shape).Idx → ℝ

/-- The fourteen float arguments, as real tables. -/
structure RInputs where
  x : RArr 50000 64
  ea : RArr 800000 64
  W1m : RArr 256 64
  b1m : RArr1 256
  W1e : RArr 256 64
  b1e : RArr1 256
  W1s : RArr 256 64
  b1s : RArr1 256
  W2m : RArr 64 256
  b2m : RArr1 64
  W2e : RArr 64 64
  b2e : RArr1 64
  W2s : RArr 64 256
  b2s : RArr1 64

/-- The arguments whose float tables are the images of the given real tables. -/
def RInputs.up (R : RInputs) (ei : Edges) : Inputs where
  x i := R.x i
  ei := ei
  ea i := R.ea i
  W1m i := R.W1m i
  b1m i := R.b1m i
  W1e i := R.W1e i
  b1e i := R.b1e i
  W1s i := R.W1s i
  b1s i := R.b1s i
  W2m i := R.W2m i
  b2m i := R.b2m i
  W2e i := R.W2e i
  b2e i := R.b2e i
  W2s i := R.W2s i
  b2s i := R.b2s i

section up
variable (R : RInputs) (ei : Edges)
@[simp] theorem up_ei : (R.up ei).ei = ei := rfl
@[simp] theorem up_x (i) : (R.up ei).x i = (R.x i : EReal) := rfl
@[simp] theorem up_ea (i) : (R.up ei).ea i = (R.ea i : EReal) := rfl
@[simp] theorem up_W1m (i) : (R.up ei).W1m i = (R.W1m i : EReal) := rfl
@[simp] theorem up_b1m (i) : (R.up ei).b1m i = (R.b1m i : EReal) := rfl
@[simp] theorem up_W1e (i) : (R.up ei).W1e i = (R.W1e i : EReal) := rfl
@[simp] theorem up_b1e (i) : (R.up ei).b1e i = (R.b1e i : EReal) := rfl
@[simp] theorem up_W1s (i) : (R.up ei).W1s i = (R.W1s i : EReal) := rfl
@[simp] theorem up_b1s (i) : (R.up ei).b1s i = (R.b1s i : EReal) := rfl
@[simp] theorem up_W2m (i) : (R.up ei).W2m i = (R.W2m i : EReal) := rfl
@[simp] theorem up_b2m (i) : (R.up ei).b2m i = (R.b2m i : EReal) := rfl
@[simp] theorem up_W2e (i) : (R.up ei).W2e i = (R.W2e i : EReal) := rfl
@[simp] theorem up_b2e (i) : (R.up ei).b2e i = (R.b2e i : EReal) := rfl
@[simp] theorem up_W2s (i) : (R.up ei).W2s i = (R.W2s i : EReal) := rfl
@[simp] theorem up_b2s (i) : (R.up ei).b2s i = (R.b2s i : EReal) := rfl
end up

/-- Arguments whose float entries are all real are the image of real tables. -/
theorem exists_up (I : Inputs) (hf : I.Finite) : ∃ R : RInputs, I = R.up I.ei := by
  obtain ⟨x, ei, ea, W1m, b1m, W1e, b1e, W1s, b1s, W2m, b2m, W2e, b2e, W2s, b2s⟩ := I
  simp only [Inputs.Finite, IsReal] at hf
  obtain ⟨h1, h2, h3, h4, h5, h6, h7, h8, h9, h10, h11, h12, h13, h14⟩ := hf
  choose r1 e1 using h1
  choose r2 e2 using h2
  choose r3 e3 using h3
  choose r4 e4 using h4
  choose r5 e5 using h5
  choose r6 e6 using h6
  choose r7 e7 using h7
  choose r8 e8 using h8
  choose r9 e9 using h9
  choose r10 e10 using h10
  choose r11 e11 using h11
  choose r12 e12 using h12
  choose r13 e13 using h13
  choose r14 e14 using h14
  obtain rfl : x = fun i => (r1 i : EReal) := funext e1
  obtain rfl : ea = fun i => (r2 i : EReal) := funext e2
  obtain rfl : W1m = fun i => (r3 i : EReal) := funext e3
  obtain rfl : b1m = fun i => (r4 i : EReal) := funext e4
  obtain rfl : W1e = fun i => (r5 i : EReal) := funext e5
  obtain rfl : b1e = fun i => (r6 i : EReal) := funext e6
  obtain rfl : W1s = fun i => (r7 i : EReal) := funext e7
  obtain rfl : b1s = fun i => (r8 i : EReal) := funext e8
  obtain rfl : W2m = fun i => (r9 i : EReal) := funext e9
  obtain rfl : b2m = fun i => (r10 i : EReal) := funext e10
  obtain rfl : W2e = fun i => (r11 i : EReal) := funext e11
  obtain rfl : b2e = fun i => (r12 i : EReal) := funext e12
  obtain rfl : W2s = fun i => (r13 i : EReal) := funext e13
  obtain rfl : b2s = fun i => (r14 i : EReal) := funext e14
  exact ⟨⟨r1, r2, r3, r4, r5, r6, r7, r8, r9, r10, r11, r12, r13, r14⟩, rfl⟩

/-! ## The concatenated tables, half by half (any arguments) -/

section halves
variable (I : Inputs)

theorem cat1_lo (n : Fin 50000) (a : Fin 64) : cat1 I (ix2 n (⟨a.val, by omega⟩ : Fin 128)) = aggx I n a := by
  simp [cat1]

theorem cat1_hi (n : Fin 50000) (a : Fin 64) : cat1 I (ix2 n (⟨64 + a.val, by omega⟩ : Fin 128)) = agge I n a := by
  simp [cat1]

theorem wcat_lo (a : Fin 64) (k : Fin 256) : wcat I (ix2 (⟨a.val, by omega⟩ : Fin 128) k) = I.W1m (ix2 k a) := by
  simp [wcat]

theorem wcat_hi (a : Fin 64) (k : Fin 256) : wcat I (ix2 (⟨64 + a.val, by omega⟩ : Fin 128) k) = I.W1e (ix2 k a) := by
  simp [wcat]

theorem cat2Of_lo (Y : Arr 50000 128) (n : Fin 50000) (j : Fin 64) :
    cat2Of I Y (ix2 n (⟨j.val, by omega⟩ : Fin 128))
      = seg I.ei (fun e => Y (ix2 (srcRow I.ei e) (⟨j.val, by omega⟩ : Fin 128))) n := by
  simp [cat2Of]

theorem cat2Of_hi (Y : Arr 50000 128) (n : Fin 50000) (a : Fin 64) :
    cat2Of I Y (ix2 n (⟨64 + a.val, by omega⟩ : Fin 128)) = agge I n a := by
  simp [cat2Of]

end halves

/-- The first launch's result in its first 64 columns. -/
theorem region0_lo (cat : Arr 50000 128) (x : Arr 50000 64) (deg : Arr 50000 1) (wcat : Arr 128 256) (ws : Arr 64 256)
    (bsum bs : Arr 1 256) (w2m : Arr 256 64) (b2m : Arr 1 64) (w2s : Arr 256 64) (b2s : Arr 1 64)
    (n : Fin 50000) (j : Fin 64) :
    region0 cat x deg wcat ws bsum bs w2m b2m w2s b2s n (⟨j.val, by omega⟩ : Fin 128)
      = (∑ k : Fin 256, hidden cat x deg wcat ws bsum bs n k * w2m (ix2 k j)) + b2m (ix2 (0 : Fin 1) j) := by
  simp [region0]

/-- The first launch's result in its last 64 columns. -/
theorem region0_hi (cat : Arr 50000 128) (x : Arr 50000 64) (deg : Arr 50000 1) (wcat : Arr 128 256) (ws : Arr 64 256)
    (bsum bs : Arr 1 256) (w2m : Arr 256 64) (b2m : Arr 1 64) (w2s : Arr 256 64) (b2s : Arr 1 64)
    (n : Fin 50000) (j : Fin 64) :
    region0 cat x deg wcat ws bsum bs w2m b2m w2s b2s n (⟨64 + j.val, by omega⟩ : Fin 128)
      = (∑ k : Fin 256, hidden cat x deg wcat ws bsum bs n k * w2s (ix2 k j)) + b2s (ix2 (0 : Fin 1) j) := by
  simp [region0]

/-! ## The specification's quantities over ℝ -/

section mirrors
variable (R : RInputs) (ei : Edges)

/-- Over ℝ: the summed source rows of x, the summed edge attributes, and the number of edges, per node. -/
def raggx (n : Fin 50000) (b : Fin 64) : ℝ := ∑ e ∈ intoNode ei n, R.x (ix2 (srcRow ei e) b)
def ragge (n : Fin 50000) (b : Fin 64) : ℝ := ∑ e ∈ intoNode ei n, R.ea (ix2 e b)
def rdeg (n : Fin 50000) : ℝ := ∑ _e ∈ intoNode ei n, (1 : ℝ)

/-- Over ℝ: the hidden row as the reference writes it (the products per edge, then the edge sum). -/
def rhid (n : Fin 50000) (k : Fin 256) : ℝ :=
  max ((∑ e ∈ intoNode ei n,
          (((∑ b : Fin 64, R.x (ix2 (srcRow ei e) b) * R.W1m (ix2 k b)) + R.b1m (ix1 k))
            + ((∑ b : Fin 64, R.ea (ix2 e b) * R.W1e (ix2 k b)) + R.b1e (ix1 k))))
        + ((∑ b : Fin 64, R.x (ix2 n b) * R.W1s (ix2 k b)) + R.b1s (ix1 k))) 0

/-- Over ℝ: the hidden row as the first launch computes it (the edge sums first, then the products). -/
def rhidK (n : Fin 50000) (k : Fin 256) : ℝ :=
  max ((((∑ a : Fin 64, raggx R ei n a * R.W1m (ix2 k a)) + ∑ a : Fin 64, ragge R ei n a * R.W1e (ix2 k a))
          + rdeg ei n * (R.b1m (ix1 k) + R.b1e (ix1 k)))
        + ((∑ b : Fin 64, R.x (ix2 n b) * R.W1s (ix2 k b)) + R.b1s (ix1 k))) 0

/-- Over ℝ: the second layer's message from node m, and its self term at node n. -/
def rmsg2 (m : Fin 50000) (j : Fin 64) : ℝ := (∑ k : Fin 256, rhid R ei m k * R.W2m (ix2 j k)) + R.b2m (ix1 j)
def rskip (n : Fin 50000) (j : Fin 64) : ℝ := (∑ k : Fin 256, rhid R ei n k * R.W2s (ix2 j k)) + R.b2s (ix1 j)

/-- Over ℝ: the kernel's result and the reference's. -/
def routK (n : Fin 50000) (j : Fin 64) : ℝ :=
  max ((((∑ e ∈ intoNode ei n, rmsg2 R ei (srcRow ei e) j) + ∑ a : Fin 64, ragge R ei n a * R.W2e (ix2 j a))
          + rdeg ei n * R.b2e (ix1 j))
        + rskip R ei n j) 0
def routR (n : Fin 50000) (j : Fin 64) : ℝ :=
  max ((∑ e ∈ intoNode ei n,
          (rmsg2 R ei (srcRow ei e) j + ((∑ a : Fin 64, R.ea (ix2 e a) * R.W2e (ix2 j a)) + R.b2e (ix1 j))))
        + rskip R ei n j) 0

/-! ### The two identities over ℝ -/

/-- Layer 1: summing x[src e], ea[e] and 1 over the edges first and multiplying afterwards gives the reference's
    hidden row. -/
theorem rhidK_eq (n : Fin 50000) (k : Fin 256) : rhidK R ei n k = rhid R ei n k := by
  have hm := sum_affine (intoNode ei n) (fun e b => R.x (ix2 (srcRow ei e) b)) (fun b => R.W1m (ix2 k b)) (R.b1m (ix1 k))
  have he := sum_affine (intoNode ei n) (fun e b => R.ea (ix2 e b)) (fun b => R.W1e (ix2 k b)) (R.b1e (ix1 k))
  unfold rhidK rhid raggx ragge rdeg
  rw [Finset.sum_add_distrib, hm, he]
  refine congrArg (fun t => max (t + _) 0) ?_
  ring

/-- Layer 2: the same exchange for the edge attributes; the messages are summed over the edges on both sides. -/
theorem routK_eq (n : Fin 50000) (j : Fin 64) : routK R ei n j = routR R ei n j := by
  have he := sum_affine (intoNode ei n) (fun e a => R.ea (ix2 e a)) (fun a => R.W2e (ix2 j a)) (R.b2e (ix1 j))
  unfold routK routR ragge rdeg
  rw [Finset.sum_add_distrib, he]
  refine congrArg (fun t => max (t + _) 0) ?_
  ring

/-! ### Each quantity of the specification is the image of its real counterpart -/

theorem aggx_up (n : Fin 50000) (b : Fin 64) : aggx (R.up ei) n b = (raggx R ei n b : EReal) := by
  simp only [aggx, seg, raggx, up_ei, up_x, coe_sum]

theorem agge_up (n : Fin 50000) (b : Fin 64) : agge (R.up ei) n b = (ragge R ei n b : EReal) := by
  simp only [agge, seg, ragge, up_ei, up_ea, coe_sum]

theorem degree_up (n : Fin 50000) : degree (R.up ei) n = (rdeg ei n : EReal) := by
  simp only [degree, seg, rdeg, up_ei, coe_sum, EReal.coe_one]

/-- The reference's hidden row. -/
theorem hR_up (n : Fin 50000) (k : Fin 256) : hR (R.up ei) n k = (rhid R ei n k : EReal) := by
  simp only [hR, agg1, seg, xmsg1, et1, rhid, up_ei, up_x, up_ea, up_W1m, up_b1m, up_W1e, up_b1e, up_W1s, up_b1s,
    coe_max, EReal.coe_add, coe_sum, EReal.coe_mul, EReal.coe_zero]

/-- The first launch's hidden row: the 128-column product splits into its halves, every factor is real, and the
    real identity of layer 1 applies. -/
theorem hidden_up (n : Fin 50000) (k : Fin 256) :
    hidden (cat1 (R.up ei)) (R.up ei).x (degA (R.up ei)) (wcat (R.up ei)) (wsT (R.up ei)) (bsum (R.up ei))
        (bs1 (R.up ei)) n k = (rhid R ei n k : EReal) := by
  rw [← rhidK_eq]
  unfold hidden
  rw [sum_fin128]
  simp only [cat1_lo, cat1_hi, wcat_lo, wcat_hi, aggx_up, agge_up, degA, wsT, bsum, bs1, mk2_apply, degree_up, rhidK,
    up_x, up_W1m, up_b1m, up_W1e, up_b1e, up_W1s, up_b1s,
    coe_max, EReal.coe_add, coe_sum, EReal.coe_mul, EReal.coe_zero]

end mirrors

/-! ## The two results -/

section results
variable (R : RInputs) (ei : Edges)

/-- What the first launch leaves in its first 64 columns is the second layer's message. -/
theorem packed_lo_up (m : Fin 50000) (j : Fin 64) :
    packed (R.up ei) (ix2 m (⟨j.val, by omega⟩ : Fin 128)) = (rmsg2 R ei m j : EReal) := by
  unfold packed
  rw [mk2_apply, region0_lo]
  simp only [hidden_up, w2mT, b2mR, mk2_apply, rmsg2, up_W2m, up_b2m, EReal.coe_add, coe_sum, EReal.coe_mul]

/-- What the first launch leaves in its last 64 columns is the second layer's self term. -/
theorem packed_hi_up (n : Fin 50000) (j : Fin 64) :
    packed (R.up ei) (ix2 n (⟨64 + j.val, by omega⟩ : Fin 128)) = (rskip R ei n j : EReal) := by
  unfold packed
  rw [mk2_apply, region0_hi]
  simp only [hidden_up, w2sT, b2sR, mk2_apply, rskip, up_W2s, up_b2s, EReal.coe_add, coe_sum, EReal.coe_mul]

/-- The reference's second-layer message. -/
theorem xmsg2_up (m : Fin 50000) (j : Fin 64) : xmsg2 (R.up ei) m j = (rmsg2 R ei m j : EReal) := by
  simp only [xmsg2, hR_up, rmsg2, up_W2m, up_b2m, EReal.coe_add, coe_sum, EReal.coe_mul]

/-- The kernel's result. -/
theorem outK_up (n : Fin 50000) (j : Fin 64) : outK (R.up ei) n j = (routK R ei n j : EReal) := by
  unfold outK region1
  simp only [cat2Of_lo, cat2Of_hi, skipOf, weT, beR, degA, mk2_apply, seg, up_ei, packed_lo_up, packed_hi_up, agge_up,
    degree_up, routK, up_W2e, up_b2e, coe_max, EReal.coe_add, coe_sum, EReal.coe_mul, EReal.coe_zero]

/-- The reference's result. -/
theorem outR_up (n : Fin 50000) (j : Fin 64) : outR (R.up ei) n j = (routR R ei n j : EReal) := by
  simp only [outR, agg2, seg, up_ei, xmsg2_up, et2, hR_up, routR, rskip, up_ea, up_W2e, up_b2e, up_W2s, up_b2s,
    coe_max, EReal.coe_add, coe_sum, EReal.coe_mul, EReal.coe_zero]

end results

end Lift

open Lift in
/-- The kernel's result is the reference's, entry by entry, when every float argument is real. -/
theorem outK_eq_outR (I : Inputs) (hf : I.Finite) (n : Fin 50000) (j : Fin 64) : outK I n j = outR I n j := by
  obtain ⟨R, hI⟩ := exists_up I hf
  rw [hI, outK_up, outR_up, routK_eq]

end Cert.Spec

end
-- ==== Proof.lean ====
/-
  The five claims of the certificate.

  The program: a two-layer message-passing network on a graph of 50000 nodes and 800000 edges. One layer is
      conv(z)[n] = Σ_{e : dst e = n} ( (z[src e]·Wmᵀ + bm) + (ea[e]·Weᵀ + be) )  +  (z[n]·Wsᵀ + bs)
  and the result is relu(conv₂(relu(conv₁(x)))). The reference evaluates this as written. The kernel uses the
  linearity of the edge sum: it sums x[src e], ea[e] and the constant 1 over the edges into each node once, multiplies
  the node tables by the weights in its first launch (which also applies the second layer's two node products to the
  hidden row), sums the projected rows over the edges, and finishes in its second launch.

  Frames. The word-level kernel and the idealized kernel run to the end with their argument arrays unchanged: @main is
  eleven items — host operations, the first launch, host operations, the second launch —; each launch's body is run by
  the symbolic executor at a symbolic grid point, and the run of the items ends with the result buffer at what the
  second launch's write-backs leave and every argument as launched. The frame is that run with the result's conjunct
  dropped. The reference is host operations only: its run.

  preserves. The ideal pass rewrote nothing: the claim is True.

  algebraic. The precondition says every float argument holds real numbers and every edge end point is a node. Then
  the clamp the kernel applies to the edge words, the wrap of a negative word and the out-of-range fill of its row
  gathers are all the identity, so the idealized kernel's result is outK of the arguments; the reference's is outR of
  the same arguments; and outK = outR entry by entry because over the reals a finite sum of products distributes:
  Σ_{e→n} (z[src e]·W + b) = (Σ_{e→n} z[src e])·W + deg(n)·b.
-/
import proofs.«408220_j76836964925933_3_alg».proof.Defs
import proofs.«408220_j76836964925933_3_alg».proof.Proof.Gen.Kernel
import proofs.«408220_j76836964925933_3_alg».proof.Proof.Gen.KernelIdeal
import proofs.«408220_j76836964925933_3_alg».proof.Proof.Gen.ReferenceIdeal
import proofs.«408220_j76836964925933_3_alg».proof.Proof.Gen.Pre_finite_inputs
import proofs.«408220_j76836964925933_3_alg».proof.Proof.KRun
import proofs.«408220_j76836964925933_3_alg».proof.Proof.KIResult
import proofs.«408220_j76836964925933_3_alg».proof.Proof.RefValue
import proofs.«408220_j76836964925933_3_alg».proof.Proof.PreDecode
import proofs.«408220_j76836964925933_3_alg».proof.Proof.Algebra

noncomputable section

namespace Cert.Proof

open Idealize.ShloMosaic Idealize.SL.Sem

variable [Cert.Kernel.Facts] [Cert.KernelIdeal.Facts] [Cert.ReferenceIdeal.Facts] [Cert.Pre_finite_inputs.Facts]

/-- The word-level kernel runs to the end and leaves its arguments unchanged: its run, the result's conjunct dropped. -/
theorem frame_kernel : Cert.frame_Kernel := fun m ρ _ =>
  (θ_run Cert.Kernel.defs _ _).mono (fun _ h c => (h c).2) (Cert.Kernel.Hand.run_value (F := Bits) m ρ)

/-- The idealized kernel likewise. -/
theorem frame_kernelIdeal : Cert.frame_KernelIdeal := fun m ρ _ =>
  (θ_run Cert.KernelIdeal.defs _ _).mono (fun _ h c => (h c).2) (Cert.KernelIdeal.Hand.run_value (F := Ideal) m ρ)

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Memories that agree on the fifteen arguments have the same inputs. -/
theorem inputs_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Hand.inputsOf m' c = Cert.KernelIdeal.Hand.inputsOf m c := by
  obtain ⟨h0, h1, h2, h3, h4, h5, h6, h7, h8, h9, h10, h11, h12, h13, h14⟩ := h
  unfold Cert.ReferenceIdeal.Hand.inputsOf Cert.KernelIdeal.Hand.inputsOf
  rw [h0, h1, h2, h3, h4, h5, h6, h7, h8, h9, h10, h11, h12, h13, h14]

theorem algebraic : Cert.algebraic_KernelIdeal_ReferenceIdeal := by
  intro m ρ m' ρ' hpre hagree
  have hI := fun c => inputs_agree m m' c (hagree c)
  have hd := fun c => Cert.KernelIdeal.Hand.pre_decode m hpre c
  refine ⟨fun c => Cert.KernelIdeal.Hand.outsOf (F := Ideal) m 11 Cert.KernelIdeal.main_v36 c,
    Cert.KernelIdeal.Hand.run_value (F := Ideal) m ρ, ?_⟩
  refine (θ_run Cert.ReferenceIdeal.defs _ _).mono (fun _ h c => ⟨(h c).1.trans ?_, (h c).2⟩)
    (Cert.ReferenceIdeal.Hand.ref_run m' ρ' (fun c => by rw [hI c]; exact (hd c).2))
  show Cert.Spec.mk2 (Cert.Spec.outR (Cert.ReferenceIdeal.Hand.inputsOf m' c))
    = Cert.KernelIdeal.Hand.outsOf (F := Ideal) m 11 Cert.KernelIdeal.main_v36 c
  rw [hI c, Cert.KernelIdeal.Hand.kernel_result m c (hd c).2]
  exact congrArg Cert.Spec.mk2 (funext fun n => funext fun j => (Cert.Spec.outK_eq_outR _ (hd c).1 n j).symm)

end Cert.Proof

namespace Cert.Proof

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
